-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41649249#32 ((134217728 / 9395241 : ℝ) : EReal)
  ∧ IdealRules.named_const.Statement Cert.KernelIdeal.κ "inv_temp" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512x512 : Shape := ⟨2, ![512, 512]⟩
abbrev S256 : Shape := ⟨1, ![256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg3 : IVec S256 32) (main_v13 : IVec S_ 1) (main_v15 : IVec S256 1) (main_c_5 : IVec S_ 32) : IVec S_ 1 :=
  let main_v16 : IVec S256 32 := broadcastInDim S256 ![] bcast_S_S256 main_c_5
  let main_v17 : IVec S256 1 := cmpi .slt main_arg3 main_v16
  let main_v18 : IVec S256 1 := andi main_v15 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v13 main_v19
  main_v20

def fn {F : FTy → Type} [FloatOps F] (main_arg0 : FVec F S512x256 .f32) (main_arg1 : FVec F S512x256 .f32) (main_arg2 : FVec F S512x512 .f32) (main_arg3 : IVec S256 32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_c_4 : IVec S_ 32 := constantI S_ 32 0#32
  let main_v14 : IVec S256 32 := broadcastInDim S256 ![] bcast_S_S256 main_c_4
  let main_v15 : IVec S256 1 := cmpi .sge main_arg3 main_v14
  let main_c_5 : IVec S_ 32 := constantI S_ 32 512#32
  fn_part1 (F := F) main_arg3 main_v13 main_v15 main_c_5
-- ==== Kernel.lean ====
abbrev S512x256 : Shape := ⟨2, ![512, 256]⟩
abbrev S512x512 : Shape := ⟨2, ![512, 512]⟩
abbrev S256 : Shape := ⟨1, ![256]⟩
abbrev S_ : Shape := ⟨0, ![]⟩
abbrev S256x1 : Shape := ⟨2, ![256, 1]⟩
abbrev S1 : Shape := ⟨1, ![1]⟩
abbrev S1x1 : Shape := ⟨2, ![1, 1]⟩
abbrev S256x256 : Shape := ⟨2, ![256, 256]⟩
abbrev S256x512 : Shape := ⟨2, ![256, 512]⟩
abbrev S32x128 : Shape := ⟨2, ![32, 128]⟩
abbrev S64x256 : Shape := ⟨2, ![64, 256]⟩
abbrev S128x256 : Shape := ⟨2, ![128, 256]⟩
abbrev S64x128 : Shape := ⟨2, ![64, 128]⟩
abbrev S8x128 : Shape := ⟨2, ![8, 128]⟩
abbrev S256x128 : Shape := ⟨2, ![256, 128]⟩
abbrev S64x128x1 : Shape := ⟨3, ![64, 128, 1]⟩
abbrev S64x1x256 : Shape := ⟨3, ![64, 1, 256]⟩
abbrev S64x128x256 : Shape := ⟨3, ![64, 128, 256]⟩
abbrev S64 : Shape := ⟨1, ![64]⟩
abbrev S64x1 : Shape := ⟨2, ![64, 1]⟩

abbrev nBuf : Space → Nat
  | .hbm => 67
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x512, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S1, .i32⟩
  | .hbm, ⟨13, _⟩ => ⟨S_, .i32⟩
  | .hbm, ⟨14, _⟩ => ⟨S256x1, .i32⟩
  | .hbm, ⟨15, _⟩ => ⟨S256x1, .i1⟩
  | .hbm, ⟨16, _⟩ => ⟨S1x1, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i1⟩
  | .hbm, ⟨21, _⟩ => ⟨S256, .i1⟩
  | .hbm, ⟨22, _⟩ => ⟨S256x256, .f32⟩
  | .hbm, ⟨23, _⟩ => ⟨S256x256, .i1⟩
  | .hbm, ⟨24, _⟩ => ⟨S_, .f32⟩
  | .hbm, ⟨25, _⟩ => ⟨S256x256, .f32⟩
  | .hbm, ⟨26, _⟩ => ⟨S256x256, .f32⟩
  | .hbm, ⟨27, _⟩ => ⟨S_, .i32⟩
  | .hbm, ⟨28, _⟩ => ⟨S256, .i32⟩
  | .hbm, ⟨29, _⟩ => ⟨S256, .i1⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256, .i32⟩
  | .hbm, ⟨34, _⟩ => ⟨S256x1, .i32⟩
  | .hbm, ⟨35, _⟩ => ⟨S1, .i32⟩
  | .hbm, ⟨36, _⟩ => ⟨S_, .i32⟩
  | .hbm, ⟨37, _⟩ => ⟨S256x1, .i32⟩
  | .hbm, ⟨38, _⟩ => ⟨S256x1, .i1⟩
  | .hbm, ⟨39, _⟩ => ⟨S1x1, .i32⟩
  | .hbm, ⟨40, _⟩ => ⟨S256x1, .i32⟩
  | .hbm, ⟨41, _⟩ => ⟨S256x1, .i1⟩
  | .hbm, ⟨42, _⟩ => ⟨S256x1, .i1⟩
  | .hbm, ⟨43, _⟩ => ⟨S_, .i1⟩
  | .hbm, ⟨44, _⟩ => ⟨S256, .i1⟩
  | .hbm, ⟨45, _⟩ => ⟨S256x512, .f32⟩
  | .hbm, ⟨46, _⟩ => ⟨S256x512, .i1⟩
  | .hbm, ⟨47, _⟩ => ⟨S_, .f32⟩
  | .hbm, ⟨48, _⟩ => ⟨S256x512, .f32⟩
  | .hbm, ⟨49, _⟩ => ⟨S256x512, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S32x128, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S256, .f32⟩
  | .hbm, ⟨58, _⟩ => ⟨S_, .f32⟩
  | .hbm, ⟨59, _⟩ => ⟨S256, .f32⟩
  | .hbm, ⟨60, _⟩ => ⟨S256, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .local _ .vmem, ⟨0, _⟩ => ⟨S64x256, .f32⟩
  | .local _ .vmem, ⟨1, _⟩ => ⟨S64x256, .f32⟩
  | .local _ .vmem, ⟨2, _⟩ => ⟨S128x256, .f32⟩
  | .local _ .vmem, ⟨3, _⟩ => ⟨S128x256, .f32⟩
  | .local _ .vmem, ⟨4, _⟩ => ⟨S256x256, .f32⟩
  | .local _ .vmem, ⟨5, _⟩ => ⟨S256x256, .f32⟩
  | .local _ .vmem, ⟨6, _⟩ => ⟨S64x128, .f32⟩
  | .local _ .vmem, ⟨7, _⟩ => ⟨S64x128, .f32⟩
  | .local _ .vmem, ⟨8, _⟩ => ⟨S64x256, .f32⟩
  | .local _ .vmem, ⟨9, _⟩ => ⟨S64x256, .f32⟩
  | .local _ .vmem, ⟨10, _⟩ => ⟨S8x128, .f32⟩
  | .local _ .vmem, ⟨11, _⟩ => ⟨S8x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_cst : Ref sig .tc := ⟨.hbm, 50, rfl⟩
abbrev main_v2 : Ref sig .tc := ⟨.hbm, 51, rfl⟩
abbrev main_v3 : Ref sig .tc := ⟨.hbm, 52, rfl⟩
abbrev main_v4 : Ref sig .tc := ⟨.hbm, 53, rfl⟩
abbrev main_cst_0 : Ref sig .tc := ⟨.hbm, 54, rfl⟩
abbrev main_v5 : Ref sig .tc := ⟨.hbm, 55, rfl⟩
abbrev main_cst_1 : Ref sig .tc := ⟨.hbm, 56, rfl⟩
abbrev main_v6 : Ref sig .tc := ⟨.hbm, 57, rfl⟩
abbrev main_cst_2 : Ref sig .tc := ⟨.hbm, 58, rfl⟩
abbrev main_v7 : Ref sig .tc := ⟨.hbm, 59, rfl⟩
abbrev main_v8 : Ref sig .tc := ⟨.hbm, 60, rfl⟩
abbrev main_cst_3 : Ref sig .tc := ⟨.hbm, 61, rfl⟩
abbrev main_v9 : Ref sig .tc := ⟨.hbm, 62, rfl⟩
abbrev main_cst_4 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  h_S_ : 0 < S_.numel
  bcast_S256_S256x256_0 : S256.BroadcastsInDim S256x256 (![0] : Fin 1 → Fin S256x256.rank)
  bcast_S_S256x256 : S_.BroadcastsInDim S256x256 (![] : Fin 0 → Fin S256x256.rank)
  bcast_S256_S256x512_0 : S256.BroadcastsInDim S256x512 (![0] : Fin 1 → Fin S256x512.rank)
  bcast_S_S256x512 : S_.BroadcastsInDim S256x512 (![] : Fin 0 → Fin S256x512.rank)
  inb_S8x128_S8x128_0_0 : ∀ a, (![0, 0] : Fin 2 → Nat) a + S8x128.size a ≤ S8x128.size a
  h_S8x128 : 0 < S8x128.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  transposes_S128x256_p1_0_S256x128 : S128x256.Transposes [1, 0] S256x128
  transposes_S256x256_p1_0_S256x256 : S256x256.Transposes [1, 0] S256x256
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x256_S64x1x256 : S64x256.ShapeCasts S64x1x256
  broadcasts_S64x128x1_S64x128x256 : S64x128x1.Broadcasts S64x128x256
  broadcasts_S64x1x256_S64x128x256 : S64x1x256.Broadcasts S64x128x256
  reduces_S64x128x256_S64x128 : S64x128x256.Reduces [2] S64x128
  reduces_S64x128_S64 : S64x128.Reduces [1] S64
  shapeCasts_S64_S64x1 : S64.ShapeCasts S64x1
  reduces_S64x1_S1 : S64x1.Reduces [0] S1
  shapeCasts_S1_S1x1 : S1.ShapeCasts S1x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  reducesTo_S32x128_S_d0_1 : S32x128.ReducesTo [0, 1] S_
  reducesTo_S256x512_S256_d1 : S256x512.ReducesTo [1] S256
  reducesTo_S256_S_d0 : S256.ReducesTo [0] S_
  gather_S512x256_S256x1_S256x256_1_0_n_n_0_1_1256_wf : GatherDims.WF S512x256 S256x1 S256x256 [1] [0] [] [0] [] 1 ![1, 256]
  gather_S512x512_S256x1_S256x512_1_0_n_n_0_1_1512_wf : GatherDims.WF S512x512 S256x1 S256x512 [1] [0] [] [0] [] 1 ![1, 512]
  dot_S64x256_S256x128_S64x128_1_0_0_1_n_n_wf : DotDims.WF S64x256 S256x128 S64x128 [1] [0] [0] [1] [] []
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S256x256.size a
  hwx0_0 : ∀ i : grid0.Coords, EltTy.bits .f32 = 32 ∨ (Rect.block (s := S256x256) S64x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S512x256.size a
  hwx0_1 : ∀ i : grid0.Coords, EltTy.bits .f32 = 32 ∨ (Rect.block (s := S512x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S512x256.size a
  hwx0_2 : ∀ i : grid0.Coords, EltTy.bits .f32 = 32 ∨ (Rect.block (s := S512x256) S256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S256x512.size a
  hwx0_3 : ∀ i : grid0.Coords, EltTy.bits .f32 = 32 ∨ (Rect.block (s := S256x512) S64x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S256x512.size a
  hwx0_4 : ∀ i : grid0.Coords, EltTy.bits .f32 = 32 ∨ (Rect.block (s := S256x512) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x128.size a ≤ S32x128.size a
  hwx0_5 : ∀ i : grid0.Coords, EltTy.bits .f32 = 32 ∨ (Rect.block (s := S32x128) S8x128.size (cc0_transform_5 i) (hinb0_5 i)).WholeWords (EltTy.packing .f32)

variable [Facts₀]

def gather_S512x256_S256x1_S256x256_1_0_n_n_0_1_1256 : GatherDims S512x256 S256x1 S256x256 where
  offsetDims := [1]
  collapsedSliceDims := [0]
  operandBatchingDims := []
  startIndicesBatchingDims := []
  startIndexMap := [0]
  indexVectorDim := 1
  sliceSizes := ![1, 256]
  wf := gather_S512x256_S256x1_S256x256_1_0_n_n_0_1_1256_wf
def gather_S512x512_S256x1_S256x512_1_0_n_n_0_1_1512 : GatherDims S512x512 S256x1 S256x512 where
  offsetDims := [1]
  collapsedSliceDims := [0]
  operandBatchingDims := []
  startIndicesBatchingDims := []
  startIndexMap := [0]
  indexVectorDim := 1
  sliceSizes := ![1, 512]
  wf := gather_S512x512_S256x1_S256x512_1_0_n_n_0_1_1512_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v0) S64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x256 : Shape := ⟨2, ![512, 256]⟩
abbrev S512x512 : Shape := ⟨2, ![512, 512]⟩
abbrev S256 : Shape := ⟨1, ![256]⟩
abbrev S_ : Shape := ⟨0, ![]⟩
abbrev S256x1 : Shape := ⟨2, ![256, 1]⟩
abbrev S256x256 : Shape := ⟨2, ![256, 256]⟩
abbrev S256x512 : Shape := ⟨2, ![256, 512]⟩
abbrev S256x512x1 : Shape := ⟨3, ![256, 512, 1]⟩
abbrev S256x1x512 : Shape := ⟨3, ![256, 1, 512]⟩
abbrev S256x512x512 : Shape := ⟨3, ![256, 512, 512]⟩

abbrev nBuf : Space → Nat
  | .hbm => 80
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x512, .f32⟩
  | .hbm, ⟨3, _⟩ => ⟨S256, .i32⟩
  | .hbm, ⟨4, _⟩ => ⟨S_, .i32⟩
  | .hbm, ⟨5, _⟩ => ⟨S256, .i32⟩
  | .hbm, ⟨6, _⟩ => ⟨S256, .i1⟩
  | .hbm, ⟨7, _⟩ => ⟨S_, .i32⟩
  | .hbm, ⟨8, _⟩ => ⟨S256, .i32⟩
  | .hbm, ⟨9, _⟩ => ⟨S256, .i32⟩
  | .hbm, ⟨10, _⟩ => ⟨S256, .i32⟩
  | .hbm, ⟨11, _⟩ => ⟨S256x1, .i32⟩
  | .hbm, ⟨12, _⟩ => ⟨S256x256, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S256x512, .f32⟩
  | .hbm, ⟨27, _⟩ => ⟨S_, .f32⟩
  | .hbm, ⟨28, _⟩ => ⟨S512x512, .f32⟩
  | .hbm, ⟨29, _⟩ => ⟨S512x512, .f32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S256x512, .f32⟩
  | .hbm, ⟨39, _⟩ => ⟨S256x512x1, .f32⟩
  | .hbm, ⟨40, _⟩ => ⟨S256x1x512, .f32⟩
  | .hbm, ⟨41, _⟩ => ⟨S256x512x512, .f32⟩
  | .hbm, ⟨42, _⟩ => ⟨S256x512x512, .f32⟩
  | .hbm, ⟨43, _⟩ => ⟨S256x512x512, .f32⟩
  | .hbm, ⟨44, _⟩ => ⟨S256x512x1, .f32⟩
  | .hbm, ⟨45, _⟩ => ⟨S256x1x512, .f32⟩
  | .hbm, ⟨46, _⟩ => ⟨S256x512x512, .f32⟩
  | .hbm, ⟨47, _⟩ => ⟨S256x512x512, .f32⟩
  | .hbm, ⟨48, _⟩ => ⟨S256x512x512, .f32⟩
  | .hbm, ⟨49, _⟩ => ⟨S256x512x512, .f32⟩
  | .hbm, ⟨50, _⟩ => ⟨S_, .f32⟩
  | .hbm, ⟨51, _⟩ => ⟨S256x512x512, .f32⟩
  | .hbm, ⟨52, _⟩ => ⟨S256x512x512, .f32⟩
  | .hbm, ⟨53, _⟩ => ⟨S256x512x512, .f32⟩
  | .hbm, ⟨54, _⟩ => ⟨S256x512x512, .f32⟩
  | .hbm, ⟨55, _⟩ => ⟨S256x512x512, .i1⟩
  | .hbm, ⟨56, _⟩ => ⟨S256x512x512, .f32⟩
  | .hbm, ⟨57, _⟩ => ⟨S256x512x512, .f32⟩
  | .hbm, ⟨58, _⟩ => ⟨S256x512x512, .f32⟩
  | .hbm, ⟨59, _⟩ => ⟨S256x512x512, .f32⟩
  | .hbm, ⟨60, _⟩ => ⟨S256x512x512, .f32⟩
  | .hbm, ⟨61, _⟩ => ⟨S256x512x512, .f32⟩
  | .hbm, ⟨62, _⟩ => ⟨S256x512x512, .f32⟩
  | .hbm, ⟨63, _⟩ => ⟨S256x512x512, .f32⟩
  | .hbm, ⟨64, _⟩ => ⟨S256x512x512, .f32⟩
  | .hbm, ⟨65, _⟩ => ⟨S256x512x512, .f32⟩
  | .hbm, ⟨66, _⟩ => ⟨S256x512x512, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S256, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_c_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_cst_10 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  transposes_S512x256_S256x512_1_0 : S512x256.Transposes [1, 0] S256x512
  bcast_S_S256x512 : S_.BroadcastsInDim S256x512 (![] : Fin 0 → Fin S256x512.rank)
  bcast_S_S512x512 : S_.BroadcastsInDim S512x512 (![] : Fin 0 → Fin S512x512.rank)
  bcast_S256x512_S256x512x1_0_1 : S256x512.BroadcastsInDim S256x512x1 (![0, 1] : Fin 2 → Fin S256x512x1.rank)
  bcast_S256x512_S256x1x512_0_2 : S256x512.BroadcastsInDim S256x1x512 (![0, 2] : Fin 2 → Fin S256x1x512.rank)
  bcast_S256x512x1_S256x512x512_0_1_2 : S256x512x1.BroadcastsInDim S256x512x512 (![0, 1, 2] : Fin 3 → Fin S256x512x512.rank)
  bcast_S256x1x512_S256x512x512_0_1_2 : S256x1x512.BroadcastsInDim S256x512x512 (![0, 1, 2] : Fin 3 → Fin S256x512x512.rank)
  bcast_S_S256x512x512 : S_.BroadcastsInDim S256x512x512 (![] : Fin 0 → Fin S256x512x512.rank)
  reducesTo_S256x512x512_S_d0_1_2 : S256x512x512.ReducesTo [0, 1, 2] S_
  h_S_ : 0 < S_.numel
  reducesTo_S256x512_S256_d1 : S256x512.ReducesTo [1] S256
  reducesTo_S256_S_d0 : S256.ReducesTo [0] S_
  gather_S512x256_S256x1_S256x256_1_0_n_n_0_1_1256_wf : GatherDims.WF S512x256 S256x1 S256x256 [1] [0] [] [0] [] 1 ![1, 256]
  dot_S256x256_S256x512_S256x512_1_0_0_1_n_n_wf : DotDims.WF S256x256 S256x512 S256x512 [1] [0] [0] [1] [] []
  gather_S512x512_S256x1_S256x512_1_0_n_n_0_1_1512_wf : GatherDims.WF S512x512 S256x1 S256x512 [1] [0] [] [0] [] 1 ![1, 512]

variable [Facts₀]

def gather_S512x256_S256x1_S256x256_1_0_n_n_0_1_1256 : GatherDims S512x256 S256x1 S256x256 where
  offsetDims := [1]
  collapsedSliceDims := [0]
  operandBatchingDims := []
  startIndicesBatchingDims := []
  startIndexMap := [0]
  indexVectorDim := 1
  sliceSizes := ![1, 256]
  wf := gather_S512x256_S256x1_S256x256_1_0_n_n_0_1_1256_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def gather_S512x512_S256x1_S256x512_1_0_n_n_0_1_1512 : GatherDims S512x512 S256x1 S256x512 where
  offsetDims := [1]
  collapsedSliceDims := [0]
  operandBatchingDims := []
  startIndicesBatchingDims := []
  startIndexMap := [0]
  indexVectorDim := 1
  sliceSizes := ![1, 512]
  wf := gather_S512x512_S256x1_S256x512_1_0_n_n_0_1_1512_wf

class Facts : Prop extends Facts₀ where

variable [Facts]
-- ==== Proof.KI.Region.lean ====
/-
  The idealized kernel's one pallas_call, read at the contents `V` its region is entered with.

  The grid has 32 points in row-major order over (row block, positive block, negative block) = (4, 4, 2):
  point t sits in row block t / 8, and t % 8 = 0 exactly when it is the first point of its row block.
  The output window's block is addressed by the row block alone, so its staging buffer is carried
  through the eight points of a row block and written back after the last of them.  At the first
  point of a row block the body clears the whole 8x128 buffer and then adds the tile's sum into
  cell (0, 0); at every other point it only adds the tile's sum into cell (0, 0).

  Windows 1 and 2 (the positive and the negative block of the second feature array) read ONE array,
  so each holds half of its share.
-/
import proofs.«423171_j44796508897295_3_alg».proof.Proof.Gen.KernelIdeal.Launch
import proofs.«423171_j44796508897295_3_alg».proof.Proof.Gen.KernelIdeal.Skeleton
import proofs.«423171_j44796508897295_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F] [Named F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 8x128 output buffer, and its cell (0, 0). -/
abbrev rAll : Rect S8x128 := Rect.unit (s := S8x128) ![0, 0] S8x128.size inb_S8x128_S8x128_0_0
abbrev rCell : Rect S8x128 := Rect.unit (s := S8x128) ![0, 0] S1x1.size inb_S8x128_S1x1_0_0

/-- What the body stores into cell (0, 0): the cell's old value `old` plus the tile's sum, the tile's sum
    being the masked softplus of the pairwise differences of the two similarity blocks summed over the
    negative, the positive and the row axis (the printed payloads composed). -/
def cellVal (x0 : Vec F S64x256 .f32) (x1 : Vec F S128x256 .f32) (x2 : Vec F S256x256 .f32)
    (x3 : Vec F S64x128 .f32) (x4 : Vec F S64x256 .f32) (old : Vec F S1x1 .f32) : Vec F S1x1 .f32 :=
  k0_pay1 (k0_pay3 x3) (k0_pay4 x4) (k0_pay6 x0 x1 x2) (k0_pay8 x0 x1 x2) (k0_pay9 x0 x1 x2) (k0_pay10 x0 x1 x2)
    (Scalar.ofBits .f32 0x00000000#32) old

/-- The output buffer after the body at the FIRST point of a row block: cleared, then cell (0, 0) at the
    cleared value plus the tile's sum. -/
def outA (x0 : Vec F S64x256 .f32) (x1 : Vec F S128x256 .f32) (x2 : Vec F S256x256 .f32)
    (x3 : Vec F S64x128 .f32) (x4 : Vec F S64x256 .f32) : Vec F S8x128 .f32 :=
  View.canon [⟨rCell, cellVal x0 x1 x2 x3 x4 (View.ld (k0_pay2 (F := F)) rCell)⟩, ⟨rAll, k0_pay2 (F := F)⟩]

/-- The output buffer after the body at any LATER point of a row block, over what the point before left
    (`prev`): unchanged but for cell (0, 0), which gains the tile's sum. -/
def outB (prev : Vec F S8x128 .f32) (x0 : Vec F S64x256 .f32) (x1 : Vec F S128x256 .f32) (x2 : Vec F S256x256 .f32)
    (x3 : Vec F S64x128 .f32) (x4 : Vec F S64x256 .f32) : Vec F S8x128 .f32 :=
  View.canon [⟨rCell, cellVal x0 x1 x2 x3 x4 (View.ld prev rCell)⟩, ⟨rAll, prev⟩]

/-! ## The two rectangles: the whole buffer and its corner cell -/

/-- The zero offsets, as the constant function. -/
theorem hz2 : (![0, 0] : Fin 2 → ℕ) = fun _ => 0 := by
  funext a; match a with | ⟨0, _⟩ => rfl | ⟨1, _⟩ => rfl

/-- The corner cell's one element sits at index (0, 0) of the buffer. -/
theorem rCell_emb (x : S1x1.Idx) : rCell.emb x = (ix2 0 0 : S8x128.Idx) := by
  have h0 : (x 0).val < 1 := idx2_lt0 x
  have h1 : (x 1).val < 1 := idx2_lt1 x
  funext a
  apply Fin.ext
  rw [Rect.emb_apply]
  match a with
  | ⟨0, _⟩ => show 0 + 1 * (x 0).val = 0; omega
  | ⟨1, _⟩ => show 0 + 1 * (x 1).val = 0; omega

/-- An index of the buffer is in the corner cell exactly when it is (0, 0). -/
theorem mem_rCell (y : S8x128.Idx) : y ∈ rCell.set ↔ y = ix2 0 0 := by
  constructor
  · intro h
    obtain ⟨x, rfl⟩ : ∃ x, rCell.emb x = y := rCell.exists_idx_of_mem h
    exact rCell_emb x
  · rintro rfl
    rw [← rCell_emb (ix2 0 0), ← Rect.map_emb_univ]
    exact Finset.mem_map_of_mem _ (Finset.mem_univ _)

/-- A load of the corner cell reads the buffer at (0, 0). -/
theorem ld_rCell (X : Vec F S8x128 .f32) : View.ld X rCell = fun _ => X (ix2 0 0) := by
  funext x
  show X (rCell.emb x) = X (ix2 0 0)
  rw [rCell_emb]

/-- The cell's store over one covering piece at `X`: the store's payload at (0, 0), -/
theorem canon_two_cell (P : Vec F S1x1 .f32) (X : Vec F S8x128 .f32) :
    View.canon [(⟨rCell, P⟩ : View.Piece (Elt F) S8x128 .f32), ⟨rAll, X⟩] (ix2 0 0) = P (ix2 0 0) := by
  have e := View.canon_cons_emb (Val := Elt F) rCell P [⟨rAll, X⟩] (ix2 0 0)
  rw [rCell_emb] at e
  exact e

/-- and `X` everywhere else. -/
theorem canon_two_rest (P : Vec F S1x1 .f32) (X : Vec F S8x128 .f32) (y : S8x128.Idx) (hy : y ≠ ix2 0 0) :
    View.canon [(⟨rCell, P⟩ : View.Piece (Elt F) S8x128 .f32), ⟨rAll, X⟩] y = X y := by
  have hny : y ∉ rCell.set := fun h => hy ((mem_rCell y).mp h)
  rw [View.canon_cons_of_not_mem (⟨rCell, P⟩ : View.Piece (Elt F) S8x128 .f32) [⟨rAll, X⟩] hny, View.canon_unit_zero hz2]

/-- A load of the corner cell after one store that covers the whole buffer reads that store's payload at (0, 0). -/
theorem readCov_cell_after_fill {sig' : RefSig} {κ : Kind} {sp : Space} (v : View sig' κ sp S8x128 .f32) (Z : Vec F S8x128 .f32) :
    v.readCov [(⟨rAll, Z⟩ : View.Piece (Elt F) S8x128 .f32)] rCell.toLoadRect = View.ld Z rCell := by
  rw [View.readCov_eq_canon', View.canon_unit_zero (S := S8x128) hz2]

/-- The cell's store and a store of the whole buffer together cover the buffer. -/
theorem cover_two (P : Vec F S1x1 .f32) (Z : Vec F S8x128 .f32) (y : S8x128.Idx) :
    ∃ p ∈ ([⟨rCell, P⟩, ⟨rAll, Z⟩] : List (View.Piece (Elt F) S8x128 .f32)), y ∈ p.1.set :=
  ⟨⟨rAll, Z⟩, List.mem_cons_of_mem _ (List.mem_singleton_self _), View.mem_set_unit_zero hz2 inb_S8x128_S8x128_0_0 y⟩

/-- One store through a rectangle over contents that read `X`: the store's payload on the rectangle, `X` off it —
    as the canon of the store over one covering piece at `X`. -/
theorem read_writes_one {sig' : RefSig} {κ : Kind} {sp : Space} (v : View sig' κ sp S8x128 .f32) (f : v.ty.Contents (Elt F))
    (X : Vec F S8x128 .f32) (hf : v.read (Elt F) f = X) (r : Rect S8x128) (P : r.shape.Idx → Elt F .f32) :
    v.read (Elt F) (v.writes (Elt F) f [⟨r, P⟩]) = View.canon [⟨r, P⟩, ⟨rAll, X⟩] := by
  funext y
  by_cases hy : y ∈ r.set
  · obtain ⟨x, rfl⟩ : ∃ x, r.emb x = y := r.exists_idx_of_mem hy
    rw [View.read_writes_cons_emb, View.canon_cons_emb]
  · rw [View.read_writes_apply_of_forall_not_mem v f y [⟨r, P⟩] (fun p hp => by rw [List.mem_singleton.mp hp]; exact hy),
      View.canon_cons_of_not_mem (⟨r, P⟩ : View.Piece (Elt F) S8x128 .f32) [⟨rAll, X⟩] hy, View.canon_unit_zero hz2, hf]

/-! ## What the two cases leave, cell by cell -/

theorem outA_cell (x0 : Vec F S64x256 .f32) (x1 : Vec F S128x256 .f32) (x2 : Vec F S256x256 .f32)
    (x3 : Vec F S64x128 .f32) (x4 : Vec F S64x256 .f32) :
    outA x0 x1 x2 x3 x4 (ix2 0 0) = cellVal x0 x1 x2 x3 x4 (fun _ => k0_pay2 (F := F) (ix2 0 0)) (ix2 0 0) := by
  unfold outA
  rw [canon_two_cell, ld_rCell]
  rfl

theorem outA_rest (x0 : Vec F S64x256 .f32) (x1 : Vec F S128x256 .f32) (x2 : Vec F S256x256 .f32)
    (x3 : Vec F S64x128 .f32) (x4 : Vec F S64x256 .f32) (y : S8x128.Idx) (hy : y ≠ ix2 0 0) :
    outA x0 x1 x2 x3 x4 y = k0_pay2 (F := F) y := by
  unfold outA
  exact canon_two_rest _ _ y hy

theorem outB_cell (prev : Vec F S8x128 .f32) (x0 : Vec F S64x256 .f32) (x1 : Vec F S128x256 .f32) (x2 : Vec F S256x256 .f32)
    (x3 : Vec F S64x128 .f32) (x4 : Vec F S64x256 .f32) :
    outB prev x0 x1 x2 x3 x4 (ix2 0 0) = cellVal x0 x1 x2 x3 x4 (fun _ => prev (ix2 0 0)) (ix2 0 0) := by
  unfold outB
  rw [canon_two_cell, ld_rCell]
  rfl

theorem outB_rest (prev : Vec F S8x128 .f32) (x0 : Vec F S64x256 .f32) (x1 : Vec F S128x256 .f32) (x2 : Vec F S256x256 .f32)
    (x3 : Vec F S64x128 .f32) (x4 : Vec F S64x256 .f32) (y : S8x128.Idx) (hy : y ≠ ix2 0 0) :
    outB prev x0 x1 x2 x3 x4 y = prev y := by
  unfold outB
  exact canon_two_rest _ _ y hy

/-! ## The body's branch condition -/

/-- The condition of the body's one `scf.if`, from the grid coordinates (the printed scalar chain substituted):
    the positive-block and the negative-block coordinate are both zero. -/
abbrev condA (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- It holds at the first point of each row block only — decided over the grid. -/
theorem hcondA : ∀ t : Fin cfg0.N, condA (grid0.coords t) ↔ t.val % 8 = 0 :=
  (by decide +kernel : ∀ t : Fin grid0.N, condA (grid0.coords t) ↔ t.val % 8 = 0)

/-! ## The body's triple, case by case -/

set_option maxHeartbeats 1000000 in
/-- The kernel body at the FIRST point of a row block, on whole staging buffers — the inputs' at contents `x0 … x4`, the
    output's at anything —, runs to the continuation holding the inputs' as they were and the output's at `outA`: it clears
    the whole buffer, reads the cleared cell (0, 0) back, and stores that cell plus the tile's sum. -/
theorem sound_kernelA (c : Dev nD) (E : Set ℕ) (i : grid0.Coords)
    (arg3 : Memref sig .tc .vmem S64x256 .f32) (harg3 : arg3.IsWhole) (arg4 : Memref sig .tc .vmem S128x256 .f32) (harg4 : arg4.IsWhole)
    (arg5 : Memref sig .tc .vmem S256x256 .f32) (harg5 : arg5.IsWhole) (arg6 : Memref sig .tc .vmem S64x128 .f32) (harg6 : arg6.IsWhole)
    (arg7 : Memref sig .tc .vmem S64x256 .f32) (harg7 : arg7.IsWhole) (arg8 : Memref sig .tc .vmem S8x128 .f32) (harg8 : arg8.IsWhole)
    (hc : condA i) (x0 : Vec F S64x256 .f32) (x1 : Vec F S128x256 .f32) (x2 : Vec F S256x256 .f32) (x3 : Vec F S64x128 .f32) (x4 : Vec F S64x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (outA x0 x1 x2 x3 x4)) -∗ K ⟨⟩))
      ⊢ wp frame (wpE (defs₀ (F := F)) Variants.none c none) E (cc0__bpr_kernel i arg3 harg3 arg4 harg4 arg5 harg5 arg6 harg6 arg7 harg7 arg8 harg8) K := by
  simp only [cc0__bpr_kernel_eq_skeleton]; unfold cc0__bpr_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg3.eq_unread hf0; obtain rfl := harg4.eq_unread hf1; obtain rfl := harg5.eq_unread hf2
  obtain rfl := harg6.eq_unread hf3; obtain rfl := harg7.eq_unread hf4
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  sl_unfold_words
  rw [View.read_writes_eq_canon _ _ _ (cover_two _ _), readCov_cell_after_fill]
  unfold outA cellVal
  simp only [View.readAt_eq_ld, Memref.IsWhole.read_unread, View.ld_unit_zero (S := S64x256) hz2, View.ld_unit_zero (S := S128x256) hz2,
    View.ld_unit_zero (S := S256x256) hz2, View.ld_unit_zero (S := S64x128) hz2]

set_option maxHeartbeats 1000000 in
/-- The kernel body at a LATER point of a row block, the output's buffer at `prev` (what the point before left): it reads
    cell (0, 0) of `prev` and stores it back plus the tile's sum; every other cell keeps `prev`. -/
theorem sound_kernelB (c : Dev nD) (E : Set ℕ) (i : grid0.Coords)
    (arg3 : Memref sig .tc .vmem S64x256 .f32) (harg3 : arg3.IsWhole) (arg4 : Memref sig .tc .vmem S128x256 .f32) (harg4 : arg4.IsWhole)
    (arg5 : Memref sig .tc .vmem S256x256 .f32) (harg5 : arg5.IsWhole) (arg6 : Memref sig .tc .vmem S64x128 .f32) (harg6 : arg6.IsWhole)
    (arg7 : Memref sig .tc .vmem S64x256 .f32) (harg7 : arg7.IsWhole) (arg8 : Memref sig .tc .vmem S8x128 .f32) (harg8 : arg8.IsWhole)
    (hc : ¬ condA i) (x0 : Vec F S64x256 .f32) (x1 : Vec F S128x256 .f32) (x2 : Vec F S256x256 .f32) (x3 : Vec F S64x128 .f32) (x4 : Vec F S64x256 .f32)
    (prev : Vec F S8x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare prev
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare x4 ∗ owns (c : Thread nD τ) arg8 fullShare (outB prev x0 x1 x2 x3 x4)) -∗ K ⟨⟩))
      ⊢ wp frame (wpE (defs₀ (F := F)) Variants.none c none) E (cc0__bpr_kernel i arg3 harg3 arg4 harg4 arg5 harg5 arg6 harg6 arg7 harg7 arg8 harg8) K := by
  simp only [cc0__bpr_kernel_eq_skeleton]; unfold cc0__bpr_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  iexists _; isplitr
  swap; · iexact H5
  ipureintro
  rw [read_writes_one _ _ prev (harg8.read_unread prev)]
  unfold outB cellVal
  sl_unfold_words
  simp only [View.readAt_eq_ld, Memref.IsWhole.read_unread, View.ld_unit_zero (S := S64x256) hz2, View.ld_unit_zero (S := S128x256) hz2,
    View.ld_unit_zero (S := S256x256) hz2, View.ld_unit_zero (S := S64x128) hz2]

/-- THE ACCUMULATION: what the output's staging buffer holds after the body at position `n`. -/
def outsAt0 (c : Dev nD) : (n : ℕ) → n < cfg0.N → Vec F S8x128 .f32
  | 0, hn => outA (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn =>
    if (n + 1) % 8 = 0 then
      outA (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
    else
      outB (outsAt0 c n (Nat.lt_of_succ_lt hn))
        (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)

/-- `outsAt0` at the first point of a row block: the cleared buffer with the tile's sum in cell (0, 0). -/
theorem outsAt0_A (c : Dev nD) (t : Fin cfg0.N) (h : t.val % 8 = 0) :
    outsAt0 V c t.val t.isLt = outA (iblk0 V c 0 t) (iblk0 V c 1 t) (iblk0 V c 2 t) (iblk0 V c 3 t) (iblk0 V c 4 t) := by
  obtain ⟨n, hn⟩ := t
  cases n with
  | zero => exact rfl
  | succ n => exact (if_pos h).trans rfl

/-- `outsAt0` at a later point of a row block: what the point before left, cell (0, 0) gaining the tile's sum. -/
theorem outsAt0_B (c : Dev nD) (t : Fin cfg0.N) (h : ¬t.val % 8 = 0) :
    outsAt0 V c t.val t.isLt = outB (outsAt0 V c (t.val - 1) (Nat.lt_of_le_of_lt (Nat.sub_le _ _) t.isLt))
      (iblk0 V c 0 t) (iblk0 V c 1 t) (iblk0 V c 2 t) (iblk0 V c 3 t) (iblk0 V c 4 t) := by
  obtain ⟨n, hn⟩ := t
  cases n with
  | zero => exact absurd (Nat.zero_mod _) h
  | succ n => exact (if_neg h).trans rfl

/-- The pipeline's proof data on core `c`: the arrays as the region finds them; after the body each input's
    buffer at its block and the output's at `outsAt0`; the invariant the scoped rest and the generator
    register, untouched; nothing owed; the two windows on the shared array at half shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outsAt0 V c t.val t.isLt
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

/-! ## What the body finds in each window's buffer, and what it leaves -/

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outsAt0 V c t.val t.isLt := by dsimp only [dat0]

/-- Input window 0's current staging buffer holds its block at every point, fetched there or not: unfetched, its
    block index has not moved; the window is uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not: unfetched, its
    block index has not moved; the window is uncut and never idle. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not: unfetched, its
    block index has not moved; the window is uncut and never idle. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not: unfetched, its
    block index has not moved; the window is uncut and never idle. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4's current staging buffer holds its block at every point, fetched there or not: unfetched, its
    block index has not moved; the window is uncut and never idle. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- At a later point of a row block the output's current staging buffer holds what the body left at the point before:
    the point is not the first, the buffer was not written back between (it is written back after the last point of a
    row block only), the window is live and uncut. -/
theorem before0_5_B (c : Dev nD) (t : Fin cfg0.N) (h0 : ¬t.val % 8 = 0) (d) :
    (dat0 V c).before 5 t d = outsAt0 V c (t.val - 1) (Nat.lt_of_le_of_lt (Nat.sub_le _ _) t.isLt) := by
  have hN : t.val < 32 := lt_of_lt_of_eq t.isLt (show cfg0.N = 32 from N_0)
  rw [Dat.before_out_kept _ 5 rfl t (by omega) (Bool.eq_false_iff.mpr fun h => by have := (flush0_5 _).mp h; dsimp only at this; omega)
    (fun _ => rfl) (fun _ _ => rfl)]
  dsimp only [dat0]

/-! ## The body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point: the inputs' buffers hold their blocks; the closed form of the condition says which case the
    point is in; at a later point of a row block the output's buffer holds what the point before left; so the case's run
    applies; the invariant passes through unread; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  by_cases h0 : t.val % 8 = 0
  · rw [outsAt0_A V c t h0]
    iintro ⟨HΦ, Ho, ⟨%d0, H0⟩, ⟨%d1, H1⟩, ⟨%d2, H2⟩, ⟨%d3, H3⟩, ⟨%d4, H4⟩, ⟨%d5, H5⟩⟩
    iapply (sound_kernelA c Set.univ (grid0.coords t) _ _ _ _ _ _ _ _ _ _ _ _ ((hcondA t).mpr h0)
      (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt0_B V c t h0]
    simp only [before0_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernelB c Set.univ (grid0.coords t) _ _ _ _ _ _ _ _ _ _ _ _ (fun h => h0 ((hcondA t).mp h))
      (iblk0 V c 0 t) (iblk0 V c 1 t) (iblk0 V c 2 t) (iblk0 V c 3 t) (iblk0 V c 4 t) _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body obligation at every point. -/
theorem body_obligation0 (c : Dev nD) : BodyObligation (dat0 (F := F) V c) (defs₀ (F := F)) Variants.none () Set.univ := fun t => by
  rw [bigSep_W0, bigSep_W0]
  exact sound_body0 V c t

/-- An input window's array ends as it was entered: it is never written back. -/
theorem arrAt_in0 (c : Dev nD) (w : Fin cfg0.W) (hw : w ≠ 5) :
    (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat0 V c).arrAt_in w hin _).trans (A_eq0 V c w)

end Cert.KernelIdeal.Hand

end
-- ==== Proof.KI.Fold.lean ====
/-
  The TensorCore's buffer contents at each boundary of the idealized kernel's @main, as a fold from the
  launch memory: the two index-taking gathers and the complement mask (three stretches of host operations),
  the pallas_call (only the output array changes: it ends at what the write-backs of the proof data
  leave), then the reductions, the quotient and the final choice (two more stretches).
-/
import proofs.«423171_j44796508897295_3_alg».proof.Proof.KI.Region

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F] [Named F]

variable (m : (ℓ : Loc nD τ sig) → Buf (Elt F) ℓ)

/-- Core `c`'s buffers at launch. -/
abbrev W0 : Dev nD → Valuation τ sig (Elt F) := fun c b => m ((c : Dev nD), b)
/-- After the first gather (the anchor rows). -/
abbrev W1 : Dev nD → Valuation τ sig (Elt F) := fun c => StableHlo.after hostOps0 (W0 m c)
/-- After the second gather (the positive mask's rows). -/
abbrev W2 : Dev nD → Valuation τ sig (Elt F) := fun c => StableHlo.after hostOps0_1 (W1 m c)
/-- After the complement mask: the region's entry. -/
abbrev W3 : Dev nD → Valuation τ sig (Elt F) := fun c => StableHlo.after hostOps0_2 (W2 m c)
/-- The same read at the TensorCore's references (what the region's proof data take). -/
abbrev V3 : (c : Dev nD) → (b : Ref sig .tc) → Buf (Elt F) ((c : Thread nD τ).loc b) := fun c b => W3 m c b
/-- At the region's exit: the output array at what the pipeline leaves, every other buffer as entered. -/
def W4 (c : Dev nD) : Valuation τ sig (Elt F) :=
  Function.update (W3 m c) (Proc.devRef .tc main_v4) ((dat0 (V3 m) c).arrAt 5 cfg0.N)
abbrev V4 : (c : Dev nD) → (b : Ref sig .tc) → Buf (Elt F) ((c : Thread nD τ).loc b) := fun c b => W4 m c b
/-- After the reductions and the quotient. -/
abbrev W5 : Dev nD → Valuation τ sig (Elt F) := fun c => StableHlo.after hostOps1 (W4 m c)
/-- After the final choice: the end of @main. -/
abbrev W6 : Dev nD → Valuation τ sig (Elt F) := fun c => StableHlo.after hostOps1_1 (W5 m c)

theorem W4_out (c : Dev nD) : W4 m c (Proc.devRef .tc main_v4) = (dat0 (V3 m) c).arrAt 5 cfg0.N := by
  unfold W4; exact Function.update_self _ _ _

theorem W4_of_ne (c : Dev nD) (b : Ref sig .tc) (hb : b ≠ main_v4) :
    W4 m c (Proc.devRef .tc b) = W3 m c (Proc.devRef .tc b) := by
  unfold W4; exact Function.update_of_ne (StableHlo.devRef_ne_of_ne hb) _ _

end Cert.KernelIdeal.Hand

end
-- ==== Proof.KI.Run.lean ====
/-
  The launch of the idealized kernel's @main: one pallas_call among five stretches of host operations.

  Between two segments a TensorCore holds every unscoped buffer whole at the fold's contents for that boundary,
  its generator register at some state, and owes nothing.  A stretch of host operations moves the contents on by
  one step of the fold.  The pallas_call takes its five arrays out of the unscoped buffers and puts them back:
  four of them are read through one window each, and the second feature array is read through TWO windows (its
  positive block and its negative block), so the full share held of it is cut into its two halves at the entry,
  one per window, and the halves — which hold the same contents, no input array being written — are joined
  again at the exit.  Only the output array leaves the region at other contents than it entered with.
-/
import proofs.«423171_j44796508897295_3_alg».proof.Proof.KI.Fold
import Idealize.ShloMosaic.Lib.Pipeline.Kit
import Idealize.ShloMosaic.Lib.Pipeline.Launch
import Idealize.ShloMosaic.Lib.Pipeline.Frame
import Idealize.ShloMosaic.Lib.Pipeline.Regions
import Idealize.ShloMosaic.Lib.Pipeline.RegionsLoop
import Idealize.ShloMosaic.Rules.PointsTo
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: the pipeline has no table. -/
abbrev adm : (p : Fin 1) → (pcfgs (F := F) p).Adm := fun p => (cfgs p).toPCfg_adm
/-- The one pipeline's proof data, at its region's entry contents. -/
def pdats : (p : Fin 1) → (c : Dev nD) → Dat τ (Elt F) Unit ℕ (UR sig nD τ) ℕ (Pipeline.pin (pcfgs (F := F)) adm p) c
  | ⟨0, _⟩ => fun c => dat0 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    owes, at nothing. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a stretch allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register
    at some state. -/
abbrev Tₙ (c : Dev nD) : sProp 𝕄 := iprop(StableHlo.held (c : Thread nD τ) (Pipeline.ucRefs τ sig) (W6 m c) ∗ ∃ r, prngReg c r)

/-! ## The region's arrays among the unscoped buffers

Six windows, five buffers: the second feature array stands behind window 1 (its positive block) and window 2 (its
negative block).  Held whole at the full share, the five buffers are the six windows' arrays at the shares the
proof data name — the shared array's full share cut into its left half for window 1 and its right half for
window 2, both at the one contents — and conversely. -/

/-- The distinct buffers behind the six windows' arrays. -/
theorem arrImage0 : (Finset.univ.image (Pipeline.arrRef spec0) : Finset (Ref sig .tc))
    = [main_v0, main_arg1, main_v1, main_v3, main_v4].toFinset := by decide

/-- The buffers behind the arrays, whole at contents V, are the windows' arrays at contents that read V at each
    window's array: the full share of the shared array is its two halves. -/
theorem arrays_iff0 (V₀ : (c : Dev nD) → (b : Ref sig .tc) → Buf (Elt F) ((c : Thread nD τ).loc b)) (c : Dev nD)
    (V : (b : Ref sig .tc) → Buf (Elt F) ((c : Thread nD τ).loc b))
    (Fc : (w : Fin cfg0.W) → Buf (Elt F) ((cfg0.win w).arr.view.loc (c : Thread nD τ)))
    (hF : ∀ w, Fc w = V (Pipeline.arrRef spec0 w)) :
    (Pipeline.arrBufs spec0 c V : sProp 𝕄) ⊣⊢ (dat0 V₀ c).arrays Fc := by
  unfold Pipeline.arrBufs Dat.arrays
  rw [bigSep_eq_bigSepL_of_eq _ arrImage0 (by decide), bigSep_W0,
    (arr_whole0 0).set_eq_univ, (arr_whole0 1).set_eq_univ,
    (arr_whole0 3).set_eq_univ, (arr_whole0 4).set_eq_univ, (arr_whole0 5).set_eq_univ,
    hF 0, hF 1, hF 2, hF 3, hF 4, hF 5]
  show iprop((((c : Thread nD τ).loc main_v0) ↦{fullShare} V main_v0) ∗ (((c : Thread nD τ).loc main_arg1) ↦{fullShare} V main_arg1)
        ∗ (((c : Thread nD τ).loc main_v1) ↦{fullShare} V main_v1) ∗ (((c : Thread nD τ).loc main_v3) ↦{fullShare} V main_v3)
        ∗ (((c : Thread nD τ).loc main_v4) ↦{fullShare} V main_v4))
    ⊣⊢ iprop((((c : Thread nD τ).loc main_v0) ↦{fullShare} V main_v0) ∗ (((c : Thread nD τ).loc main_arg1) ↦{fullShare.left} V main_arg1)
        ∗ (((c : Thread nD τ).loc main_arg1) ↦{fullShare.right} V main_arg1)
        ∗ (((c : Thread nD τ).loc main_v1) ↦{fullShare} V main_v1) ∗ (((c : Thread nD τ).loc main_v3) ↦{fullShare} V main_v3)
        ∗ (((c : Thread nD τ).loc main_v4) ↦{fullShare} V main_v4))
  constructor
  · iintro ⟨H0, H1, H3, H4, H5⟩
    ihave H1 := (pointsTo_share (PosShare.mem_left_op_right fullShare)).1 $$ H1
    icases H1 with ⟨H1, H2⟩
    isplitl [H0]; · iexact H0
    isplitl [H1]; · iexact H1
    isplitl [H2]; · iexact H2
    isplitl [H3]; · iexact H3
    isplitl [H4]; · iexact H4
    iexact H5
  · iintro ⟨H0, H1, H2, H3, H4, H5⟩
    ihave H1 := (pointsTo_share (PosShare.mem_left_op_right fullShare)).2 $$ [H1 H2]
    · isplitl [H1] <;> iassumption
    isplitl [H0]; · iexact H0
    isplitl [H1]; · iexact H1
    isplitl [H3]; · iexact H3
    isplitl [H4]; · iexact H4
    iexact H5

/-- At the region's exit each window's array holds what the fold's exit contents say: an input's array what it
    was entered with, the output's what the write-backs leave. -/
theorem hF4 (c : Dev nD) : ∀ w : Fin cfg0.W, (dat0 (V3 m) c).arrAt w cfg0.N = V4 m c (Pipeline.arrRef spec0 w)
  | 0 => (arrAt_in0 (V3 m) c 0 (by decide)).trans (W4_of_ne m c main_v0 (by decide)).symm
  | 1 => (arrAt_in0 (V3 m) c 1 (by decide)).trans (W4_of_ne m c main_arg1 (by decide)).symm
  | 2 => (arrAt_in0 (V3 m) c 2 (by decide)).trans (W4_of_ne m c main_arg1 (by decide)).symm
  | 3 => (arrAt_in0 (V3 m) c 3 (by decide)).trans (W4_of_ne m c main_v1 (by decide)).symm
  | 4 => (arrAt_in0 (V3 m) c 4 (by decide)).trans (W4_of_ne m c main_v3 (by decide)).symm
  | 5 => (W4_out m c).symm
  | ⟨_ + 6, h⟩ => absurd h (Nat.not_lt.2 (Nat.le_add_left _ _))
/-- Every buffer behind no window's array leaves the region as it entered. -/
theorem hrest4 (c : Dev nD) : ∀ b, b ∉ Finset.univ.image (Pipeline.arrRef spec0) → V4 m c b = V3 m c b :=
  fun b hb => W4_of_ne m c b fun e => hb (Finset.mem_image.mpr ⟨5, Finset.mem_univ _, e.symm⟩)

/-! ## The region as a segment -/

set_option backward.isDefEq.respectTransparency.types false in
/-- The pallas_call over the thread state: entered from every unscoped buffer at W3, left at W4. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit : (unscopedBufs c (V3 m c) : sProp 𝕄)
        ⊢ iprop((pdats m 0 c).arrays ((pdats m 0 c).arrAt · 0) ∗ Pipeline.unscopedRest spec0 c (V3 m c)) := by
      rw [Pipeline.unscopedBufs_split₀ (Pipeline.pin (pcfgs (F := F)) adm) 0 winFacts₀0.arr_unscoped c (V3 m c)]
      exact sep_mono (arrays_iff0 (V3 m) c (V3 m c) ((pdats m 0 c).arrAt · 0) (fun w => A_eq0 (V3 m) c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V3 m c))
        ⊢ (unscopedBufs c (V4 m c) : sProp 𝕄) := by
      rw [Pipeline.unscopedBufs_split₀ (Pipeline.pin (pcfgs (F := F)) adm) 0 winFacts₀0.arr_unscoped c (V4 m c)]
      refine sep_mono (arrays_iff0 (V3 m) c (V4 m c) ((pdats m 0 c).arrAt · cfg0.N) (hF4 m c)).2 (Entails.of_eq ?_)
      unfold Pipeline.unscopedRest
      exact bigSep_congr fun b hb => by rw [hrest4 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's six segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .host (hseg hostOps1_1 hostOps1_1_sub hostOps1_1_fresh (W5 m)) ]
/-- @main is the run of the segments. -/
theorem main_run (c : Dev nD) : main (F := F) c = Pipeline.Seg.run (segs m) := (main_chain c).trans (by chain_rfl)

set_option backward.isDefEq.respectTransparency.types false in
/-- From any memory with zero counters every weakly fair execution of @main on the TensorCores terminates,
    nothing faulting, and every unscoped TensorCore buffer ends at the fold's last contents. -/
theorem run_main : θ_run defs (onTc (τ := τ) (main (F := F))) ⟨m, fun _ => 0, ρ⟩
    (fun r => ∀ c : Dev nD, ∀ b : Ref sig .tc, ¬ (Proc.devRef .tc b : DevRef τ sig).isScoped →
      r.2.mem ((c.tc : Thread nD τ).loc b) = W6 m c (Proc.devRef .tc b)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c =>
      show iprop(StableHlo.held (c : Thread nD τ) (Pipeline.ucRefs τ sig) (W6 m c) ∗ R c)
          ⊢ iprop(Tₙ m c ∗ ∃ W, owes (c : Thread nD τ) (0 : CellTallies nD τ sig Unit) W) from by
        iintro ⟨Hh, Hp, HO⟩
        isplitl [Hh Hp]
        · isplitl [Hh] <;> iassumption
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c b hb => h c _ (mem_uc b hb))

end Cert.KernelIdeal.Hand

end
-- ==== Proof.KI.Args.lean ====
/-
  The idealized kernel's arguments end as launched: no host operation writes an argument's buffer and the
  region writes only its output array, so the fold of the boundary contents, read at an argument, walks
  back to the launch memory.
-/
import proofs.«423171_j44796508897295_3_alg».proof.Proof.KI.Fold
import Idealize.ShloMosaic.Lib.StableHlo.Run

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F] [Named F]

variable (m : (ℓ : Loc nD τ sig) → Buf (Elt F) ℓ)

/-- At the region's entry argument 0 holds what it was launched with. -/
theorem W3_arg0 (c : Dev nD) : W3 m c (Proc.devRef .tc main_arg0) = m ((c : Thread nD τ).loc main_arg0) :=
  calc W3 m c (Proc.devRef .tc main_arg0)
    _ = W2 m c (Proc.devRef .tc main_arg0) := StableHlo.after_of_forall_not_mem (b := Proc.devRef .tc main_arg0) _ _ (List.forall_iff_forall_mem.mp (by
      simp only [hostOps0_2, List.Forall, StableHlo.nullary_writes, StableHlo.unary_writes, StableHlo.binary_writes, StableHlo.ternary_writes, Finset.mem_singleton]
      repeat' apply And.intro
      all_goals exact StableHlo.devRef_ne_of_ne (by decide)))
    _ = W1 m c (Proc.devRef .tc main_arg0) := StableHlo.after_of_forall_not_mem (b := Proc.devRef .tc main_arg0) _ _ (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide)))
    _ = W0 m c (Proc.devRef .tc main_arg0) := StableHlo.after_of_forall_not_mem (b := Proc.devRef .tc main_arg0) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg0) := rfl

/-- At the end of @main argument 0 holds what it was launched with. -/
theorem W6_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_forall_not_mem (b := Proc.devRef .tc main_arg0) _ _ (List.forall_iff_forall_mem.mp (by
      simp only [hostOps1_1, List.Forall, StableHlo.nullary_writes, StableHlo.unary_writes, StableHlo.binary_writes, StableHlo.ternary_writes, Finset.mem_singleton]
      repeat' apply And.intro
      all_goals exact StableHlo.devRef_ne_of_ne (by decide)))
    _ = W4 m c (Proc.devRef .tc main_arg0) := StableHlo.after_of_forall_not_mem (b := Proc.devRef .tc main_arg0) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))
    _ = W3 m c (Proc.devRef .tc main_arg0) := W4_of_ne m c main_arg0 (by decide)
    _ = m ((c : Thread nD τ).loc main_arg0) := W3_arg0 m c

/-- At the region's entry argument 1 holds what it was launched with. -/
theorem W3_arg1 (c : Dev nD) : W3 m c (Proc.devRef .tc main_arg1) = m ((c : Thread nD τ).loc main_arg1) :=
  calc W3 m c (Proc.devRef .tc main_arg1)
    _ = W2 m c (Proc.devRef .tc main_arg1) := StableHlo.after_of_forall_not_mem (b := Proc.devRef .tc main_arg1) _ _ (List.forall_iff_forall_mem.mp (by
      simp only [hostOps0_2, List.Forall, StableHlo.nullary_writes, StableHlo.unary_writes, StableHlo.binary_writes, StableHlo.ternary_writes, Finset.mem_singleton]
      repeat' apply And.intro
      all_goals exact StableHlo.devRef_ne_of_ne (by decide)))
    _ = W1 m c (Proc.devRef .tc main_arg1) := StableHlo.after_of_forall_not_mem (b := Proc.devRef .tc main_arg1) _ _ (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide)))
    _ = W0 m c (Proc.devRef .tc main_arg1) := StableHlo.after_of_forall_not_mem (b := Proc.devRef .tc main_arg1) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg1) := rfl

/-- At the end of @main argument 1 holds what it was launched with. -/
theorem W6_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_forall_not_mem (b := Proc.devRef .tc main_arg1) _ _ (List.forall_iff_forall_mem.mp (by
      simp only [hostOps1_1, List.Forall, StableHlo.nullary_writes, StableHlo.unary_writes, StableHlo.binary_writes, StableHlo.ternary_writes, Finset.mem_singleton]
      repeat' apply And.intro
      all_goals exact StableHlo.devRef_ne_of_ne (by decide)))
    _ = W4 m c (Proc.devRef .tc main_arg1) := StableHlo.after_of_forall_not_mem (b := Proc.devRef .tc main_arg1) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))
    _ = W3 m c (Proc.devRef .tc main_arg1) := W4_of_ne m c main_arg1 (by decide)
    _ = m ((c : Thread nD τ).loc main_arg1) := W3_arg1 m c

/-- At the region's entry argument 2 holds what it was launched with. -/
theorem W3_arg2 (c : Dev nD) : W3 m c (Proc.devRef .tc main_arg2) = m ((c : Thread nD τ).loc main_arg2) :=
  calc W3 m c (Proc.devRef .tc main_arg2)
    _ = W2 m c (Proc.devRef .tc main_arg2) := StableHlo.after_of_forall_not_mem (b := Proc.devRef .tc main_arg2) _ _ (List.forall_iff_forall_mem.mp (by
      simp only [hostOps0_2, List.Forall, StableHlo.nullary_writes, StableHlo.unary_writes, StableHlo.binary_writes, StableHlo.ternary_writes, Finset.mem_singleton]
      repeat' apply And.intro
      all_goals exact StableHlo.devRef_ne_of_ne (by decide)))
    _ = W1 m c (Proc.devRef .tc main_arg2) := StableHlo.after_of_forall_not_mem (b := Proc.devRef .tc main_arg2) _ _ (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide)))
    _ = W0 m c (Proc.devRef .tc main_arg2) := StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg2) := rfl

/-- At the end of @main argument 2 holds what it was launched with. -/
theorem W6_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_forall_not_mem (b := Proc.devRef .tc main_arg2) _ _ (List.forall_iff_forall_mem.mp (by
      simp only [hostOps1_1, List.Forall, StableHlo.nullary_writes, StableHlo.unary_writes, StableHlo.binary_writes, StableHlo.ternary_writes, Finset.mem_singleton]
      repeat' apply And.intro
      all_goals exact StableHlo.devRef_ne_of_ne (by decide)))
    _ = W4 m c (Proc.devRef .tc main_arg2) := StableHlo.after_of_forall_not_mem (b := Proc.devRef .tc main_arg2) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))
    _ = W3 m c (Proc.devRef .tc main_arg2) := W4_of_ne m c main_arg2 (by decide)
    _ = m ((c : Thread nD τ).loc main_arg2) := W3_arg2 m c

/-- At the region's entry argument 3 holds what it was launched with. -/
theorem W3_arg3 (c : Dev nD) : W3 m c (Proc.devRef .tc main_arg3) = m ((c : Thread nD τ).loc main_arg3) :=
  calc W3 m c (Proc.devRef .tc main_arg3)
    _ = W2 m c (Proc.devRef .tc main_arg3) := StableHlo.after_of_forall_not_mem (b := Proc.devRef .tc main_arg3) _ _ (List.forall_iff_forall_mem.mp (by
      simp only [hostOps0_2, List.Forall, StableHlo.nullary_writes, StableHlo.unary_writes, StableHlo.binary_writes, StableHlo.ternary_writes, Finset.mem_singleton]
      repeat' apply And.intro
      all_goals exact StableHlo.devRef_ne_of_ne (by decide)))
    _ = W1 m c (Proc.devRef .tc main_arg3) := StableHlo.after_of_forall_not_mem (b := Proc.devRef .tc main_arg3) _ _ (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide)))
    _ = W0 m c (Proc.devRef .tc main_arg3) := StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))
    _ = m ((c : Thread nD τ).loc main_arg3) := rfl

/-- At the end of @main argument 3 holds what it was launched with. -/
theorem W6_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_forall_not_mem (b := Proc.devRef .tc main_arg3) _ _ (List.forall_iff_forall_mem.mp (by
      simp only [hostOps1_1, List.Forall, StableHlo.nullary_writes, StableHlo.unary_writes, StableHlo.binary_writes, StableHlo.ternary_writes, Finset.mem_singleton]
      repeat' apply And.intro
      all_goals exact StableHlo.devRef_ne_of_ne (by decide)))
    _ = W4 m c (Proc.devRef .tc main_arg3) := StableHlo.after_of_forall_not_mem (b := Proc.devRef .tc main_arg3) _ _ (List.forall_iff_forall_mem.mp (by
      simp only [hostOps1, List.Forall, StableHlo.nullary_writes, StableHlo.unary_writes, StableHlo.binary_writes, StableHlo.ternary_writes, Finset.mem_singleton]
      repeat' apply And.intro
      all_goals exact StableHlo.devRef_ne_of_ne (by decide)))
    _ = W3 m c (Proc.devRef .tc main_arg3) := W4_of_ne m c main_arg3 (by decide)
    _ = m ((c : Thread nD τ).loc main_arg3) := W3_arg3 m c

end Cert.KernelIdeal.Hand

end
-- ==== Proof.PreFacts.lean ====
import proofs.«423171_j44796508897295_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

/-!
# The precondition, decoded

The printed precondition is the conjunction of four "all" tests: every element of each of the three float
arrays has absolute value strictly below +∞, and every element of the integer array lies in [0, 512).
Over the extended reals, |x| < +∞ says exactly that x is a real number; the two signed word comparisons
say exactly that the word's signed value is in the stated range. This file turns "the printed function is
the one-bit word 1" into those four elementwise facts.
-/

namespace Cert.Hand.PreFacts

open Idealize.ShloMosaic Cert.Pre_finite_inputs

/-- The scalar shape has exactly one index. -/
instance subsingleton_scalar_idx : Subsingleton S_.Idx := ⟨fun a b => funext fun d => d.elim0⟩

/-- An extended real whose absolute value max(x, -x) lies strictly below +∞ is a real number:
    at x = -∞ the maximum is -(-∞) = +∞, at x = +∞ it is +∞ itself. -/
theorem real_of_abs_lt_top (x : EReal) (h : max x (-x) < ⊤) : ∃ r : ℝ, x = ((r : ℝ) : EReal) := by
  induction x using EReal.rec with
  | bot => simp at h
  | coe r => exact ⟨r, rfl⟩
  | top => simp at h

/-- The element test of the float conjuncts: the ordered comparison |x| < c, with c the pattern of +∞,
    answers 1 only at a real number. -/
theorem real_of_abs_olt_inf (x : EReal)
    (h : Ideal.cmp .olt (max x (-x)) (Ideal.ofBits .f32 0x7F800000#32) = 1#1) : ∃ r : ℝ, x = ((r : ℝ) : EReal) := by
  have htop : Ideal.ofBits .f32 0x7F800000#32 = ⊤ := by simp [Ideal.ofBits, Ideal.ieee]
  rw [htop] at h
  have hd : decide (max x (-x) < ⊤) = true := (StableHlo.Predicate.ofBool_eq_one_iff _).1 h
  exact real_of_abs_lt_top x (of_decide_eq_true hd)

/-- The element test of the integer conjunct: 0 ≤ a (signed) and a < 512 (signed), read on the signed value. -/
theorem range_of_sge_slt (a : BitVec 32)
    (hge : IntOp.cmpi .sge a 0#32 = 1#1) (hlt : IntOp.cmpi .slt a 512#32 = 1#1) : 0 ≤ a.toInt ∧ a.toInt < 512 := by
  have h1 : (0#32 : BitVec 32).toInt ≤ a.toInt := IntOp.cmpi_sge.1 hge
  have h2 : a.toInt < (512#32 : BitVec 32).toInt := IntOp.cmpi_slt.1 hlt
  have z : (0#32 : BitVec 32).toInt = 0 := by decide
  have f : (512#32 : BitVec 32).toInt = 512 := by decide
  omega

/-- The precondition decoded: the three float arrays hold real numbers everywhere, and every word of the
    integer array has a signed value in [0, 512). -/
theorem decode (a0 a1 : FVec Ideal S512x256 .f32) (a2 : FVec Ideal S512x512 .f32) (a3 : IVec S256 32)
    (h : Cert.Pre_finite_inputs.fn (F := Ideal) a0 a1 a2 a3 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
    ∧ (∀ i, 0 ≤ (a3 i).toInt ∧ (a3 i).toInt < 512) := by
  have h0 := congrFun h ValueIdx.ix0
  dsimp only [fn, fn_part1] at h0
  -- the outer conjunction of four one-bit words, each the "all" of one array
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_olt_inf (a0 i) (Host.reduce_andi_all _ _ _ _ _ h1 i)
  · exact real_of_abs_olt_inf (a1 i) (Host.reduce_andi_all _ _ _ _ _ h2 i)
  · exact real_of_abs_olt_inf (a2 i) (Host.reduce_andi_all _ _ _ _ _ h3 i)
  · obtain ⟨hge, hlt⟩ := IntOp.andi_eq_one.1 (Host.reduce_andi_all _ _ _ _ _ h4 i)
    exact range_of_sge_slt (a3 i) hge hlt

variable (a0 a1 : FVec Ideal S512x256 .f32) (a2 : FVec Ideal S512x512 .f32) (a3 : IVec S256 32)
  (h : Cert.Pre_finite_inputs.fn (F := Ideal) a0 a1 a2 a3 = fun _ => 1#1)
include h

/-- Every element of the first float array is a real number. -/
theorem finite0 : ∀ i, ∃ r : ℝ, a0 i = ((r : ℝ) : EReal) := (decode a0 a1 a2 a3 h).1
/-- Every element of the second float array is a real number. -/
theorem finite1 : ∀ i, ∃ r : ℝ, a1 i = ((r : ℝ) : EReal) := (decode a0 a1 a2 a3 h).2.1
/-- Every element of the third float array is a real number. -/
theorem finite2 : ∀ i, ∃ r : ℝ, a2 i = ((r : ℝ) : EReal) := (decode a0 a1 a2 a3 h).2.2.1
/-- Every word of the integer array has a signed value in [0, 512). -/
theorem idx_range : ∀ i, 0 ≤ (a3 i).toInt ∧ (a3 i).toInt < 512 := (decode a0 a1 a2 a3 h).2.2.2

end Cert.Hand.PreFacts
-- ==== Proof.KI.Vals.lean ====
/-
  The idealized kernel's boundary contents read at particular buffers: the two index-taking gathers and
  the complement mask as terms of the arguments (under the index range), and the final choice as a term
  of the region's output array and the entry values.
-/
import proofs.«423171_j44796508897295_3_alg».proof.Proof.KI.Fold
import proofs.«423171_j44796508897295_3_alg».proof.Proof.KI.Args
import proofs.«423171_j44796508897295_3_alg».proof.Proof.PreFacts
import Idealize.ShloMosaic.Lib.StableHlo.Run
import Idealize.ShloMosaic.Lib.StableHlo.Predicate
import Idealize.ShloMosaic.Lib.ValueIdx

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen

variable {F : FTy → Type} [FloatOps F] [Named F]

variable (m : (ℓ : Loc nD τ sig) → Buf (Elt F) ℓ)

/-! ## Words and masks: under the index range the in-bounds mask of the index-taking gather is all ones -/

/-- A left fold by `and` over one-bit words that starts at 1 and meets only 1s is 1. -/
theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from rfl]
    exact foldl_andi_of_all_one f l (fun n hn => h n (List.mem_cons_of_mem _ hn))

/-- A reduction by `and` from 1 of an array of one-bit words that are all 1 is 1 everywhere. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_of_all_one x _ (fun i _ => hx i)

/-- A select whose condition is 1 everywhere is its first operand. -/
theorem select_of_all_one {α : Type} {s : Shape} (cnd : IVec s 1) (a b : s.Idx → α) (hc : ∀ i, cnd i = 1#1) :
    select cnd a b = a := by
  funext i; rw [select_apply, hc i, select_one]

/-- A word whose signed value is in [0, 512) is left alone by the wrap-around of negative indices
    (add 512 where negative), and then tests inside [0, 511]. -/
theorem inb_word (a : BitVec 32) (h : 0 ≤ a.toInt ∧ a.toInt < 512) :
    IntOp.andi
      (IntOp.cmpi .sge (Scalar.select (IntOp.cmpi .slt a 0#32) (IntOp.addi a 512#32) a) 0#32)
      (IntOp.cmpi .sle (Scalar.select (IntOp.cmpi .slt a 0#32) (IntOp.addi a 512#32) a) 511#32) = 1#1 := by
  have z : (0#32 : BitVec 32).toInt = 0 := by decide
  have f : (511#32 : BitVec 32).toInt = 511 := by decide
  have hs : ¬ IntOp.cmpi .slt a 0#32 = 1 := fun e => by
    have := IntOp.cmpi_slt.1 e; omega
  have hsel : Scalar.select (IntOp.cmpi .slt a 0#32) (IntOp.addi a 512#32) a = a := if_neg hs
  rw [hsel]
  exact IntOp.andi_eq_one.2 ⟨IntOp.cmpi_sge.2 (by omega), IntOp.cmpi_sle.2 (by omega)⟩

/-! ## The index column and the in-bounds mask of the index-taking gathers -/

/-- The normalized index column: a negative index wrapped by the table's 512 rows, laid out as a column. -/
def idxCol (a3 : IVec S256 32) : IVec S256x1 32 :=
  broadcastInDim S256x1 ![0] bcast_S256_S256x1_0
    (select (cmpi .slt a3 (broadcastInDim S256 ![] bcast_S_S256 (constantI S_ 32 0#32)))
      (addi a3 (broadcastInDim S256 ![] bcast_S_S256 (constantI S_ 32 512#32))) a3)

/-- The in-bounds test of the index column, entry by entry: 0 ≤ index ≤ 511. -/
def inbCol (a3 : IVec S256 32) : IVec S256x1 1 :=
  andi (cmpi .sge (idxCol a3) (broadcastInDim S256x1 ![] bcast_S_S256x1 (constantI S_ 32 0#32)))
    (cmpi .sle (idxCol a3)
      (broadcastInDim S256x1 ![0, 1] bcast_S1x1_S256x1_0_1 (broadcastInDim S1x1 ![1] bcast_S1_S1x1_1 (constantI S1 32 511#32))))

/-- The in-bounds test reduced over the column's one entry per row. -/
def inbRow (a3 : IVec S256 32) : IVec S256 1 :=
  Host.reduce IntOp.andi (inbCol a3) (constantI S_ 1 1#1) reducesTo_S256x1_S256_d1 h_S_

/-- Under the index range every entry of the index column is in bounds. -/
theorem inbCol_one (a3 : IVec S256 32) (hidx : ∀ i, 0 ≤ (a3 i).toInt ∧ (a3 i).toInt < 512) (j : S256x1.Idx) :
    inbCol a3 j = 1#1 :=
  inb_word (a3 _) (hidx _)

/-- Under the index range the row mask is all ones. -/
theorem inbRow_one (a3 : IVec S256 32) (hidx : ∀ i, 0 ≤ (a3 i).toInt ∧ (a3 i).toInt < 512) (i : S256.Idx) :
    inbRow a3 i = 1#1 :=
  reduce_andi_of_all_one _ _ _ _ rfl (inbCol_one a3 hidx) i

/-! ## The region's entry values -/

/-- The index argument is as launched after the first gather call. -/
theorem W1_arg3 (c : Dev nD) : W1 m c (Proc.devRef .tc main_arg3) = m ((c : Thread nD τ).loc main_arg3) :=
  StableHlo.after_of_forall_not_mem (b := Proc.devRef .tc main_arg3) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

/-- The third float argument is as launched after the first gather call. -/
theorem W1_arg2 (c : Dev nD) : W1 m c (Proc.devRef .tc main_arg2) = m ((c : Thread nD τ).loc main_arg2) :=
  StableHlo.after_of_forall_not_mem (b := Proc.devRef .tc main_arg2) _ _ (List.forall_iff_forall_mem.mp (by
      simp only [hostOps0, List.Forall, StableHlo.nullary_writes, StableHlo.unary_writes, StableHlo.binary_writes, StableHlo.ternary_writes, Finset.mem_singleton]
      repeat' apply And.intro
      all_goals exact StableHlo.devRef_ne_of_ne (by decide)))

/-- The first index-taking gather as printed: the gathered rows where the row's index is in bounds, the
    not-a-number pattern elsewhere. -/
theorem W1_v0_raw (c : Dev nD) :
    W1 m c (Proc.devRef .tc main_v0)
      = select (broadcastInDim S256x256 ![0] bcast_S256_S256x256_0 (inbRow (m ((c : Thread nD τ).loc main_arg3))))
          (Host.gather gather_S512x256_S256x1_S256x256_1_0_n_n_0_1_1256 (m ((c : Thread nD τ).loc main_arg0))
            (idxCol (m ((c : Thread nD τ).loc main_arg3))))
          (broadcastInDim S256x256 ![] bcast_S_S256x256 (constant S_ .f32 0x7FC00000#32)) := by
  show StableHlo.after hostOps0 (W0 m c) (Proc.devRef .tc main_v0) = _
  after_results_simp
  rfl

/-- The second index-taking gather as printed, over the contents after the first. -/
theorem W2_v1_raw (c : Dev nD) :
    W2 m c (Proc.devRef .tc main_v1)
      = select (broadcastInDim S256x512 ![0] bcast_S256_S256x512_0 (inbRow (m ((c : Thread nD τ).loc main_arg3))))
          (Host.gather gather_S512x512_S256x1_S256x512_1_0_n_n_0_1_1512 (m ((c : Thread nD τ).loc main_arg2))
            (idxCol (m ((c : Thread nD τ).loc main_arg3))))
          (broadcastInDim S256x512 ![] bcast_S_S256x512 (constant S_ .f32 0x7FC00000#32)) := by
  show StableHlo.after hostOps0_1 (W1 m c) (Proc.devRef .tc main_v1) = _
  after_results_simp
  rfl

/-- The positive mask's rows after the second gather call: under the index range the in-bounds mask is
    all ones and the printed choice returns the gathered rows. -/
theorem W2_v1 (c : Dev nD)
    (hidx : ∀ i, 0 ≤ ((m ((c : Thread nD τ).loc main_arg3) : IVec S256 32) i).toInt
      ∧ ((m ((c : Thread nD τ).loc main_arg3) : IVec S256 32) i).toInt < 512) :
    W2 m c (Proc.devRef .tc main_v1)
      = Host.gather gather_S512x512_S256x1_S256x512_1_0_n_n_0_1_1512 (m ((c : Thread nD τ).loc main_arg2))
          (idxCol (m ((c : Thread nD τ).loc main_arg3))) :=
  (W2_v1_raw m c).trans (select_of_all_one _ _ _ (fun j => inbRow_one _ hidx _))

/-- The anchor rows at the region's entry: under the index range the gathered rows. -/
theorem W3_v0 (c : Dev nD)
    (hidx : ∀ i, 0 ≤ ((m ((c : Thread nD τ).loc main_arg3) : IVec S256 32) i).toInt
      ∧ ((m ((c : Thread nD τ).loc main_arg3) : IVec S256 32) i).toInt < 512) :
    W3 m c (Proc.devRef .tc main_v0)
      = Host.gather gather_S512x256_S256x1_S256x256_1_0_n_n_0_1_1256 (m ((c : Thread nD τ).loc main_arg0))
          (idxCol (m ((c : Thread nD τ).loc main_arg3))) :=
  calc W3 m c (Proc.devRef .tc main_v0)
    _ = W2 m c (Proc.devRef .tc main_v0) := StableHlo.after_of_forall_not_mem (b := Proc.devRef .tc main_v0) _ _ (List.forall_iff_forall_mem.mp (by
      simp only [hostOps0_2, List.Forall, StableHlo.nullary_writes, StableHlo.unary_writes, StableHlo.binary_writes, StableHlo.ternary_writes, Finset.mem_singleton]
      repeat' apply And.intro
      all_goals exact StableHlo.devRef_ne_of_ne (by decide)))
    _ = W1 m c (Proc.devRef .tc main_v0) := StableHlo.after_of_forall_not_mem (b := Proc.devRef .tc main_v0) _ _ (List.forall_iff_forall_mem.mp (by
      simp only [hostOps0_1, List.Forall, StableHlo.nullary_writes, StableHlo.unary_writes, StableHlo.binary_writes, StableHlo.ternary_writes, Finset.mem_singleton]
      repeat' apply And.intro
      all_goals exact StableHlo.devRef_ne_of_ne (by decide)))
    _ = _ := W1_v0_raw m c
    _ = _ := select_of_all_one _ _ _ (fun j => inbRow_one _ hidx _)

/-- The positive mask's rows at the region's entry. -/
theorem W3_v1 (c : Dev nD)
    (hidx : ∀ i, 0 ≤ ((m ((c : Thread nD τ).loc main_arg3) : IVec S256 32) i).toInt
      ∧ ((m ((c : Thread nD τ).loc main_arg3) : IVec S256 32) i).toInt < 512) :
    W3 m c (Proc.devRef .tc main_v1)
      = Host.gather gather_S512x512_S256x1_S256x512_1_0_n_n_0_1_1512 (m ((c : Thread nD τ).loc main_arg2))
          (idxCol (m ((c : Thread nD τ).loc main_arg3))) :=
  calc W3 m c (Proc.devRef .tc main_v1)
    _ = W2 m c (Proc.devRef .tc main_v1) := StableHlo.after_of_forall_not_mem (b := Proc.devRef .tc main_v1) _ _ (List.forall_iff_forall_mem.mp (by
      simp only [hostOps0_2, List.Forall, StableHlo.nullary_writes, StableHlo.unary_writes, StableHlo.binary_writes, StableHlo.ternary_writes, Finset.mem_singleton]
      repeat' apply And.intro
      all_goals exact StableHlo.devRef_ne_of_ne (by decide)))
    _ = _ := W2_v1 m c hidx

/-- The complement mask as printed: one minus the positive mask's rows. -/
theorem W3_v3_raw (c : Dev nD) :
    W3 m c (Proc.devRef .tc main_v3)
      = subf (broadcastInDim S256x512 ![] bcast_S_S256x512 (constant (F := F) S_ .f32 0x3F800000#32))
          (W2 m c (Proc.devRef .tc main_v1)) := by
  show StableHlo.after hostOps0_2 (W2 m c) (Proc.devRef .tc main_v3) = _
  after_results

/-- The complement mask at the region's entry. -/
theorem W3_v3 (c : Dev nD)
    (hidx : ∀ i, 0 ≤ ((m ((c : Thread nD τ).loc main_arg3) : IVec S256 32) i).toInt
      ∧ ((m ((c : Thread nD τ).loc main_arg3) : IVec S256 32) i).toInt < 512) :
    W3 m c (Proc.devRef .tc main_v3)
      = subf (broadcastInDim S256x512 ![] bcast_S_S256x512 (constant (F := F) S_ .f32 0x3F800000#32))
          (Host.gather gather_S512x512_S256x1_S256x512_1_0_n_n_0_1_1512 (m ((c : Thread nD τ).loc main_arg2))
            (idxCol (m ((c : Thread nD τ).loc main_arg3)))) :=
  (W3_v3_raw m c).trans (congrArg (subf _) (W2_v1 m c hidx))

/-! ## The end of @main -/

/-- The returned scalar: the output array's total divided by the sum over the rows of (number of positives
    times number of negatives) where that sum is positive, the total itself otherwise. -/
theorem W6_v12 (c : Dev nD) :
    W6 m c (Proc.devRef .tc main_v12)
      = select
          (cmpf .ogt
            (Host.reduceAdd
              (mulf
                (Host.reduceAdd (W3 m c (Proc.devRef .tc main_v1)) (constant (F := F) S_ .f32 0x00000000#32) reducesTo_S256x512_S256_d1 h_S_)
                (Host.reduceAdd (W3 m c (Proc.devRef .tc main_v3)) (constant (F := F) S_ .f32 0x00000000#32) reducesTo_S256x512_S256_d1 h_S_))
              (constant (F := F) S_ .f32 0x00000000#32) reducesTo_S256_S_d0 h_S_)
            (constant (F := F) S_ .f32 0x00000000#32))
          (Host.divf
            (Host.reduceAdd (W4 m c (Proc.devRef .tc main_v4)) (constant (F := F) S_ .f32 0x00000000#32) reducesTo_S32x128_S_d0_1 h_S_)
            (Host.reduceAdd
              (mulf
                (Host.reduceAdd (W3 m c (Proc.devRef .tc main_v1)) (constant (F := F) S_ .f32 0x00000000#32) reducesTo_S256x512_S256_d1 h_S_)
                (Host.reduceAdd (W3 m c (Proc.devRef .tc main_v3)) (constant (F := F) S_ .f32 0x00000000#32) reducesTo_S256x512_S256_d1 h_S_))
              (constant (F := F) S_ .f32 0x00000000#32) reducesTo_S256_S_d0 h_S_))
          (Host.reduceAdd (W4 m c (Proc.devRef .tc main_v4)) (constant (F := F) S_ .f32 0x00000000#32) reducesTo_S32x128_S_d0_1 h_S_) := by
  rw [← W4_of_ne m c main_v1 (by decide), ← W4_of_ne m c main_v3 (by decide)]
  show StableHlo.after hostOps1_1 (StableHlo.after hostOps1 (W4 m c)) (Proc.devRef .tc main_v12) = _
  after_results_simp
  rfl

end Cert.KernelIdeal.Hand

end
-- ==== Proof.KI.OutArray.lean ====
/-
  FROM THE BLOCKS WRITTEN BACK TO THE OUTPUT ARRAY.

  The pallas_call's output array is f32[32, 128]; its window's block is 8x128 and is addressed by the row block
  t / 8 alone, so the four row blocks of the array are written back once each, at the last point 8 mb + 7 of row
  block mb, with what the staging buffer holds then. Hence after the region row r, lane q of the array holds entry
  (r % 8, q) of the staging buffer after point 8 (r / 8) + 7: ONE whole-array function `Gout`, of which every
  written-back block is the restriction to the block's rectangle, and the four rectangles cover the array.

  Of that array only the four cells (8 mb, 0) carry a sum: the first point of a row block clears the whole buffer
  and every point stores into cell (0, 0) only, so every other entry holds the cleared value.
-/
import proofs.«423171_j44796508897295_3_alg».proof.Proof.KI.Region
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.KernelIdeal Cert.KernelIdeal.Gen

variable {F : FTy → Type} [FloatOps F] [Named F]

-- the TensorCore's buffer contents when the region is entered
variable (V : (c : Dev nD) → (b : Ref sig .tc) → Buf (Elt F) ((c : Thread nD τ).loc b))

/-! ## The schedule of the output window, in closed form -/

/-- The output window's block index at point `t`: the row block `t / 8`, and lane block 0. -/
theorem out_index : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- The last point of the row block that holds row `r` is a point of the grid. -/
theorem last_lt (r : ℕ) (hr : r < 32) : 8 * (r / 8) + 7 < cfg0.N := by
  rw [show cfg0.N = 32 from N_0]; omega

/-- The staging buffer's contents depend on the point and the entry only through their values. -/
theorem outsAt0_congr (c : Dev nD) {n n' : ℕ} (e : n = n') (h : n < cfg0.N) (h' : n' < cfg0.N)
    {y y' : S8x128.Idx} (ey : y = y') : outsAt0 V c n h y = outsAt0 V c n' h' y' := by
  subst e ey; rfl

/-! ## The whole output array -/

/-- THE OUTPUT ARRAY after the region: row `r`, lane `q` holds entry `(r % 8, q)` of what the staging buffer held
    after the LAST point `8 (r / 8) + 7` of row block `r / 8`. -/
def Gout (c : Dev nD) : Vec F S32x128 .f32 := fun i =>
  outsAt0 V c (8 * ((i 0).val / 8) + 7) (last_lt _ (idx2_lt0 i))
    (ix2 (⟨(i 0).val % 8, Nat.mod_lt _ (by decide)⟩ : Fin 8) (⟨(i 1).val, idx2_lt1 i⟩ : Fin 128))

/-! ## Every entry but the cells (0, 0) holds the cleared value -/

/-- After every point, every entry of the staging buffer other than cell (0, 0) holds the cleared value: the first
    point of a row block clears the buffer, and no point stores anywhere but into cell (0, 0). -/
theorem outsAt0_rest (c : Dev nD) (y : S8x128.Idx) (hy : y ≠ ix2 0 0) :
    ∀ (n : ℕ) (hn : n < cfg0.N), outsAt0 V c n hn y = k0_pay2 (F := F) y
  | 0, hn => by
    rw [outsAt0]
    exact outA_rest _ _ _ _ _ y hy
  | n + 1, hn => by
    rw [outsAt0]
    split
    · exact outA_rest _ _ _ _ _ y hy
    · rw [outB_rest _ _ _ _ _ _ y hy]
      exact outsAt0_rest c y hy n _

/-- So the output array holds the cleared value at every index but the row blocks' cells (0, 0). -/
theorem Gout_rest (c : Dev nD) (i : S32x128.Idx) (h : ¬((i 0).val % 8 = 0 ∧ (i 1).val = 0)) :
    Gout V c i = k0_pay2 (F := F)
      (ix2 (⟨(i 0).val % 8, Nat.mod_lt _ (by decide)⟩ : Fin 8) (⟨(i 1).val, idx2_lt1 i⟩ : Fin 128)) := by
  unfold Gout
  refine outsAt0_rest V c _ (fun e => h ⟨?_, ?_⟩) _ _
  · exact congrArg Fin.val (congrFun e 0)
  · exact congrArg Fin.val (congrFun e 1)

/-- At the cell (0, 0) of row block `mb` the output array holds what the staging buffer's cell (0, 0) held after the
    last point of that row block. -/
theorem Gout_cell (c : Dev nD) (mb : Fin 4) :
    Gout V c (ix2 (⟨8 * mb.val, by have := mb.isLt; omega⟩ : Fin 32) (⟨0, by decide⟩ : Fin 128))
      = outsAt0 V c (8 * mb.val + 7) (by rw [show cfg0.N = 32 from N_0]; have := mb.isLt; omega) (ix2 0 0) := by
  unfold Gout
  refine outsAt0_congr V c ?_ _ _ ?_
  · show 8 * ((8 * mb.val) / 8) + 7 = 8 * mb.val + 7
    omega
  · funext a
    apply Fin.ext
    match a with
    | ⟨0, _⟩ => show (8 * mb.val) % 8 = 0; omega
    | ⟨1, _⟩ => rfl

/-! ## From the blocks written back to the array -/

/-- WHAT A WRITING-BACK POINT WRITES is its block of the whole array: the point `t` with `t % 8 = 7` is the last point
    `8 (t / 8) + 7` of row block `t / 8`, and its block's entry `(j₀, j₁)` sits at row `8 (t / 8) + j₀`, lane `j₁`. -/
theorem flushed_out (c : Dev nD) (t : Fin cfg0.N) (hf : (cfg0.win 5).flush t = true) :
    (dat0 V c).flushed 5 t = ((cfg0.win 5).blk t).view.read (Elt F) (Gout V c) := by
  have h7 : t.val % 8 = 7 := (flush0_5 t).mp hf
  obtain ⟨e0, e1⟩ := out_index t
  funext j
  show outsAt0 V c t.val t.isLt ((cfg0.win 5).xinj (cfg0.grid.coords t) j) = Gout V c (((cfg0.win 5).blk t).view.emb j)
  have hj0 : (j 0).val < 8 := (j 0).isLt
  have hj1 : (j 1).val < 128 := (j 1).isLt
  have c0 : ((((cfg0.win 5).blk t).view.emb j) 0).val = win0_5.index t (0 : Fin 2) * 8 + 1 * (j 0).val := rfl
  have c1 : ((((cfg0.win 5).blk t).view.emb j) 1).val = win0_5.index t (1 : Fin 2) * 128 + 1 * (j 1).val := rfl
  unfold Gout
  refine outsAt0_congr V c ?_ _ _ ?_
  · rw [c0, e0]; omega
  · funext a
    apply Fin.ext
    match a with
    | ⟨0, _⟩ =>
      show (j 0).val = ((((cfg0.win 5).blk t).view.emb j) 0).val % 8
      rw [c0, e0]; omega
    | ⟨1, _⟩ =>
      show (j 1).val = ((((cfg0.win 5).blk t).view.emb j) 1).val
      rw [c1, e1]; omega

/-- An index of the array is in point `t`'s block iff each coordinate is in the block's range on its axis. -/
theorem mem_out_blk (t : Fin cfg0.N) (i : S32x128.Idx) :
    i ∈ ((cfg0.win 5).blk t).view.set ↔ ∀ a : Fin 2, win0_5.index t a * S8x128.size a ≤ (i a).val ∧ (i a).val < win0_5.index t a * S8x128.size a + S8x128.size a := by
  show i ∈ ((View.whole main_v4).slice (win0_5.rect t)).set ↔ _
  rw [View.set_slice_whole, Rect.mem_set_unit]
  exact Iff.rfl

/-- The four blocks written back cover the array: row `r` lies in the block of the last point of row block `r / 8`. -/
theorem out_cover (i : S32x128.Idx) :
    ∃ t : Fin cfg0.N, (cfg0.win 5).flush t = true ∧ i ∈ ((cfg0.win 5).blk t).view.set := by
  have hi0 : (i 0).val < 32 := idx2_lt0 i
  have hi1 : (i 1).val < 128 := idx2_lt1 i
  refine ⟨⟨8 * ((i 0).val / 8) + 7, last_lt _ hi0⟩, (flush0_5 _).mpr (by show (8 * ((i 0).val / 8) + 7) % 8 = 7; omega), ?_⟩
  obtain ⟨e0, e1⟩ := out_index ⟨8 * ((i 0).val / 8) + 7, last_lt _ hi0⟩
  have e0' : win0_5.index ⟨8 * ((i 0).val / 8) + 7, last_lt _ hi0⟩ (0 : Fin 2) = (8 * ((i 0).val / 8) + 7) / 8 := e0
  rw [mem_out_blk]
  intro a
  match a with
  | ⟨0, _⟩ =>
    show win0_5.index _ (0 : Fin 2) * 8 ≤ (i 0).val ∧ (i 0).val < win0_5.index _ (0 : Fin 2) * 8 + 8
    rw [e0']; omega
  | ⟨1, _⟩ =>
    show win0_5.index _ (1 : Fin 2) * 128 ≤ (i 1).val ∧ (i 1).val < win0_5.index _ (1 : Fin 2) * 128 + 128
    rw [e1]; omega

/-- THE OUTPUT ARRAY after the region is `Gout`. -/
theorem arrAt5 (c : Dev nD) : (dat0 V c).arrAt 5 cfg0.N = Gout V c :=
  (dat0 V c).arrAt_eq_of_cover 5 (Gout V c) (flushed_out V c) out_cover

end Cert.KernelIdeal.Hand

end
-- ==== Proof.KI.BlockReads.lean ====
/-
  Input block reads.  The grid has 32 points in row-major order over (row block, positive block,
  negative block) = (4, 4, 2), so point t has row block t / 8, positive block (t / 2) % 4 and negative
  block t % 2.  Each input window's block at point t is a rectangle of its array whose corner on each
  axis is (block index) x (block extent) and whose stride is 1; hence the block read at an inner
  index is the array read at corner + inner index.
-/
import proofs.«423171_j44796508897295_3_alg».proof.Proof.KI.Region

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Idealize.ShloMosaic.ValueIdx
open Cert.KernelIdeal Cert.KernelIdeal.Gen

variable {F : FTy → Type} [FloatOps F] [Named F]

variable (V : (c : Dev nD) → (b : Ref sig .tc) → Buf (Elt F) ((c : Thread nD τ).loc b))

/-! ## The arrays the windows read and write -/

theorem arrRef_0 : Pipeline.arrRef spec0 0 = main_v0 := rfl
theorem arrRef_1 : Pipeline.arrRef spec0 1 = main_arg1 := rfl
theorem arrRef_2 : Pipeline.arrRef spec0 2 = main_arg1 := rfl
theorem arrRef_3 : Pipeline.arrRef spec0 3 = main_v1 := rfl
theorem arrRef_4 : Pipeline.arrRef spec0 4 = main_v3 := rfl
theorem arrRef_5 : Pipeline.arrRef spec0 5 = main_v4 := rfl

/-- A grid point's position is below 32. -/
theorem pt_lt (t : Fin cfg0.N) : t.val < 32 := lt_of_lt_of_eq t.isLt N_0

/-- The printed index maps, decided once over the 32 grid points: the block index of each input window
    on each axis, as a function of the point's row-major position. -/
theorem idx_facts0 : ∀ t : Fin cfg0.N,
      win0_0.index t (0 : Fin 2) = t.val / 8 ∧ win0_0.index t (1 : Fin 2) = 0
    ∧ win0_1.index t (0 : Fin 2) = (t.val / 2) % 4 ∧ win0_1.index t (1 : Fin 2) = 0
    ∧ win0_2.index t (0 : Fin 2) = t.val % 2 ∧ win0_2.index t (1 : Fin 2) = 0
    ∧ win0_3.index t (0 : Fin 2) = t.val / 8 ∧ win0_3.index t (1 : Fin 2) = (t.val / 2) % 4
    ∧ win0_4.index t (0 : Fin 2) = t.val / 8 ∧ win0_4.index t (1 : Fin 2) = t.val % 2 :=
  (by decide +kernel : ∀ t : Fin grid0.N, _)

/-! ## The block reads -/

/-- Window 0: 64x256 blocks of a 256x256 array; the block's row offset is 64 x (row block), its column
    offset 0. -/
theorem iblk0_0 (c : Dev nD) (t : Fin cfg0.N) (mi : Fin 64) (d : Fin 256) :
    (iblk0 V c 0 t : S64x256.Idx → Elt F .f32) (ix2 mi d)
      = (V c (Pipeline.arrRef spec0 0) : S256x256.Idx → Elt F .f32)
          (ix2 ⟨64 * (t.val / 8) + mi.val, by have := pt_lt t; omega⟩ d) := by
  obtain ⟨e0, e1, -⟩ := idx_facts0 t
  unfold iblk0
  rw [View.read_apply]
  show V c main_v0 (((cfg0.win 0).blk t).view.emb (ix2 mi d)) = V c main_v0 _
  congr 1
  funext a
  apply Fin.ext
  match a with
  | ⟨0, _⟩ => show win0_0.index t (0 : Fin 2) * 64 + 1 * mi.val = 64 * (t.val / 8) + mi.val; rw [e0]; omega
  | ⟨1, _⟩ => show win0_0.index t (1 : Fin 2) * 256 + 1 * d.val = d.val; rw [e1]; omega

/-- Window 1: 128x256 blocks of a 512x256 array; the block's row offset is 128 x (positive block), its
    column offset 0. -/
theorem iblk0_1 (c : Dev nD) (t : Fin cfg0.N) (ji : Fin 128) (d : Fin 256) :
    (iblk0 V c 1 t : S128x256.Idx → Elt F .f32) (ix2 ji d)
      = (V c (Pipeline.arrRef spec0 1) : S512x256.Idx → Elt F .f32)
          (ix2 ⟨128 * ((t.val / 2) % 4) + ji.val, by have := pt_lt t; omega⟩ d) := by
  obtain ⟨-, -, e0, e1, -⟩ := idx_facts0 t
  unfold iblk0
  rw [View.read_apply]
  show V c main_arg1 (((cfg0.win 1).blk t).view.emb (ix2 ji d)) = V c main_arg1 _
  congr 1
  funext a
  apply Fin.ext
  match a with
  | ⟨0, _⟩ => show win0_1.index t (0 : Fin 2) * 128 + 1 * ji.val = 128 * ((t.val / 2) % 4) + ji.val; rw [e0]; omega
  | ⟨1, _⟩ => show win0_1.index t (1 : Fin 2) * 256 + 1 * d.val = d.val; rw [e1]; omega

/-- Window 2: 256x256 blocks of the same 512x256 array as window 1; the block's row offset is
    256 x (negative block), its column offset 0. -/
theorem iblk0_2 (c : Dev nD) (t : Fin cfg0.N) (ki : Fin 256) (d : Fin 256) :
    (iblk0 V c 2 t : S256x256.Idx → Elt F .f32) (ix2 ki d)
      = (V c (Pipeline.arrRef spec0 2) : S512x256.Idx → Elt F .f32)
          (ix2 ⟨256 * (t.val % 2) + ki.val, by have := pt_lt t; omega⟩ d) := by
  obtain ⟨-, -, -, -, e0, e1, -⟩ := idx_facts0 t
  unfold iblk0
  rw [View.read_apply]
  show V c main_arg1 (((cfg0.win 2).blk t).view.emb (ix2 ki d)) = V c main_arg1 _
  congr 1
  funext a
  apply Fin.ext
  match a with
  | ⟨0, _⟩ => show win0_2.index t (0 : Fin 2) * 256 + 1 * ki.val = 256 * (t.val % 2) + ki.val; rw [e0]; omega
  | ⟨1, _⟩ => show win0_2.index t (1 : Fin 2) * 256 + 1 * d.val = d.val; rw [e1]; omega

/-- Window 3: 64x128 blocks of a 256x512 array; the block's row offset is 64 x (row block), its column
    offset 128 x (positive block). -/
theorem iblk0_3 (c : Dev nD) (t : Fin cfg0.N) (mi : Fin 64) (ji : Fin 128) :
    (iblk0 V c 3 t : S64x128.Idx → Elt F .f32) (ix2 mi ji)
      = (V c (Pipeline.arrRef spec0 3) : S256x512.Idx → Elt F .f32)
          (ix2 ⟨64 * (t.val / 8) + mi.val, by have := pt_lt t; omega⟩
               ⟨128 * ((t.val / 2) % 4) + ji.val, by have := pt_lt t; omega⟩) := by
  obtain ⟨-, -, -, -, -, -, e0, e1, -⟩ := idx_facts0 t
  unfold iblk0
  rw [View.read_apply]
  show V c main_v1 (((cfg0.win 3).blk t).view.emb (ix2 mi ji)) = V c main_v1 _
  congr 1
  funext a
  apply Fin.ext
  match a with
  | ⟨0, _⟩ => show win0_3.index t (0 : Fin 2) * 64 + 1 * mi.val = 64 * (t.val / 8) + mi.val; rw [e0]; omega
  | ⟨1, _⟩ => show win0_3.index t (1 : Fin 2) * 128 + 1 * ji.val = 128 * ((t.val / 2) % 4) + ji.val; rw [e1]; omega

/-- Window 4: 64x256 blocks of a second 256x512 array; the block's row offset is 64 x (row block), its
    column offset 256 x (negative block). -/
theorem iblk0_4 (c : Dev nD) (t : Fin cfg0.N) (mi : Fin 64) (ki : Fin 256) :
    (iblk0 V c 4 t : S64x256.Idx → Elt F .f32) (ix2 mi ki)
      = (V c (Pipeline.arrRef spec0 4) : S256x512.Idx → Elt F .f32)
          (ix2 ⟨64 * (t.val / 8) + mi.val, by have := pt_lt t; omega⟩
               ⟨256 * (t.val % 2) + ki.val, by have := pt_lt t; omega⟩) := by
  obtain ⟨-, -, -, -, -, -, -, -, e0, e1⟩ := idx_facts0 t
  unfold iblk0
  rw [View.read_apply]
  show V c main_v3 (((cfg0.win 4).blk t).view.emb (ix2 mi ki)) = V c main_v3 _
  congr 1
  funext a
  apply Fin.ext
  match a with
  | ⟨0, _⟩ => show win0_4.index t (0 : Fin 2) * 64 + 1 * mi.val = 64 * (t.val / 8) + mi.val; rw [e0]; omega
  | ⟨1, _⟩ => show win0_4.index t (1 : Fin 2) * 256 + 1 * ki.val = 256 * (t.val % 2) + ki.val; rw [e1]; omega

end Cert.KernelIdeal.Hand

end
-- ==== Proof.LossSpec.lean ====
/-
  The algebraic core of the pairwise softplus loss: a triple sum over literal extents
  re-blocked into tiles, distributivity inside a tile, the two softplus chains on the
  extended reals as the coercion of one real function, coercion of finite sums, and the
  eight-step accumulation as a double sum.  Pure mathematics over ℝ and EReal.
-/
import Mathlib.Data.EReal.Basic
import Mathlib.Data.EReal.Operations
import Mathlib.Algebra.BigOperators.Fin
import Mathlib.Algebra.BigOperators.Ring.Finset
import Mathlib.Analysis.SpecialFunctions.Log.Basic
import Mathlib.Analysis.SpecialFunctions.Exp
import Idealize.ShloMosaic.PureOps.Ideal.Laws
import Idealize.ShloMosaic.Lib.ValueIdx

open scoped BigOperators
open Idealize.ShloMosaic

namespace Cert.Hand.Spec

/-! ### (A) softplus -/

/-- Softplus in the overflow-free form `max x 0 + log (1 + exp (-|x|))`. -/
noncomputable def sp (x : ℝ) : ℝ := max x 0 + Real.log (1 + Real.exp (-|x|))

/-! ### (B) re-blocking of sums -/

/-- A sum over `Fin n` with `n = a * b` is a double sum over `b`-sized blocks. -/
theorem sum_fin_mul {n : ℕ} (a b : ℕ) (h : n = a * b) (g : ℕ → ℝ) :
    (∑ i : Fin n, g (i : ℕ)) = ∑ p : Fin a, ∑ q : Fin b, g (b * (p : ℕ) + (q : ℕ)) := by
  subst h
  rw [← finProdFinEquiv.sum_comp, Fintype.sum_prod_type]
  refine Finset.sum_congr rfl fun p _ => Finset.sum_congr rfl fun q _ => ?_
  simp [finProdFinEquiv, add_comm]

/-- The full triple sum, re-blocked into the `4 × 4 × 2` grid of `64 × 128 × 256` tiles. -/
theorem sum_blocks (f : ℕ → ℕ → ℕ → ℝ) :
    (∑ m : Fin 256, ∑ j : Fin 512, ∑ k : Fin 512, f (m : ℕ) (j : ℕ) (k : ℕ))
      = ∑ mb : Fin 4, ∑ jb : Fin 4, ∑ kb : Fin 2, ∑ mi : Fin 64, ∑ ji : Fin 128, ∑ ki : Fin 256,
          f (64 * (mb : ℕ) + (mi : ℕ)) (128 * (jb : ℕ) + (ji : ℕ)) (256 * (kb : ℕ) + (ki : ℕ)) := by
  have hk : ∀ m j : ℕ, (∑ k : Fin 512, f m j (k : ℕ))
      = ∑ kb : Fin 2, ∑ ki : Fin 256, f m j (256 * (kb : ℕ) + (ki : ℕ)) :=
    fun m j => sum_fin_mul 2 256 rfl (fun k => f m j k)
  have hj : ∀ m : ℕ,
      (∑ j : Fin 512, ∑ kb : Fin 2, ∑ ki : Fin 256, f m (j : ℕ) (256 * (kb : ℕ) + (ki : ℕ)))
      = ∑ jb : Fin 4, ∑ ji : Fin 128, ∑ kb : Fin 2, ∑ ki : Fin 256,
          f m (128 * (jb : ℕ) + (ji : ℕ)) (256 * (kb : ℕ) + (ki : ℕ)) :=
    fun m => sum_fin_mul 4 128 rfl
      (fun j => ∑ kb : Fin 2, ∑ ki : Fin 256, f m j (256 * (kb : ℕ) + (ki : ℕ)))
  have hm : (∑ m : Fin 256, ∑ jb : Fin 4, ∑ ji : Fin 128, ∑ kb : Fin 2, ∑ ki : Fin 256,
          f (m : ℕ) (128 * (jb : ℕ) + (ji : ℕ)) (256 * (kb : ℕ) + (ki : ℕ)))
      = ∑ mb : Fin 4, ∑ mi : Fin 64, ∑ jb : Fin 4, ∑ ji : Fin 128, ∑ kb : Fin 2, ∑ ki : Fin 256,
          f (64 * (mb : ℕ) + (mi : ℕ)) (128 * (jb : ℕ) + (ji : ℕ)) (256 * (kb : ℕ) + (ki : ℕ)) :=
    sum_fin_mul 4 64 rfl
      (fun m => ∑ jb : Fin 4, ∑ ji : Fin 128, ∑ kb : Fin 2, ∑ ki : Fin 256,
          f m (128 * (jb : ℕ) + (ji : ℕ)) (256 * (kb : ℕ) + (ki : ℕ)))
  simp only [hk, hj, hm]
  -- the block indices move to the front: swap `mi` past `jb`, then `mi, ji` past `kb`
  refine Finset.sum_congr rfl fun mb _ => ?_
  refine Finset.sum_comm.trans ?_
  refine Finset.sum_congr rfl fun jb _ => ?_
  refine (Finset.sum_congr rfl fun mi _ => Finset.sum_comm).trans ?_
  exact Finset.sum_comm

/-! ### (C) distributivity inside a tile -/

/-- The row mask may be applied after the inner reduction: `(Σₖ a·n) · p = Σₖ a · (p · n)`. -/
theorem tile_distrib {J K : Type*} [Fintype J] [Fintype K]
    (a : J → K → ℝ) (n : K → ℝ) (p : J → ℝ) :
    ∑ j, (∑ k, a j k * n k) * p j = ∑ j, ∑ k, a j k * (p j * n k) := by
  refine Finset.sum_congr rfl fun j _ => ?_
  rw [Finset.sum_mul]
  refine Finset.sum_congr rfl fun k _ => ?_
  ring

/-! ### (E) coercion of finite sums -/

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The coercion commutes with products (Mathlib's `EReal.coe_mul`). -/
theorem coe_mul (x y : ℝ) : ((x * y : ℝ) : EReal) = (x : EReal) * (y : EReal) := EReal.coe_mul x y

/-! ### (D) the softplus chains on the extended reals -/

/-- The coercion commutes with `max` (it is monotone). -/
theorem coe_max (x y : ℝ) : ((max x y : ℝ) : EReal) = max (x : EReal) (y : EReal) :=
  EReal.coe_strictMono.monotone.map_max

theorem coe_sub_zero (x : ℝ) : (x : EReal) - 0 = (x : EReal) := by
  rw [← EReal.coe_zero, ← EReal.coe_sub, sub_zero]

theorem coe_add_zero (x : ℝ) : (x : EReal) + 0 = (x : EReal) := add_zero _

/-- The extended-real absolute value `max y (-y)` at a real is the real absolute value. -/
theorem absf_coe (x : ℝ) : max (x : EReal) (-(x : EReal)) = ((|x| : ℝ) : EReal) := by
  rw [← EReal.coe_neg, ← coe_max, abs_eq_max_neg]

/-- `log (1 + exp r)` on the extended reals at a real `r`: no corner is met, since
    `1 + exp r > 0`. -/
theorem log1p_exp_coe (r : ℝ) :
    Ideal.log1p (Ideal.exp (r : EReal)) = ((Real.log (1 + Real.exp r) : ℝ) : EReal) := by
  have hpos : ¬ (1 + Real.exp r ≤ 0) := not_le.mpr (by positivity)
  rw [Ideal.exp_coe, Ideal.log1p, ← EReal.coe_one, ← EReal.coe_add, Ideal.log_coe, if_neg hpos]

/-- The chain with `0 - |e - 0|` under the exponential. -/
theorem kernel_softplus (x : ℝ) :
    max (x : EReal) 0
        + Ideal.log1p (Ideal.exp (0 - max ((x : EReal) - 0) (-((x : EReal) - 0))))
      = ((sp x : ℝ) : EReal) := by
  rw [coe_sub_zero, absf_coe, ← EReal.coe_zero, ← EReal.coe_sub, zero_sub, log1p_exp_coe,
    ← coe_max, ← EReal.coe_add]
  rfl

/-- The chain with `-(|e - 0|)` under the exponential. -/
theorem reference_softplus (x : ℝ) :
    max (x : EReal) 0
        + Ideal.log1p (Ideal.exp (-(max ((x : EReal) - 0) (-((x : EReal) - 0)))))
      = ((sp x : ℝ) : EReal) := by
  rw [coe_sub_zero, absf_coe, ← EReal.coe_neg, log1p_exp_coe, ← EReal.coe_zero, ← coe_max,
    ← EReal.coe_add]
  rfl

/-- There is no NaN on the extended reals: `y ≠ y` is false, so the test is the zero bit. -/
theorem cmpf_une_self (y : EReal) : Ideal.cmp .une y y = 0#1 := by
  simp [Ideal.cmp]

theorem cmpf_one_self (y : EReal) : Ideal.cmp .one y y = 0#1 := by
  simp [Ideal.cmp]

/-- A select on the zero bit takes its second branch. -/
theorem select_zero {α : Type} (a b : α) : Scalar.select (0#1) a b = b := by
  simp [Scalar.select]

/-- The f32 pattern of zero is the extended real zero. -/
theorem zero_f32 : FloatOps.ofBits (F := Ideal) .f32 0x00000000#32 = (0 : EReal) :=
  Ideal.ofBits_zero_f32

/-- The whole guarded chain as the kernel spells it, at the operations of the instance:
    the NaN test never fires, and the remaining branch is `sp`. -/
theorem kernel_softplus_ops (x : ℝ) (e z : Ideal .f32) (he : e = (x : EReal))
    (hz : z = (0 : EReal)) :
    Scalar.select (FloatOps.cmpf .one (FloatOps.subf e z) (FloatOps.subf e z))
        (FloatOps.addf e z)
        (FloatOps.addf (FloatOps.maximumf e z)
          (FloatOps.log1p (FloatOps.exp (FloatOps.subf z (FloatOps.absf (FloatOps.subf e z))))))
      = ((sp x : ℝ) : EReal) := by
  subst he hz
  show Scalar.select (Ideal.cmp .one _ _) _ _ = _
  rw [cmpf_one_self, select_zero]
  exact kernel_softplus x

/-- The whole guarded chain as the reference spells it (host operations). -/
theorem reference_softplus_ops (x : ℝ) (e z : Ideal .f32) (he : e = (x : EReal))
    (hz : z = (0 : EReal)) :
    Scalar.select (FloatOps.cmpf .une (FloatOps.subf e z) (FloatOps.subf e z))
        (FloatOps.addf e z)
        (FloatOps.addf (FloatOps.maximumf e z)
          (FloatOps.hostUnary .log1p (FloatOps.hostUnary .exp
            (FloatOps.hostNegf (FloatOps.hostAbsf (FloatOps.subf e z))))))
      = ((sp x : ℝ) : EReal) := by
  subst he hz
  show Scalar.select (Ideal.cmp .une _ _) _ _ = _
  rw [cmpf_une_self, select_zero]
  exact reference_softplus x

/-- `sp` of `0 - d` and of `-d` are the same number. -/
theorem sp_zero_sub (d : ℝ) : sp (0 - d) = sp (-d) := by rw [zero_sub]

/-! ### (F) the eight-step accumulation -/

/-- Eight values indexed row-major by `(jb, kb) ∈ 4 × 2`. -/
theorem sum_fin8 (g : Fin 8 → ℝ) :
    (∑ n : Fin 8, g n)
      = ∑ jb : Fin 4, ∑ kb : Fin 2, g ⟨2 * (jb : ℕ) + (kb : ℕ), by omega⟩ := by
  rw [Fin.sum_univ_eight, Fin.sum_univ_four]
  simp only [Fin.sum_univ_two]
  ring_nf
  rfl

/-- A left accumulation from `0` over the eight tiles in row-major order is the double sum. -/
theorem fold8 (T : Fin 4 → Fin 2 → ℝ) :
    ((((((((0 + T 0 0) + T 0 1) + T 1 0) + T 1 1) + T 2 0) + T 2 1) + T 3 0) + T 3 1)
      = ∑ jb : Fin 4, ∑ kb : Fin 2, T jb kb := by
  rw [Fin.sum_univ_four]
  simp only [Fin.sum_univ_two]
  ring

/-- The same accumulation as a left fold over the list of the eight indices. -/
theorem fold8_list (g : Fin 8 → ℝ) :
    (List.finRange 8).foldl (fun acc n => acc + g n) 0 = ∑ n : Fin 8, g n := by
  rw [Fin.sum_univ_def, List.sum_eq_foldl, List.foldl_map]

/-- A recursive accumulator `acc 0 = 0`, `acc (n+1) = acc n + g n` reaches the sum. -/
theorem acc_eq_sum (N : ℕ) (g : ℕ → ℝ) (acc : ℕ → ℝ) (h0 : acc 0 = 0)
    (hs : ∀ n, n < N → acc (n + 1) = acc n + g n) :
    acc N = ∑ n : Fin N, g (n : ℕ) := by
  rw [Fin.sum_univ_eq_sum_range (fun n => g n) N]
  induction N with
  | zero => simpa using h0
  | succ N ih =>
    rw [Finset.sum_range_succ, hs N (Nat.lt_succ_self N),
      ih (fun n hn => hs n (Nat.lt_succ_of_lt hn))]

/-! ### The loss as one real number, and as a sum of tiles -/

/-- The similarity scale, `2²⁷ / 9395241`. -/
noncomputable def kappaR : ℝ := 134217728 / 9395241

/-- A rank-2 array of extended reals read as a real matrix (meaningful where the entries
    are finite). -/
noncomputable def matR {a b : ℕ}
    (X : (⟨2, ![a, b]⟩ : Idealize.ShloMosaic.Shape).Idx → EReal) : Fin a → Fin b → ℝ :=
  fun i j => (X (Idealize.ShloMosaic.ValueIdx.ix2 i j)).toReal

/-- Scaled similarities: row `m` of `A` against row `j` of `B`. -/
noncomputable def simR (A : Fin 256 → Fin 256 → ℝ) (B : Fin 512 → Fin 256 → ℝ)
    (m : Fin 256) (j : Fin 512) : ℝ := (∑ d : Fin 256, A m d * B j d) * kappaR

/-- The pairwise loss: softplus of the negated similarity gap, weighted by the positive mask
    at `j` and the complementary mask at `k`. -/
noncomputable def lossR (A : Fin 256 → Fin 256 → ℝ) (B : Fin 512 → Fin 256 → ℝ)
    (P : Fin 256 → Fin 512 → ℝ) : ℝ :=
  ∑ m : Fin 256, ∑ j : Fin 512, ∑ k : Fin 512,
    sp (-(simR A B m j - simR A B m k)) * (P m j * (1 - P m k))

/-- The number of weighted pairs. -/
noncomputable def pairR (P : Fin 256 → Fin 512 → ℝ) : ℝ :=
  ∑ m : Fin 256, (∑ j : Fin 512, P m j) * (∑ k : Fin 512, (1 - P m k))

/-- The final normalisation: divide by the pair count where it is positive. -/
noncomputable def finalE (ls pn : ℝ) : EReal :=
  if 0 < pn then ((ls / pn : ℝ) : EReal) else ((ls : ℝ) : EReal)

/-- One tile's sum over real blocks: `X0 : 64×256` anchor rows, `X1 : 128×256` and
    `X2 : 256×256` feature rows, `X3 : 64×128` positive mask, `X4 : 64×256` negative mask. -/
noncomputable def tileR (X0 : Fin 64 → Fin 256 → ℝ) (X1 : Fin 128 → Fin 256 → ℝ)
    (X2 : Fin 256 → Fin 256 → ℝ) (X3 : Fin 64 → Fin 128 → ℝ) (X4 : Fin 64 → Fin 256 → ℝ) : ℝ :=
  ∑ mi : Fin 64, ∑ ji : Fin 128,
    (∑ ki : Fin 256,
      sp (0 - ((∑ d : Fin 256, X0 mi d * X1 ji d) * kappaR
                - (∑ d : Fin 256, X0 mi d * X2 ki d) * kappaR)) * X4 mi ki) * X3 mi ji

/-- The re-blocking of the triple sum for a summand indexed by `Fin`. -/
theorem sum_blocks_fin (F : Fin 256 → Fin 512 → Fin 512 → ℝ) :
    (∑ m : Fin 256, ∑ j : Fin 512, ∑ k : Fin 512, F m j k)
      = ∑ mb : Fin 4, ∑ jb : Fin 4, ∑ kb : Fin 2, ∑ mi : Fin 64, ∑ ji : Fin 128, ∑ ki : Fin 256,
          F ⟨64 * (mb : ℕ) + (mi : ℕ), by omega⟩ ⟨128 * (jb : ℕ) + (ji : ℕ), by omega⟩
            ⟨256 * (kb : ℕ) + (ki : ℕ), by omega⟩ := by
  -- extend the summand by zero outside the ranges
  let f : ℕ → ℕ → ℕ → ℝ := fun m j k =>
    if h : m < 256 ∧ j < 512 ∧ k < 512 then F ⟨m, h.1⟩ ⟨j, h.2.1⟩ ⟨k, h.2.2⟩ else 0
  have hL : ∀ (m : Fin 256) (j : Fin 512) (k : Fin 512), F m j k = f m j k := fun m j k => by
    simp only [f]; rw [dif_pos ⟨m.isLt, j.isLt, k.isLt⟩]
  simp only [hL]
  exact sum_blocks f

/-- The loss is the sum over the `4 × 4 × 2` grid of the tiles' sums. -/
theorem lossR_eq_tiles (A : Fin 256 → Fin 256 → ℝ) (B : Fin 512 → Fin 256 → ℝ)
    (P : Fin 256 → Fin 512 → ℝ) :
    lossR A B P = ∑ mb : Fin 4, ∑ jb : Fin 4, ∑ kb : Fin 2,
      tileR (fun mi d => A ⟨64 * (mb : ℕ) + (mi : ℕ), by omega⟩ d)
            (fun ji d => B ⟨128 * (jb : ℕ) + (ji : ℕ), by omega⟩ d)
            (fun ki d => B ⟨256 * (kb : ℕ) + (ki : ℕ), by omega⟩ d)
            (fun mi ji => P ⟨64 * (mb : ℕ) + (mi : ℕ), by omega⟩ ⟨128 * (jb : ℕ) + (ji : ℕ), by omega⟩)
            (fun mi ki => 1 - P ⟨64 * (mb : ℕ) + (mi : ℕ), by omega⟩
                                ⟨256 * (kb : ℕ) + (ki : ℕ), by omega⟩) := by
  unfold lossR
  refine (sum_blocks_fin _).trans ?_
  refine Finset.sum_congr rfl fun mb _ => Finset.sum_congr rfl fun jb _ =>
    Finset.sum_congr rfl fun kb _ => ?_
  unfold tileR
  refine Finset.sum_congr rfl fun mi _ => ?_
  refine Eq.trans ?_ (tile_distrib _ _ _).symm
  refine Finset.sum_congr rfl fun ji _ => Finset.sum_congr rfl fun ki _ => ?_
  simp only [simR, zero_sub]

/-! ### The final normalisation -/

theorem finalE_pos {ls pn : ℝ} (h : 0 < pn) : finalE ls pn = ((ls / pn : ℝ) : EReal) := if_pos h

theorem finalE_nonpos {ls pn : ℝ} (h : ¬ 0 < pn) : finalE ls pn = ((ls : ℝ) : EReal) := if_neg h

/-- A select on the one bit takes its first branch. -/
theorem select_one {α : Type} (a b : α) : Scalar.select (1#1) a b = a := by
  simp [Scalar.select]

/-- The guarded quotient on the extended reals, at real arguments: the comparison `pn > 0`
    decides between the real quotient (the divisor is then not zero, so no corner is met)
    and the numerator itself. -/
theorem final_select (ls pn : ℝ) :
    Scalar.select (Ideal.cmp .ogt (pn : EReal) 0) (Ideal.div (ls : EReal) (pn : EReal))
        (ls : EReal) = finalE ls pn := by
  unfold finalE
  by_cases h : 0 < pn
  · have hc : Ideal.cmp .ogt (pn : EReal) 0 = 1#1 := by
      have : (0 : EReal) < (pn : EReal) := EReal.coe_pos.mpr h
      simp [Ideal.cmp, this]
    rw [hc, if_pos h, select_one, Ideal.div_coe (ne_of_gt h), ← EReal.coe_mul, mul_one_div]
  · have hc : Ideal.cmp .ogt (pn : EReal) 0 = 0#1 := by
      have : ¬ (0 : EReal) < (pn : EReal) := fun h' => h (EReal.coe_pos.mp h')
      simp [Ideal.cmp, this]
    rw [hc, if_neg h, select_zero]

/-- The same at the instance's fields, as both programs spell the last step. -/
theorem final_select_ops (ls pn : ℝ) (l p z : Ideal .f32) (hl : l = (ls : EReal))
    (hp : p = (pn : EReal)) (hz : z = (0 : EReal)) :
    Scalar.select (FloatOps.cmpf .ogt p z) (FloatOps.hostDivf l p) l = finalE ls pn := by
  subst hl hp hz
  exact final_select ls pn

end Cert.Hand.Spec
-- ==== Proof.KI.TileValue.lean ====
/-
  The kernel body's stored value read at one index, at the ideal values (every float an extended real, every
  operation exact): what the body adds into the output cell is the tile's masked softplus sum, a real number
  of the five input blocks.
-/
import proofs.«423171_j44796508897295_3_alg».proof.Proof.KI.Region
import proofs.«423171_j44796508897295_3_alg».proof.Proof.LossSpec
import Idealize.ShloMosaic.Lib.ValueLayout
import Idealize.ShloMosaic.PureOps.Ideal.Laws
import Idealize.ShloMosaic.PureOps.IdealRules

set_option maxRecDepth 16384

noncomputable section

namespace Cert.KernelIdeal.Hand

open Idealize.ShloMosaic
open Idealize.ShloMosaic.ValueIdx
open Cert.KernelIdeal Cert.KernelIdeal.Gen
open scoped BigOperators

/-! ## The two matrix products at an index -/

/-- The operand indices of the first product at output index `j` and contraction index `k`, axis by axis. -/
theorem lhs_dot128_0 (j : S64x128.Idx) (k : dot_S64x256_S256x128_S64x128_1_0_0_1_n_n.contr.Idx) :
    (dot_S64x256_S256x128_S64x128_1_0_0_1_n_n.lhsIdx j k 0).val = (j 0).val := rfl
theorem lhs_dot128_1 (j : S64x128.Idx) (k : dot_S64x256_S256x128_S64x128_1_0_0_1_n_n.contr.Idx) :
    (dot_S64x256_S256x128_S64x128_1_0_0_1_n_n.lhsIdx j k 1).val = (k ⟨0, by decide⟩).val := rfl
theorem rhs_dot128_0 (j : S64x128.Idx) (k : dot_S64x256_S256x128_S64x128_1_0_0_1_n_n.contr.Idx) :
    (dot_S64x256_S256x128_S64x128_1_0_0_1_n_n.rhsIdx j k 0).val = (k ⟨0, by decide⟩).val := rfl
theorem rhs_dot128_1 (j : S64x128.Idx) (k : dot_S64x256_S256x128_S64x128_1_0_0_1_n_n.contr.Idx) :
    (dot_S64x256_S256x128_S64x128_1_0_0_1_n_n.rhsIdx j k 1).val = (j 1).val := rfl

/-- The product of the anchor block with the transposed positive block, into a zero accumulator, at (mi, ji):
    the sum over the feature coordinate. -/
theorem matmul128_apply (a : FVec Ideal S64x256 .f32) (b : FVec Ideal S256x128 .f32) (mi : Fin 64) (ji : Fin 128) :
    matmul dot_S64x256_S256x128_S64x128_1_0_0_1_n_n (some .fp32) a b (constant (F := Ideal) S64x128 .f32 0x00000000#32) (ix2 mi ji)
      = ∑ d : Fin 256, a (ix2 mi d) * b (ix2 d ji) := by
  show FloatOps.matmul _ _ a b _ (ix2 mi ji) = _
  rw [Ideal.matmul_constant_zero_apply,
    ← Equiv.sum_comp (contrEquiv1 dot_S64x256_S256x128_S64x128_1_0_0_1_n_n 256 rfl rfl).symm]
  refine Finset.sum_congr rfl fun d _ => ?_
  have c := contrEquiv1_symm_val dot_S64x256_S256x128_S64x128_1_0_0_1_n_n 256 rfl rfl d
  have l : dot_S64x256_S256x128_S64x128_1_0_0_1_n_n.lhsIdx (ix2 mi ji)
      ((contrEquiv1 dot_S64x256_S256x128_S64x128_1_0_0_1_n_n 256 rfl rfl).symm d) = ix2 mi d := by
    funext ax; apply Fin.ext
    match ax with
    | ⟨0, _⟩ => exact lhs_dot128_0 _ _
    | ⟨1, _⟩ => exact (lhs_dot128_1 _ _).trans c
  have r : dot_S64x256_S256x128_S64x128_1_0_0_1_n_n.rhsIdx (ix2 mi ji)
      ((contrEquiv1 dot_S64x256_S256x128_S64x128_1_0_0_1_n_n 256 rfl rfl).symm d) = ix2 d ji := by
    funext ax; apply Fin.ext
    match ax with
    | ⟨0, _⟩ => exact (rhs_dot128_0 _ _).trans c
    | ⟨1, _⟩ => exact rhs_dot128_1 _ _
  rw [l, r]

/-- The operand indices of the second product at output index `j` and contraction index `k`, axis by axis. -/
theorem lhs_dot256_0 (j : S64x256.Idx) (k : dot_S64x256_S256x256_S64x256_1_0_0_1_n_n.contr.Idx) :
    (dot_S64x256_S256x256_S64x256_1_0_0_1_n_n.lhsIdx j k 0).val = (j 0).val := rfl
theorem lhs_dot256_1 (j : S64x256.Idx) (k : dot_S64x256_S256x256_S64x256_1_0_0_1_n_n.contr.Idx) :
    (dot_S64x256_S256x256_S64x256_1_0_0_1_n_n.lhsIdx j k 1).val = (k ⟨0, by decide⟩).val := rfl
theorem rhs_dot256_0 (j : S64x256.Idx) (k : dot_S64x256_S256x256_S64x256_1_0_0_1_n_n.contr.Idx) :
    (dot_S64x256_S256x256_S64x256_1_0_0_1_n_n.rhsIdx j k 0).val = (k ⟨0, by decide⟩).val := rfl
theorem rhs_dot256_1 (j : S64x256.Idx) (k : dot_S64x256_S256x256_S64x256_1_0_0_1_n_n.contr.Idx) :
    (dot_S64x256_S256x256_S64x256_1_0_0_1_n_n.rhsIdx j k 1).val = (j 1).val := rfl

/-- The product of the anchor block with the transposed negative block, into a zero accumulator, at (mi, ki):
    the sum over the feature coordinate. -/
theorem matmul256_apply (a : FVec Ideal S64x256 .f32) (b : FVec Ideal S256x256 .f32) (mi : Fin 64) (ki : Fin 256) :
    matmul dot_S64x256_S256x256_S64x256_1_0_0_1_n_n (some .fp32) a b (constant (F := Ideal) S64x256 .f32 0x00000000#32) (ix2 mi ki)
      = ∑ d : Fin 256, a (ix2 mi d) * b (ix2 d ki) := by
  show FloatOps.matmul _ _ a b _ (ix2 mi ki) = _
  rw [Ideal.matmul_constant_zero_apply,
    ← Equiv.sum_comp (contrEquiv1 dot_S64x256_S256x256_S64x256_1_0_0_1_n_n 256 rfl rfl).symm]
  refine Finset.sum_congr rfl fun d _ => ?_
  have c := contrEquiv1_symm_val dot_S64x256_S256x256_S64x256_1_0_0_1_n_n 256 rfl rfl d
  have l : dot_S64x256_S256x256_S64x256_1_0_0_1_n_n.lhsIdx (ix2 mi ki)
      ((contrEquiv1 dot_S64x256_S256x256_S64x256_1_0_0_1_n_n 256 rfl rfl).symm d) = ix2 mi d := by
    funext ax; apply Fin.ext
    match ax with
    | ⟨0, _⟩ => exact lhs_dot256_0 _ _
    | ⟨1, _⟩ => exact (lhs_dot256_1 _ _).trans c
  have r : dot_S64x256_S256x256_S64x256_1_0_0_1_n_n.rhsIdx (ix2 mi ki)
      ((contrEquiv1 dot_S64x256_S256x256_S64x256_1_0_0_1_n_n 256 rfl rfl).symm d) = ix2 d ki := by
    funext ax; apply Fin.ext
    match ax with
    | ⟨0, _⟩ => exact (rhs_dot256_0 _ _).trans c
    | ⟨1, _⟩ => exact rhs_dot256_1 _ _
  rw [l, r]

/-! ## Layout operations at an index given by coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The named constant -/

/-- The temperature constant at the ideal values is the rational it names. -/
theorem inv_temp_ideal :
    Named.named (F := Ideal) Cert.KernelIdeal.κ "inv_temp" (φ := .f32) 0x41649249#32
      = ((Cert.Hand.Spec.kappaR : ℝ) : EReal) :=
  IdealRules.named_const.ideal_named_scalar _ _ _ _ rfl

/-! ## The two scaled similarity blocks and their gap -/

/-- The positive similarity block at (mi, ji): the anchor row against the positive row, times the temperature constant. -/
theorem simJ_apply (x0 : FVec Ideal S64x256 .f32) (x1 : FVec Ideal S128x256 .f32) (mi : Fin 64) (ji : Fin 128) :
    mulf (matmul dot_S64x256_S256x128_S64x128_1_0_0_1_n_n (some .fp32)
        (shapeCast S64x256 x0 shapeCasts_S64x256_S64x256)
        (transpose S256x128 [1, 0] x1 transposes_S128x256_p1_0_S256x128)
        (constant (F := Ideal) S64x128 .f32 0x00000000#32))
      (broadcast S64x128 (Named.named (F := Ideal) κ "inv_temp" (φ := .f32) 0x41649249#32)) (ix2 mi ji)
      = (∑ d : Fin 256, x0 (ix2 mi d) * x1 (ix2 ji d)) * ((Cert.Hand.Spec.kappaR : ℝ) : EReal) := by
  rw [mulf_apply, broadcast_apply, inv_temp_ideal, matmul128_apply, shapeCast_self]
  refine congrArg (· * _) (Finset.sum_congr rfl fun d _ => ?_)
  rw [transpose_ix2_apply]

/-- The negative similarity block at (mi, ki). -/
theorem simK_apply (x0 : FVec Ideal S64x256 .f32) (x2 : FVec Ideal S256x256 .f32) (mi : Fin 64) (ki : Fin 256) :
    mulf (matmul dot_S64x256_S256x256_S64x256_1_0_0_1_n_n (some .fp32)
        (shapeCast S64x256 x0 shapeCasts_S64x256_S64x256)
        (transpose S256x256 [1, 0] x2 transposes_S256x256_p1_0_S256x256)
        (constant (F := Ideal) S64x256 .f32 0x00000000#32))
      (broadcast S64x256 (Named.named (F := Ideal) κ "inv_temp" (φ := .f32) 0x41649249#32)) (ix2 mi ki)
      = (∑ d : Fin 256, x0 (ix2 mi d) * x2 (ix2 ki d)) * ((Cert.Hand.Spec.kappaR : ℝ) : EReal) := by
  rw [mulf_apply, broadcast_apply, inv_temp_ideal, matmul256_apply, shapeCast_self]
  refine congrArg (· * _) (Finset.sum_congr rfl fun d _ => ?_)
  rw [transpose_ix2_apply]

/-- The negated similarity gap at (mi, ji, ki): zero minus the positive similarity at (mi, ji) less the negative
    similarity at (mi, ki), each broadcast along the other's axis. -/
theorem pay5_apply (x0 : Vec Ideal S64x256 .f32) (x1 : Vec Ideal S128x256 .f32) (x2 : Vec Ideal S256x256 .f32)
    (mi : Fin 64) (ji : Fin 128) (ki : Fin 256) :
    k0_pay5 (F := Ideal) x0 x1 x2 (ix3 mi ji ki)
      = (0 : EReal) - ((∑ d : Fin 256, x0 (ix2 mi d) * x1 (ix2 ji d)) * ((Cert.Hand.Spec.kappaR : ℝ) : EReal)
                     - (∑ d : Fin 256, x0 (ix2 mi d) * x2 (ix2 ki d)) * ((Cert.Hand.Spec.kappaR : ℝ) : EReal)) := by
  unfold k0_pay5
  dsimp only
  rw [subf_apply, subf_apply, broadcast_apply, broadcastTo_ab1_abc_apply, broadcastTo_a1c_abc_apply,
    shapeCast_ab_ab1_apply, shapeCast_ac_a1c_apply, simJ_apply, simK_apply, Cert.Hand.Spec.zero_f32]

/-! ## The three lane sums at an index -/

/-- The sum over the negative axis at (mi, ji). -/
theorem reduce_neg_apply (src : FVec Ideal S64x128x256 .f32) (h : S64x128x256.Reduces [2] S64x128)
    (hφ : FKind.Formats .f32) (hacc : (0x00000000#32 : BitVec 32) = 0x00000000#32) (mi : Fin 64) (ji : Fin 128) :
    multiReduction (F := Ideal) .add [2] S64x128 src 0x00000000#32 h hφ hacc (ix2 mi ji)
      = ∑ ki : Fin 256, src (ix3 mi ji ki) := by
  refine (Ideal.multiReduction_add_single src 0x00000000#32 h hφ hacc (ix2 mi ji)).trans ?_
  refine Finset.sum_congr rfl fun ki _ => congrArg src ?_
  funext ax; apply Fin.ext
  match ax with
  | ⟨0, _⟩ => rfl
  | ⟨1, _⟩ => rfl
  | ⟨2, _⟩ => rfl

/-- The sum over the positive axis at mi. -/
theorem reduce_pos_apply (src : FVec Ideal S64x128 .f32) (h : S64x128.Reduces [1] S64)
    (hφ : FKind.Formats .f32) (hacc : (0x00000000#32 : BitVec 32) = 0x00000000#32) (mi : Fin 64) :
    multiReduction (F := Ideal) .add [1] S64 src 0x00000000#32 h hφ hacc (ix1 mi)
      = ∑ ji : Fin 128, src (ix2 mi ji) := by
  refine (Ideal.multiReduction_add_single src 0x00000000#32 h hφ hacc (ix1 mi)).trans ?_
  refine Finset.sum_congr rfl fun ji _ => congrArg src ?_
  funext ax; apply Fin.ext
  match ax with
  | ⟨0, _⟩ => rfl
  | ⟨1, _⟩ => rfl

/-- The sum over the row axis. -/
theorem reduce_row_apply (src : FVec Ideal S64x1 .f32) (h : S64x1.Reduces [0] S1)
    (hφ : FKind.Formats .f32) (hacc : (0x00000000#32 : BitVec 32) = 0x00000000#32) (u : Fin 1) :
    multiReduction (F := Ideal) .add [0] S1 src 0x00000000#32 h hφ hacc (ix1 u)
      = ∑ mi : Fin 64, src (ix2 mi u) := by
  refine (Ideal.multiReduction_add_single src 0x00000000#32 h hφ hacc (ix1 u)).trans ?_
  refine Finset.sum_congr rfl fun mi _ => congrArg src ?_
  funext ax; apply Fin.ext
  match ax with
  | ⟨0, _⟩ => rfl
  | ⟨1, _⟩ => rfl

/-! ## The stored value at the cell, over any operands -/

/-- The stored value at cell (0, 0): the old value plus the sum over rows and positives of the positive mask times the
    sum over negatives of the negative mask times the guarded softplus term. -/
theorem pay1_apply (v18 : FVec Ideal S64x128 .f32) (v20 : FVec Ideal S64x256 .f32) (v29 : FVec Ideal S64x128x256 .f32)
    (v32 : IVec S64x128x256 1) (v34 v35 : FVec Ideal S64x128x256 .f32) (c : Ideal .f32) (old : Vec Ideal S1x1 .f32) :
    k0_pay1 (F := Ideal) v18 v20 v29 v32 v34 v35 c old (ix2 0 0)
      = old (ix2 0 0) + ∑ mi : Fin 64, ∑ ji : Fin 128,
          (∑ ki : Fin 256,
            Scalar.select (v32 (ix3 mi ji ki)) (v34 (ix3 mi ji ki))
              (FloatOps.addf (v29 (ix3 mi ji ki))
                (FloatOps.log1p (FloatOps.exp (FloatOps.subf c (v35 (ix3 mi ji ki))))))
              * v20 (ix2 mi ki)) * v18 (ix2 mi ji) := by
  unfold k0_pay1
  dsimp only
  rw [addf_apply, shapeCast_self, shapeCast_a_1a_apply, reduce_row_apply]
  refine congrArg (old (ix2 0 0) + ·) (Finset.sum_congr rfl fun mi _ => ?_)
  rw [shapeCast_a_a1_apply, reduce_pos_apply]
  refine Finset.sum_congr rfl fun ji _ => ?_
  rw [mulf_apply, reduce_neg_apply]
  refine congrArg (· * v18 (ix2 mi ji)) (Finset.sum_congr rfl fun ki _ => ?_)
  rw [mulf_apply, broadcastTo_a1c_abc_apply, shapeCast_ac_a1c_apply]
  rfl

/-! ## Finite blocks: the stored value as a real number -/

/-- A finite extended real is the coercion of its real part. -/
theorem coe_toReal_of_exists {x : EReal} (h : ∃ r : ℝ, x = ((r : ℝ) : EReal)) : x = ((x.toReal : ℝ) : EReal) := by
  obtain ⟨r, rfl⟩ := h
  rw [EReal.toReal_coe]

/-- The negated similarity gap at (mi, ji, ki), over finite blocks, is a real number. -/
theorem pay5_real (x0 : Vec Ideal S64x256 .f32) (x1 : Vec Ideal S128x256 .f32) (x2 : Vec Ideal S256x256 .f32)
    (h0 : ∀ i, ∃ r : ℝ, x0 i = ((r : ℝ) : EReal)) (h1 : ∀ i, ∃ r : ℝ, x1 i = ((r : ℝ) : EReal))
    (h2 : ∀ i, ∃ r : ℝ, x2 i = ((r : ℝ) : EReal)) (mi : Fin 64) (ji : Fin 128) (ki : Fin 256) :
    k0_pay5 (F := Ideal) x0 x1 x2 (ix3 mi ji ki)
      = ((0 - ((∑ d : Fin 256, Cert.Hand.Spec.matR (a := 64) (b := 256) x0 mi d * Cert.Hand.Spec.matR (a := 128) (b := 256) x1 ji d)
                  * Cert.Hand.Spec.kappaR
                - (∑ d : Fin 256, Cert.Hand.Spec.matR (a := 64) (b := 256) x0 mi d * Cert.Hand.Spec.matR (a := 256) (b := 256) x2 ki d)
                  * Cert.Hand.Spec.kappaR) : ℝ) : EReal) := by
  rw [pay5_apply]
  have e1 : (∑ d : Fin 256, x0 (ix2 mi d) * x1 (ix2 ji d))
      = ((∑ d : Fin 256, Cert.Hand.Spec.matR (a := 64) (b := 256) x0 mi d * Cert.Hand.Spec.matR (a := 128) (b := 256) x1 ji d : ℝ) : EReal) := by
    rw [Cert.Hand.Spec.coe_sum]
    refine Finset.sum_congr rfl fun d _ => ?_
    rw [EReal.coe_mul]
    exact congrArg₂ (· * ·) (coe_toReal_of_exists (h0 _)) (coe_toReal_of_exists (h1 _))
  have e2 : (∑ d : Fin 256, x0 (ix2 mi d) * x2 (ix2 ki d))
      = ((∑ d : Fin 256, Cert.Hand.Spec.matR (a := 64) (b := 256) x0 mi d * Cert.Hand.Spec.matR (a := 256) (b := 256) x2 ki d : ℝ) : EReal) := by
    rw [Cert.Hand.Spec.coe_sum]
    refine Finset.sum_congr rfl fun d _ => ?_
    rw [EReal.coe_mul]
    exact congrArg₂ (· * ·) (coe_toReal_of_exists (h0 _)) (coe_toReal_of_exists (h2 _))
  rw [e1, e2, ← EReal.coe_mul, ← EReal.coe_mul, ← EReal.coe_sub, ← EReal.coe_zero, ← EReal.coe_sub]

/-- THE CELL: over finite blocks, the body stores the cell's old value plus the tile's sum, a real number. -/
theorem cellVal_ideal (x0 : Vec Ideal S64x256 .f32) (x1 : Vec Ideal S128x256 .f32) (x2 : Vec Ideal S256x256 .f32)
    (x3 : Vec Ideal S64x128 .f32) (x4 : Vec Ideal S64x256 .f32) (old : Vec Ideal S1x1 .f32)
    (h0 : ∀ i, ∃ r : ℝ, x0 i = ((r : ℝ) : EReal)) (h1 : ∀ i, ∃ r : ℝ, x1 i = ((r : ℝ) : EReal))
    (h2 : ∀ i, ∃ r : ℝ, x2 i = ((r : ℝ) : EReal)) (h3 : ∀ i, ∃ r : ℝ, x3 i = ((r : ℝ) : EReal))
    (h4 : ∀ i, ∃ r : ℝ, x4 i = ((r : ℝ) : EReal)) :
    cellVal (F := Ideal) x0 x1 x2 x3 x4 old (ix2 0 0)
      = old (ix2 0 0) + ((Cert.Hand.Spec.tileR (Cert.Hand.Spec.matR (a := 64) (b := 256) x0)
          (Cert.Hand.Spec.matR (a := 128) (b := 256) x1) (Cert.Hand.Spec.matR (a := 256) (b := 256) x2)
          (Cert.Hand.Spec.matR (a := 64) (b := 128) x3) (Cert.Hand.Spec.matR (a := 64) (b := 256) x4) : ℝ) : EReal) := by
  unfold cellVal
  rw [pay1_apply]
  refine congrArg (old (ix2 0 0) + ·) ?_
  unfold Cert.Hand.Spec.tileR
  rw [Cert.Hand.Spec.coe_sum]
  refine Finset.sum_congr rfl fun mi _ => ?_
  rw [Cert.Hand.Spec.coe_sum]
  refine Finset.sum_congr rfl fun ji _ => ?_
  rw [EReal.coe_mul, Cert.Hand.Spec.coe_sum]
  refine congrArg₂ (· * ·) (Finset.sum_congr rfl fun ki _ => ?_) ?_
  · rw [EReal.coe_mul]
    refine congrArg₂ (· * ·) ?_ ?_
    · exact Cert.Hand.Spec.kernel_softplus_ops _ (k0_pay5 (F := Ideal) x0 x1 x2 (ix3 mi ji ki))
        (FloatOps.ofBits (F := Ideal) .f32 0x00000000#32) (pay5_real x0 x1 x2 h0 h1 h2 mi ji ki) Cert.Hand.Spec.zero_f32
    · unfold k0_pay4
      rw [shapeCast_self]
      exact coe_toReal_of_exists (h4 _)
  · unfold k0_pay3
    rw [shapeCast_self]
    exact coe_toReal_of_exists (h3 _)

end Cert.KernelIdeal.Hand

end
-- ==== Proof.KI.LossValue.lean ====
/-
  The accumulated cells are the loss.  Inside a row block the output's staging buffer is carried through the
  block's eight grid points: the first point clears it and puts the tile's sum into cell (0, 0), each later
  point adds its tile's sum to that cell.  When the arrays' entries are real numbers every tile's sum is a
  real number, so after the last point of row block mb the cell holds the sum of the block's eight tiles,
  which are indexed by (positive block, negative block).  Each point's five input blocks are blocks of the
  arrays, so its tile is the tile of the three real matrices at (row block, positive block, negative block),
  and the sum of the four cells over the row blocks is the re-blocked triple sum, that is, the loss.
-/
import proofs.«423171_j44796508897295_3_alg».proof.Proof.KI.BlockReads
import proofs.«423171_j44796508897295_3_alg».proof.Proof.KI.TileValue
import proofs.«423171_j44796508897295_3_alg».proof.Proof.LossSpec

set_option maxRecDepth 16384

noncomputable section

namespace Cert.KernelIdeal.Hand

open Idealize.ShloMosaic Idealize.ShloMosaic.TcCoe Idealize.ShloMosaic.Tactic
open Idealize.ShloMosaic.Pipeline (Dat Cfg Window BodyObligation cellOf)
open Idealize.ShloMosaic.ValueIdx
open Cert.KernelIdeal Cert.KernelIdeal.Gen
open Cert.Hand.Spec
open scoped BigOperators

variable (V : (c : Dev nD) → (b : Ref sig .tc) → Buf (Elt Ideal) ((c : Thread nD τ).loc b))

/-- The four arrays the input windows read, at their literal shapes. -/
abbrev arrA (c : Dev nD) : S256x256.Idx → EReal := V c main_v0
abbrev arrB (c : Dev nD) : S512x256.Idx → EReal := V c main_arg1
abbrev arrP (c : Dev nD) : S256x512.Idx → EReal := V c main_v1
abbrev arrN (c : Dev nD) : S256x512.Idx → EReal := V c main_v3

/-- The five input blocks at a grid point, at their literal shapes. -/
abbrev blk0 (c : Dev nD) (t : Fin cfg0.N) : S64x256.Idx → EReal := iblk0 V c 0 t
abbrev blk1 (c : Dev nD) (t : Fin cfg0.N) : S128x256.Idx → EReal := iblk0 V c 1 t
abbrev blk2 (c : Dev nD) (t : Fin cfg0.N) : S256x256.Idx → EReal := iblk0 V c 2 t
abbrev blk3 (c : Dev nD) (t : Fin cfg0.N) : S64x128.Idx → EReal := iblk0 V c 3 t
abbrev blk4 (c : Dev nD) (t : Fin cfg0.N) : S64x256.Idx → EReal := iblk0 V c 4 t

/-- One minus a real, on the extended reals, is the real difference. -/
theorem one_sub_coe (r : ℝ) : (1 : EReal) - ((r : ℝ) : EReal) = ((1 - r : ℝ) : EReal) := by
  rw [← EReal.coe_one, ← EReal.coe_sub]

/-- The cleared value is zero. -/
theorem cleared_zero (y : S8x128.Idx) : k0_pay2 (F := Ideal) y = (0 : EReal) := zero_f32

/-- The accumulation read at equal positions. -/
theorem outsAt0_congr_pt (c : Dev nD) {a b : ℕ} (h : a = b) (ha : a < cfg0.N) (hb : b < cfg0.N) :
    outsAt0 V c a ha = outsAt0 V c b hb := by
  subst h; rfl

/-- The real tile sum of the five blocks at a grid point. -/
def tileAt (c : Dev nD) (t : Fin cfg0.N) : ℝ :=
  tileR (matR (blk0 V c t)) (matR (blk1 V c t)) (matR (blk2 V c t)) (matR (blk3 V c t)) (matR (blk4 V c t))

/-- The same at a position given as a natural number (zero outside the grid). -/
def tileN (c : Dev nD) (k : ℕ) : ℝ := if h : k < cfg0.N then tileAt V c ⟨k, h⟩ else 0

/-- The tile of the three real matrices at block (mb, jb, kb): the summand of the re-blocked loss. -/
def tileG (A : Fin 256 → Fin 256 → ℝ) (B : Fin 512 → Fin 256 → ℝ) (P : Fin 256 → Fin 512 → ℝ)
    (mb jb : Fin 4) (kb : Fin 2) : ℝ :=
  tileR (fun mi d => A ⟨64 * (mb : ℕ) + (mi : ℕ), by omega⟩ d)
        (fun ji d => B ⟨128 * (jb : ℕ) + (ji : ℕ), by omega⟩ d)
        (fun ki d => B ⟨256 * (kb : ℕ) + (ki : ℕ), by omega⟩ d)
        (fun mi ji => P ⟨64 * (mb : ℕ) + (mi : ℕ), by omega⟩ ⟨128 * (jb : ℕ) + (ji : ℕ), by omega⟩)
        (fun mi ki => 1 - P ⟨64 * (mb : ℕ) + (mi : ℕ), by omega⟩ ⟨256 * (kb : ℕ) + (ki : ℕ), by omega⟩)

theorem lossR_tileG (A : Fin 256 → Fin 256 → ℝ) (B : Fin 512 → Fin 256 → ℝ) (P : Fin 256 → Fin 512 → ℝ) :
    lossR A B P = ∑ mb : Fin 4, ∑ jb : Fin 4, ∑ kb : Fin 2, tileG A B P mb jb kb :=
  lossR_eq_tiles A B P

variable (c : Dev nD)
variable (hA : ∀ i, ∃ r : ℝ, (V c main_v0 : S256x256.Idx → EReal) i = ((r : ℝ) : EReal))
variable (hB : ∀ i, ∃ r : ℝ, (V c main_arg1 : S512x256.Idx → EReal) i = ((r : ℝ) : EReal))
variable (hP : ∀ i, ∃ r : ℝ, (V c main_v1 : S256x512.Idx → EReal) i = ((r : ℝ) : EReal))
variable (hN : ∀ i, (V c main_v3 : S256x512.Idx → EReal) i = (1 : EReal) - (V c main_v1 : S256x512.Idx → EReal) i)

/-! ### The blocks' entries are reals, being entries of the arrays -/

include hA in
theorem blk0_real (t : Fin cfg0.N) : ∀ i, ∃ r : ℝ, blk0 V c t i = ((r : ℝ) : EReal) := by
  intro i
  obtain ⟨p, q, rfl⟩ : ∃ (p : Fin 64) (q : Fin 256), i = ix2 p q := ⟨i 0, i 1, eq_ix2 i⟩
  obtain ⟨r, hr⟩ := hA (ix2 ⟨64 * (t.val / 8) + p.val, by have := pt_lt t; omega⟩ q)
  exact ⟨r, (iblk0_0 V c t p q).trans hr⟩

include hB in
theorem blk1_real (t : Fin cfg0.N) : ∀ i, ∃ r : ℝ, blk1 V c t i = ((r : ℝ) : EReal) := by
  intro i
  obtain ⟨p, q, rfl⟩ : ∃ (p : Fin 128) (q : Fin 256), i = ix2 p q := ⟨i 0, i 1, eq_ix2 i⟩
  obtain ⟨r, hr⟩ := hB (ix2 ⟨128 * ((t.val / 2) % 4) + p.val, by have := pt_lt t; omega⟩ q)
  exact ⟨r, (iblk0_1 V c t p q).trans hr⟩

include hB in
theorem blk2_real (t : Fin cfg0.N) : ∀ i, ∃ r : ℝ, blk2 V c t i = ((r : ℝ) : EReal) := by
  intro i
  obtain ⟨p, q, rfl⟩ : ∃ (p : Fin 256) (q : Fin 256), i = ix2 p q := ⟨i 0, i 1, eq_ix2 i⟩
  obtain ⟨r, hr⟩ := hB (ix2 ⟨256 * (t.val % 2) + p.val, by have := pt_lt t; omega⟩ q)
  exact ⟨r, (iblk0_2 V c t p q).trans hr⟩

include hP in
theorem blk3_real (t : Fin cfg0.N) : ∀ i, ∃ r : ℝ, blk3 V c t i = ((r : ℝ) : EReal) := by
  intro i
  obtain ⟨p, q, rfl⟩ : ∃ (p : Fin 64) (q : Fin 128), i = ix2 p q := ⟨i 0, i 1, eq_ix2 i⟩
  obtain ⟨r, hr⟩ := hP (ix2 ⟨64 * (t.val / 8) + p.val, by have := pt_lt t; omega⟩
    ⟨128 * ((t.val / 2) % 4) + q.val, by have := pt_lt t; omega⟩)
  exact ⟨r, (iblk0_3 V c t p q).trans hr⟩

include hP hN in
theorem blk4_real (t : Fin cfg0.N) : ∀ i, ∃ r : ℝ, blk4 V c t i = ((r : ℝ) : EReal) := by
  intro i
  obtain ⟨p, q, rfl⟩ : ∃ (p : Fin 64) (q : Fin 256), i = ix2 p q := ⟨i 0, i 1, eq_ix2 i⟩
  obtain ⟨r, hr⟩ := hP (ix2 ⟨64 * (t.val / 8) + p.val, by have := pt_lt t; omega⟩
    ⟨256 * (t.val % 2) + q.val, by have := pt_lt t; omega⟩)
  refine ⟨1 - r, (iblk0_4 V c t p q).trans ((hN _).trans ?_)⟩
  rw [hr]
  exact one_sub_coe r

/-! ### One grid point's step on cell (0, 0) -/

include hA hB hP hN in
/-- At the first point of a row block the cell holds the tile's sum. -/
theorem cell_first (t : Fin cfg0.N) (h : t.val % 8 = 0) :
    outsAt0 V c t.val t.isLt (ix2 (0 : Fin 8) (0 : Fin 128)) = ((tileAt V c t : ℝ) : EReal) := by
  rw [outsAt0_A V c t h, outA_cell]
  refine (cellVal_ideal (iblk0 V c 0 t) (iblk0 V c 1 t) (iblk0 V c 2 t) (iblk0 V c 3 t) (iblk0 V c 4 t)
    (fun _ => k0_pay2 (F := Ideal) (ix2 (0 : Fin 8) (0 : Fin 128)))
    (blk0_real V c hA t) (blk1_real V c hB t) (blk2_real V c hB t) (blk3_real V c hP t) (blk4_real V c hP hN t)).trans ?_
  show k0_pay2 (F := Ideal) (ix2 (0 : Fin 8) (0 : Fin 128)) + ((tileAt V c t : ℝ) : EReal) = _
  rw [cleared_zero, zero_add]

include hA hB hP hN in
/-- At every later point of a row block the cell gains the tile's sum. -/
theorem cell_next (t : Fin cfg0.N) (h : ¬ t.val % 8 = 0) :
    outsAt0 V c t.val t.isLt (ix2 (0 : Fin 8) (0 : Fin 128))
      = outsAt0 V c (t.val - 1) (Nat.lt_of_le_of_lt (Nat.sub_le _ _) t.isLt) (ix2 (0 : Fin 8) (0 : Fin 128))
        + ((tileAt V c t : ℝ) : EReal) := by
  rw [outsAt0_B V c t h, outB_cell]
  exact cellVal_ideal (iblk0 V c 0 t) (iblk0 V c 1 t) (iblk0 V c 2 t) (iblk0 V c 3 t) (iblk0 V c 4 t)
    (fun _ => outsAt0 V c (t.val - 1) (Nat.lt_of_le_of_lt (Nat.sub_le _ _) t.isLt) (ix2 (0 : Fin 8) (0 : Fin 128)))
    (blk0_real V c hA t) (blk1_real V c hB t) (blk2_real V c hB t) (blk3_real V c hP t) (blk4_real V c hP hN t)

/-! ### The eight points of a row block -/

/-- A position inside row block mb is a grid point. -/
theorem row_pt_lt (mb : Fin 4) (n : ℕ) (hn : n < 8) : 8 * mb.val + n < cfg0.N := by
  have h : cfg0.N = 32 := N_0
  have := mb.isLt
  omega

include hA hB hP hN in
/-- After the point at offset n of row block mb the cell holds the sum of the tiles of the block's
    first n + 1 points. -/
theorem row_acc (mb : Fin 4) : ∀ (n : ℕ) (hn : n < 8),
    outsAt0 V c (8 * mb.val + n) (row_pt_lt mb n hn) (ix2 (0 : Fin 8) (0 : Fin 128))
      = ((∑ i ∈ Finset.range (n + 1), tileN V c (8 * mb.val + i) : ℝ) : EReal) := by
  intro n
  induction n with
  | zero =>
    intro hn
    have e := cell_first V c hA hB hP hN ⟨8 * mb.val + 0, row_pt_lt mb 0 hn⟩ (by show (8 * mb.val + 0) % 8 = 0; omega)
    rw [Finset.sum_range_one]
    unfold tileN
    rw [dif_pos (row_pt_lt mb 0 hn)]
    exact e
  | succ n ih =>
    intro hn
    have hn' : n < 8 := by omega
    have e := cell_next V c hA hB hP hN ⟨8 * mb.val + (n + 1), row_pt_lt mb (n + 1) hn⟩
      (by show ¬ (8 * mb.val + (n + 1)) % 8 = 0; omega)
    have e2 : outsAt0 V c (8 * mb.val + (n + 1) - 1)
          (Nat.lt_of_le_of_lt (Nat.sub_le _ _) (row_pt_lt mb (n + 1) hn))
        = outsAt0 V c (8 * mb.val + n) (row_pt_lt mb n hn') :=
      outsAt0_congr_pt V c (by omega) _ _
    rw [Finset.sum_range_succ, EReal.coe_add, ← ih hn']
    refine e.trans ?_
    show outsAt0 V c (8 * mb.val + (n + 1) - 1) _ (ix2 (0 : Fin 8) (0 : Fin 128)) + _ = _
    rw [e2]
    unfold tileN
    rw [dif_pos (row_pt_lt mb (n + 1) hn)]

include hA hB hP hN in
/-- After the last point of row block mb the cell holds the sum of the block's eight tiles, indexed
    by (positive block, negative block). -/
theorem row_total (mb : Fin 4) :
    outsAt0 V c (8 * mb.val + 7) (row_pt_lt mb 7 (by omega)) (ix2 (0 : Fin 8) (0 : Fin 128))
      = ((∑ jb : Fin 4, ∑ kb : Fin 2, tileN V c (8 * mb.val + (2 * jb.val + kb.val)) : ℝ) : EReal) := by
  rw [row_acc V c hA hB hP hN mb 7 (by omega)]
  congr 1
  rw [← Fin.sum_univ_eq_sum_range (fun i => tileN V c (8 * mb.val + i)) 8]
  exact sum_fin8 (fun n => tileN V c (8 * mb.val + n.val))

/-! ### A point's blocks as blocks of the arrays -/

theorem matR_blk0 (t : Fin cfg0.N) (mb : Fin 4) (h : t.val / 8 = mb.val) :
    matR (blk0 V c t) = fun mi d => matR (arrA V c) ⟨64 * mb.val + mi.val, by omega⟩ d := by
  obtain ⟨mbv, hmb⟩ := mb
  replace h : t.val / 8 = mbv := h
  subst h
  funext mi d
  exact congrArg EReal.toReal (iblk0_0 V c t mi d)

theorem matR_blk1 (t : Fin cfg0.N) (jb : Fin 4) (h : (t.val / 2) % 4 = jb.val) :
    matR (blk1 V c t) = fun ji d => matR (arrB V c) ⟨128 * jb.val + ji.val, by omega⟩ d := by
  obtain ⟨jbv, hjb⟩ := jb
  replace h : (t.val / 2) % 4 = jbv := h
  subst h
  funext ji d
  exact congrArg EReal.toReal (iblk0_1 V c t ji d)

theorem matR_blk2 (t : Fin cfg0.N) (kb : Fin 2) (h : t.val % 2 = kb.val) :
    matR (blk2 V c t) = fun ki d => matR (arrB V c) ⟨256 * kb.val + ki.val, by omega⟩ d := by
  obtain ⟨kbv, hkb⟩ := kb
  replace h : t.val % 2 = kbv := h
  subst h
  funext ki d
  exact congrArg EReal.toReal (iblk0_2 V c t ki d)

theorem matR_blk3 (t : Fin cfg0.N) (mb jb : Fin 4) (h0 : t.val / 8 = mb.val) (h1 : (t.val / 2) % 4 = jb.val) :
    matR (blk3 V c t) = fun mi ji => matR (arrP V c) ⟨64 * mb.val + mi.val, by omega⟩ ⟨128 * jb.val + ji.val, by omega⟩ := by
  obtain ⟨mbv, hmb⟩ := mb
  obtain ⟨jbv, hjb⟩ := jb
  replace h0 : t.val / 8 = mbv := h0
  replace h1 : (t.val / 2) % 4 = jbv := h1
  subst h0 h1
  funext mi ji
  exact congrArg EReal.toReal (iblk0_3 V c t mi ji)

include hP hN in
theorem matR_blk4 (t : Fin cfg0.N) (mb : Fin 4) (kb : Fin 2) (h0 : t.val / 8 = mb.val) (h1 : t.val % 2 = kb.val) :
    matR (blk4 V c t) = fun mi ki => 1 - matR (arrP V c) ⟨64 * mb.val + mi.val, by omega⟩ ⟨256 * kb.val + ki.val, by omega⟩ := by
  obtain ⟨mbv, hmb⟩ := mb
  obtain ⟨kbv, hkb⟩ := kb
  replace h0 : t.val / 8 = mbv := h0
  replace h1 : t.val % 2 = kbv := h1
  subst h0 h1
  funext mi ki
  obtain ⟨r, hr⟩ := hP (ix2 ⟨64 * (t.val / 8) + mi.val, by have := pt_lt t; omega⟩
    ⟨256 * (t.val % 2) + ki.val, by have := pt_lt t; omega⟩)
  have e : blk4 V c t (ix2 mi ki) = ((1 - r : ℝ) : EReal) := by
    refine (iblk0_4 V c t mi ki).trans ((hN _).trans ?_)
    rw [hr]
    exact one_sub_coe r
  show (blk4 V c t (ix2 mi ki)).toReal = 1 - (arrP V c (ix2 _ _)).toReal
  rw [e]
  show _ = 1 - ((V c main_v1 : S256x512.Idx → EReal) (ix2 _ _)).toReal
  rw [hr, EReal.toReal_coe, EReal.toReal_coe]

include hP hN in
/-- The tile at the point (mb, jb, kb) of the grid is the tile of the three real matrices there. -/
theorem tileN_eq (mb jb : Fin 4) (kb : Fin 2) :
    tileN V c (8 * mb.val + (2 * jb.val + kb.val))
      = tileG (matR (arrA V c)) (matR (arrB V c)) (matR (arrP V c)) mb jb kb := by
  have hlt : 8 * mb.val + (2 * jb.val + kb.val) < cfg0.N := by
    have h : cfg0.N = 32 := N_0
    have := mb.isLt; have := jb.isLt; have := kb.isLt
    omega
  have h0 : (8 * mb.val + (2 * jb.val + kb.val)) / 8 = mb.val := by have := jb.isLt; have := kb.isLt; omega
  have h1 : ((8 * mb.val + (2 * jb.val + kb.val)) / 2) % 4 = jb.val := by have := jb.isLt; have := kb.isLt; omega
  have h2 : (8 * mb.val + (2 * jb.val + kb.val)) % 2 = kb.val := by have := kb.isLt; omega
  unfold tileN
  rw [dif_pos hlt]
  unfold tileAt tileG
  rw [matR_blk0 V c ⟨_, hlt⟩ mb h0, matR_blk1 V c ⟨_, hlt⟩ jb h1, matR_blk2 V c ⟨_, hlt⟩ kb h2,
    matR_blk3 V c ⟨_, hlt⟩ mb jb h0 h1, matR_blk4 V c hP hN ⟨_, hlt⟩ mb kb h0 h2]

/-! ### The four cells are the loss -/

include hA hB hP hN in
/-- After the last point of each row block, cell (0, 0) of the output's buffer holds a real number, and
    the four numbers sum to the loss of the three real matrices. -/
theorem cells_value : ∃ cell : Fin 4 → ℝ,
    (∀ mb : Fin 4, outsAt0 V c (8 * mb.val + 7) (row_pt_lt mb 7 (by omega)) (ix2 (0 : Fin 8) (0 : Fin 128))
        = ((cell mb : ℝ) : EReal))
    ∧ (∑ mb : Fin 4, cell mb)
        = lossR (matR (a := 256) (b := 256) (V c main_v0)) (matR (a := 512) (b := 256) (V c main_arg1))
            (matR (a := 256) (b := 512) (V c main_v1)) := by
  refine ⟨fun mb => ∑ jb : Fin 4, ∑ kb : Fin 2, tileG (matR (arrA V c)) (matR (arrB V c)) (matR (arrP V c)) mb jb kb,
    fun mb => ?_, (lossR_tileG _ _ _).symm⟩
  rw [row_total V c hA hB hP hN mb]
  congr 1
  exact Finset.sum_congr rfl fun jb _ => Finset.sum_congr rfl fun kb _ => tileN_eq V c hP hN mb jb kb

end Cert.KernelIdeal.Hand

end
-- ==== Proof.Consts.lean ====
/-
  The float constants the two programs spell, as the extended reals their words denote at the ideal
  instance: zero, one, and the temperature 0.07 in single precision, which is the dyadic rational
  9395241 / 2^27 (so dividing by it is multiplying by 2^27 / 9395241).
-/
import Idealize.ShloMosaic.PureOps.Ideal

noncomputable section

namespace Cert.Hand.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_temp : Ideal.ofBits .f32 0x3D8F5C29#32 = ((9395241 / 134217728 : ℝ) : EReal) := by
  simp [Ideal.ofBits, Ideal.ieee, -EReal.coe_mul]; norm_num

theorem temp_ne_zero : (9395241 / 134217728 : ℝ) ≠ 0 := by norm_num

/-- One over the temperature word is the kernel's named constant's value. -/
theorem inv_temp : (1 / (9395241 / 134217728 : ℝ)) = (134217728 / 9395241 : ℝ) := by norm_num

end Cert.Hand.Consts

end
-- ==== Proof.TailLemmas.lean ====
/-
  The closing host arithmetic of the pairwise softplus loss, read at the extended reals:
  a host float sum from the constant zero is the plain finite sum of its operand, taken
  over one axis (row sums) or over every axis (a grand total), re-indexed into iterated
  sums over the coordinates; the product of two real-valued rank-1 arrays; and the final
  normalisation "divide by the pair count where it is positive".
-/
import Idealize.ShloMosaic.PureOps.Ideal.Laws
import Idealize.ShloMosaic.Lib.ValueIdx
import Idealize.ShloMosaic.Lib.ValueIdxRank1
import Idealize.ShloMosaic.Lib.IdealHost
import proofs.«423171_j44796508897295_3_alg».proof.Proof.LossSpec

open scoped BigOperators
open Idealize.ShloMosaic Idealize.ShloMosaic.ValueIdx

namespace Cert.Hand.Tail

/-- The rank-0 array holding the f32 pattern of zero: the initial value of every sum here. -/
local notation "z0" => (constant (F := Ideal) (⟨0, ![]⟩ : Shape) FTy.f32 (0x00000000#32))

/-! ### Index sets as products of their coordinate ranges -/

/-- A rank-3 index set is the product of its three coordinate ranges. -/
def idxEquiv3 {n0 n1 n2 : Nat} :
    (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat}
    (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### Host sums from zero -/

/-- Row sums of a `256 × 512` array: the host sum over the second axis from zero is, at row
    `i`, the sum of that row's `512` entries. -/
theorem rowsum_256x512 (x : FVec Ideal ⟨2, ![256, 512]⟩ .f32)
    (hr : (⟨2, ![256, 512]⟩ : Shape).ReducesTo [1] ⟨1, ![256]⟩)
    (h : 0 < (⟨0, ![]⟩ : Shape).numel) :
    Host.reduceAdd x z0 hr h = fun i => ∑ j : Fin 512, x (ix2 (i 0) j) := by
  have hR : (⟨2, ![256, 512]⟩ : Shape).Reduces [1] ⟨1, ![256]⟩ := ⟨hr.1, Nat.one_pos, hr.2⟩
  funext i
  rw [hostReduceAdd_apply, Ideal.hostReduceAdd_single hr hR]
  show Ideal.ofBits .f32 0x00000000#32 + _ = _
  rw [Ideal.ofBits_zero_f32, zero_add]
  refine Finset.sum_congr rfl fun k _ => congrArg x (funext fun a => Fin.ext ?_)
  match a with
  | ⟨0, _⟩ => rfl
  | ⟨1, _⟩ => rfl

/-- The total of a length-`256` array. -/
theorem sumall_256 (x : FVec Ideal ⟨1, ![256]⟩ .f32)
    (hr : (⟨1, ![256]⟩ : Shape).ReducesTo [0] ⟨0, ![]⟩)
    (h : 0 < (⟨0, ![]⟩ : Shape).numel) :
    Host.reduceAdd x z0 hr h = fun _ => ∑ m : Fin 256, x (ix1 m) := by
  funext i
  rw [hostReduceAdd_apply, Ideal.hostReduceAdd_total hr (fun b => b.elim0)]
  show Ideal.ofBits .f32 0x00000000#32 + _ = _
  rw [Ideal.ofBits_zero_f32, zero_add, sum_idx1]

/-- The total of a `32 × 128` array. -/
theorem sumall_32x128 (x : FVec Ideal ⟨2, ![32, 128]⟩ .f32)
    (hr : (⟨2, ![32, 128]⟩ : Shape).ReducesTo [0, 1] ⟨0, ![]⟩)
    (h : 0 < (⟨0, ![]⟩ : Shape).numel) :
    Host.reduceAdd x z0 hr h = fun _ => ∑ r : Fin 32, ∑ q : Fin 128, x (ix2 r q) := by
  funext i
  rw [hostReduceAdd_apply, Ideal.hostReduceAdd_total hr (fun b => b.elim0)]
  show Ideal.ofBits .f32 0x00000000#32 + _ = _
  rw [Ideal.ofBits_zero_f32, zero_add, sum_idx2]

/-- The total of a `256 × 512 × 512` array. -/
theorem sumall_256x512x512 (x : FVec Ideal ⟨3, ![256, 512, 512]⟩ .f32)
    (hr : (⟨3, ![256, 512, 512]⟩ : Shape).ReducesTo [0, 1, 2] ⟨0, ![]⟩)
    (h : 0 < (⟨0, ![]⟩ : Shape).numel) :
    Host.reduceAdd x z0 hr h
      = fun _ => ∑ m : Fin 256, ∑ j : Fin 512, ∑ k : Fin 512, x (ix3 m j k) := by
  funext i
  rw [hostReduceAdd_apply, Ideal.hostReduceAdd_total hr (fun b => b.elim0)]
  show Ideal.ofBits .f32 0x00000000#32 + _ = _
  rw [Ideal.ofBits_zero_f32, zero_add, sum_idx3]

/-! ### The product of two real-valued rank-1 arrays -/

/-- Entry by entry, the product of two arrays of reals is the array of the real products. -/
theorem mul_coe_256 (f g : Fin 256 → ℝ) :
    (mulf (fun i => ((f (i 0) : ℝ) : EReal)) (fun i => ((g (i 0) : ℝ) : EReal))
        : FVec Ideal ⟨1, ![256]⟩ .f32)
      = fun i => ((f (i 0) * g (i 0) : ℝ) : EReal) := by
  funext i
  rw [mulf_apply]
  exact (EReal.coe_mul _ _).symm

/-! ### The final normalisation -/

/-- The comparison "`a > 0`" at a positive real is the one bit. -/
theorem cmp_ogt_zero_of_pos {pn : ℝ} (hp : 0 < pn) :
    Ideal.cmp .ogt ((pn : ℝ) : EReal) 0 = 1#1 := by
  have : (0 : EReal) < ((pn : ℝ) : EReal) := EReal.coe_pos.mpr hp
  simp [Ideal.cmp, this]

/-- … and at a real that is not positive, the zero bit. -/
theorem cmp_ogt_zero_of_not_pos {pn : ℝ} (hp : ¬ 0 < pn) :
    Ideal.cmp .ogt ((pn : ℝ) : EReal) 0 = 0#1 := by
  have : ¬ (0 : EReal) < ((pn : ℝ) : EReal) := fun h => hp (EReal.coe_pos.mp h)
  simp [Ideal.cmp, this]

/-- The loss divided by the pair count where that is positive, else the loss itself. -/
theorem final_choice (ls pn : ℝ) :
    (select (cmpf .ogt (fun _ => ((pn : ℝ) : EReal)) z0)
        (Host.divf (fun _ => ((ls : ℝ) : EReal)) (fun _ => ((pn : ℝ) : EReal)))
        (fun _ => ((ls : ℝ) : EReal)) : FVec Ideal ⟨0, ![]⟩ .f32)
      = fun _ => Cert.Hand.Spec.finalE ls pn := by
  funext i
  rw [select_apply, cmpf_apply, hostDivf_apply, Ideal.cmpf_def]
  show Scalar.select (Ideal.cmp .ogt ((pn : ℝ) : EReal) (Ideal.ofBits .f32 0x00000000#32)) _ _ = _
  rw [Ideal.ofBits_zero_f32]
  by_cases hp : 0 < pn
  · rw [cmp_ogt_zero_of_pos hp, select_one, Cert.Hand.Spec.finalE_pos hp, Ideal.div_coe hp.ne',
      ← EReal.coe_mul, mul_one_div]
  · rw [cmp_ogt_zero_of_not_pos hp, select_zero, Cert.Hand.Spec.finalE_nonpos hp]

end Cert.Hand.Tail
-- ==== Proof.TailLemmas2.lean ====
/-
  The pair count and the kernel's output total, read at the extended reals.  The pair count
  is the total over the rows of (row sum of the positive mask) times (row sum of its
  complement), a real number once the mask's entries are real.  The kernel's output array
  holds one tile-row total in the first column of every eighth row and zero elsewhere, so
  its grand total is the sum of those four numbers.
-/
import Mathlib.Logic.Equiv.Fin.Basic
import Mathlib.Algebra.BigOperators.Fin
import Idealize.ShloMosaic.PureOps.Ideal.Laws
import Idealize.ShloMosaic.Lib.ValueIdx
import Idealize.ShloMosaic.Lib.ValueIdxRank1
import Idealize.ShloMosaic.Lib.IdealHost
import proofs.«423171_j44796508897295_3_alg».proof.Proof.LossSpec
import proofs.«423171_j44796508897295_3_alg».proof.Proof.Consts
import proofs.«423171_j44796508897295_3_alg».proof.Proof.TailLemmas

open scoped BigOperators
open Idealize.ShloMosaic Idealize.ShloMosaic.ValueIdx

namespace Cert.Hand.Tail

/-- The rank-0 array holding the f32 pattern of zero: the initial value of every sum here. -/
local notation "z0" => (constant (F := Ideal) (⟨0, ![]⟩ : Shape) FTy.f32 (0x00000000#32))

/-! ### The complement of the mask -/

/-- The array "one minus `P`", with the one a broadcast scalar constant, read at an index. -/
theorem one_sub_apply (P : FVec Ideal ⟨2, ![256, 512]⟩ .f32)
    (hb : (⟨0, ![]⟩ : Shape).BroadcastsInDim ⟨2, ![256, 512]⟩ ![])
    (i : (⟨2, ![256, 512]⟩ : Shape).Idx) :
    (subf (broadcastInDim ⟨2, ![256, 512]⟩ ![] hb
        (constant (F := Ideal) ⟨0, ![]⟩ .f32 0x3F800000#32)) P) i = 1 - P i := by
  rw [subf_apply, broadcastInDim_scalar_apply, constant_apply, Cert.Hand.Consts.ofBits_one]

/-! ### The pair count -/

/-- The total over the rows of the product of the two row sums is the real pair count of the
    mask's real entries. -/
theorem pair_value (P N : FVec Ideal ⟨2, ![256, 512]⟩ .f32)
    (hP : ∀ i, ∃ r : ℝ, P i = ((r : ℝ) : EReal)) (hN : ∀ i, N i = 1 - P i)
    (hr1 : (⟨2, ![256, 512]⟩ : Shape).ReducesTo [1] ⟨1, ![256]⟩)
    (hr2 : (⟨1, ![256]⟩ : Shape).ReducesTo [0] ⟨0, ![]⟩)
    (h : 0 < (⟨0, ![]⟩ : Shape).numel) :
    Host.reduceAdd (mulf (Host.reduceAdd P z0 hr1 h) (Host.reduceAdd N z0 hr1 h)) z0 hr2 h
      = fun _ => ((Cert.Hand.Spec.pairR (Cert.Hand.Spec.matR P) : ℝ) : EReal) := by
  -- every entry of the mask, and of its complement, is the coercion of a real
  have hPr : ∀ (m : Fin 256) (j : Fin 512),
      P (ix2 m j) = ((Cert.Hand.Spec.matR P m j : ℝ) : EReal) := by
    intro m j
    obtain ⟨r, hr⟩ := hP (ix2 m j)
    show P (ix2 m j) = (((P (ix2 m j)).toReal : ℝ) : EReal)
    rw [hr, EReal.toReal_coe]
  have hNr : ∀ (m : Fin 256) (j : Fin 512),
      N (ix2 m j) = ((1 - Cert.Hand.Spec.matR P m j : ℝ) : EReal) := by
    intro m j
    rw [hN, hPr, EReal.coe_sub, EReal.coe_one]
  -- the two row sums are coercions of real row sums
  have e1 : Host.reduceAdd P z0 hr1 h
      = fun i => ((∑ j : Fin 512, Cert.Hand.Spec.matR P (i 0) j : ℝ) : EReal) := by
    rw [rowsum_256x512]
    funext i
    rw [Cert.Hand.Spec.coe_sum]
    exact Finset.sum_congr rfl fun j _ => hPr (i 0) j
  have e2 : Host.reduceAdd N z0 hr1 h
      = fun i => ((∑ k : Fin 512, (1 - Cert.Hand.Spec.matR P (i 0) k) : ℝ) : EReal) := by
    rw [rowsum_256x512]
    funext i
    rw [Cert.Hand.Spec.coe_sum]
    exact Finset.sum_congr rfl fun k _ => hNr (i 0) k
  -- their product, row by row
  have e3 : (mulf (fun i => ((∑ j : Fin 512, Cert.Hand.Spec.matR P (i 0) j : ℝ) : EReal))
        (fun i => ((∑ k : Fin 512, (1 - Cert.Hand.Spec.matR P (i 0) k) : ℝ) : EReal))
        : FVec Ideal ⟨1, ![256]⟩ .f32)
      = fun i => (((∑ j : Fin 512, Cert.Hand.Spec.matR P (i 0) j)
          * (∑ k : Fin 512, (1 - Cert.Hand.Spec.matR P (i 0) k)) : ℝ) : EReal) :=
    mul_coe_256 (fun m => ∑ j : Fin 512, Cert.Hand.Spec.matR P m j)
      (fun m => ∑ k : Fin 512, (1 - Cert.Hand.Spec.matR P m k))
  rw [e1, e2, e3, sumall_256]
  funext _
  show ∑ m : Fin 256, (((∑ j : Fin 512, Cert.Hand.Spec.matR P m j)
        * (∑ k : Fin 512, (1 - Cert.Hand.Spec.matR P m k)) : ℝ) : EReal)
      = ((∑ m : Fin 256, (∑ j : Fin 512, Cert.Hand.Spec.matR P m j)
        * (∑ k : Fin 512, (1 - Cert.Hand.Spec.matR P m k)) : ℝ) : EReal)
  exact (Cert.Hand.Spec.coe_sum _ _).symm

/-- The same with the complement spelled as "broadcast one, minus `P`". -/
theorem pair_value_sub (P : FVec Ideal ⟨2, ![256, 512]⟩ .f32)
    (hP : ∀ i, ∃ r : ℝ, P i = ((r : ℝ) : EReal))
    (hb : (⟨0, ![]⟩ : Shape).BroadcastsInDim ⟨2, ![256, 512]⟩ ![])
    (hr1 : (⟨2, ![256, 512]⟩ : Shape).ReducesTo [1] ⟨1, ![256]⟩)
    (hr2 : (⟨1, ![256]⟩ : Shape).ReducesTo [0] ⟨0, ![]⟩)
    (h : 0 < (⟨0, ![]⟩ : Shape).numel) :
    Host.reduceAdd (mulf (Host.reduceAdd P z0 hr1 h)
        (Host.reduceAdd (subf (broadcastInDim ⟨2, ![256, 512]⟩ ![] hb
          (constant (F := Ideal) ⟨0, ![]⟩ .f32 0x3F800000#32)) P) z0 hr1 h)) z0 hr2 h
      = fun _ => ((Cert.Hand.Spec.pairR (Cert.Hand.Spec.matR P) : ℝ) : EReal) :=
  pair_value P _ hP (one_sub_apply P hb) hr1 hr2 h

/-! ### The kernel's output total -/

/-- A sum over `Fin 32` as a double sum over four blocks of eight. -/
theorem sum_fin32 {M : Type*} [AddCommMonoid M] (g : Fin 32 → M) :
    ∑ r : Fin 32, g r = ∑ mb : Fin 4, ∑ ri : Fin 8, g ⟨8 * mb.val + ri.val, by omega⟩ := by
  have e := (finProdFinEquiv (m := 4) (n := 8)).sum_comp g
  rw [← e, Fintype.sum_prod_type]
  refine Finset.sum_congr rfl fun mb _ => Finset.sum_congr rfl fun ri _ => congrArg g (Fin.ext ?_)
  simp only [finProdFinEquiv, Equiv.coe_fn_mk]
  omega

/-- An array that is zero except at column `0` of rows `0, 8, 16, 24`, where it holds the four
    reals `cell`, totals to their sum. -/
theorem out_sum (G : FVec Ideal ⟨2, ![32, 128]⟩ .f32) (cell : Fin 4 → ℝ)
    (hcell : ∀ mb : Fin 4,
      G (ix2 ⟨8 * mb.val, by omega⟩ ⟨0, by omega⟩) = ((cell mb : ℝ) : EReal))
    (hrest : ∀ (r : Fin 32) (q : Fin 128), ¬ (r.val % 8 = 0 ∧ q.val = 0) → G (ix2 r q) = 0)
    (hr : (⟨2, ![32, 128]⟩ : Shape).ReducesTo [0, 1] ⟨0, ![]⟩)
    (h : 0 < (⟨0, ![]⟩ : Shape).numel) :
    Host.reduceAdd G z0 hr h = fun _ => ((∑ mb : Fin 4, cell mb : ℝ) : EReal) := by
  rw [sumall_32x128]
  funext _
  -- in every row only column 0 can be nonzero
  have hcol : ∀ r : Fin 32, ∑ q : Fin 128, G (ix2 r q) = G (ix2 r ⟨0, by omega⟩) := by
    intro r
    refine Finset.sum_eq_single_of_mem (⟨0, by omega⟩ : Fin 128) (Finset.mem_univ _)
      fun q _ hq => ?_
    exact hrest r q fun hh => hq (Fin.ext hh.2)
  -- in every block of eight rows only the first can be nonzero
  have hrow : ∀ mb : Fin 4,
      ∑ ri : Fin 8, G (ix2 (⟨8 * mb.val + ri.val, by omega⟩ : Fin 32) ⟨0, by omega⟩)
        = ((cell mb : ℝ) : EReal) := by
    intro mb
    rw [Finset.sum_eq_single_of_mem (0 : Fin 8) (Finset.mem_univ _)]
    · exact hcell mb
    · intro ri _ hri
      refine hrest _ _ fun hh => hri (Fin.ext ?_)
      have h1 : (8 * mb.val + ri.val) % 8 = 0 := hh.1
      show ri.val = 0
      omega
  rw [Finset.sum_congr rfl fun r _ => hcol r, sum_fin32, Finset.sum_congr rfl fun mb _ => hrow mb,
    Cert.Hand.Spec.coe_sum]

end Cert.Hand.Tail
-- ==== Proof.KI.Value.lean ====
/-
  THE IDEALIZED KERNEL'S RESULT IS THE SPECIFICATION.

  At the extended reals the last boundary's contents at the result buffer are the final normalisation of
  two real numbers of the launch arrays: the pairwise softplus loss of the gathered anchor rows against the
  feature rows under the gathered positive mask, and the pair count of that mask.  The loss total is the
  grand total of the output array, which holds one row block's accumulated tile sums in the corner cell of
  each of its four row blocks and zero everywhere else; the pair count is the total over the rows of the
  product of the mask's and its complement's row sums; the result divides the first by the second where
  the second is positive, and is the first otherwise.
-/
import proofs.«423171_j44796508897295_3_alg».proof.Proof.KI.Fold
import proofs.«423171_j44796508897295_3_alg».proof.Proof.KI.Args
import proofs.«423171_j44796508897295_3_alg».proof.Proof.KI.Vals
import proofs.«423171_j44796508897295_3_alg».proof.Proof.KI.OutArray
import proofs.«423171_j44796508897295_3_alg».proof.Proof.KI.LossValue
import proofs.«423171_j44796508897295_3_alg».proof.Proof.LossSpec
import proofs.«423171_j44796508897295_3_alg».proof.Proof.Consts
import proofs.«423171_j44796508897295_3_alg».proof.Proof.TailLemmas
import proofs.«423171_j44796508897295_3_alg».proof.Proof.TailLemmas2
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Idealize.ShloMosaic.ValueIdx
open Cert.KernelIdeal Cert.KernelIdeal.Gen
open scoped BigOperators

/-! ## The pieces on abstract data -/

/-- The cleared value of the staging buffer is zero. -/
theorem pay2_zero (y : S8x128.Idx) : k0_pay2 (F := Ideal) y = 0 :=
  show Ideal.ofBits .f32 0x00000000#32 = 0 from Ideal.ofBits_zero_f32

/-- A gathered array's entries are entries of its operand: they are real where the operand's are. -/
theorem gather_real {s si t : Shape} {w : ℕ} (d : GatherDims s si t) (x : s.Idx → EReal) (idx : IVec si w)
    (hx : ∀ i, ∃ r : ℝ, x i = ((r : ℝ) : EReal)) (j : t.Idx) :
    ∃ r : ℝ, Host.gather d x idx j = ((r : ℝ) : EReal) :=
  hx _

/-- THE TAIL ON ABSTRACT DATA: an output array holding four reals in the corner cells of its row blocks and
    zero elsewhere, and a positive mask of reals with its complement spelled "one minus": the total of the
    first over the pair count of the second where that is positive, else the total itself. -/
theorem value_core (G : FVec Ideal S32x128 .f32) (P : FVec Ideal S256x512 .f32)
    (cell : Fin 4 → ℝ) (L : ℝ)
    (hcell : ∀ mb : Fin 4,
      G (ix2 ⟨8 * mb.val, by omega⟩ ⟨0, by omega⟩) = ((cell mb : ℝ) : EReal))
    (hrest : ∀ (r : Fin 32) (q : Fin 128), ¬ (r.val % 8 = 0 ∧ q.val = 0) → G (ix2 r q) = 0)
    (hsum : ∑ mb : Fin 4, cell mb = L)
    (hP : ∀ i, ∃ r : ℝ, P i = ((r : ℝ) : EReal))
    (hb : S_.BroadcastsInDim S256x512 ![])
    (hrG : S32x128.ReducesTo [0, 1] S_)
    (hr1 : S256x512.ReducesTo [1] S256)
    (hr2 : S256.ReducesTo [0] S_)
    (h : 0 < S_.numel) :
    (select
        (cmpf .ogt
          (Host.reduceAdd
            (mulf (Host.reduceAdd P (constant (F := Ideal) S_ .f32 0x00000000#32) hr1 h)
              (Host.reduceAdd
                (subf (broadcastInDim S256x512 ![] hb (constant (F := Ideal) S_ .f32 0x3F800000#32)) P)
                (constant (F := Ideal) S_ .f32 0x00000000#32) hr1 h))
            (constant (F := Ideal) S_ .f32 0x00000000#32) hr2 h)
          (constant (F := Ideal) S_ .f32 0x00000000#32))
        (Host.divf
          (Host.reduceAdd G (constant (F := Ideal) S_ .f32 0x00000000#32) hrG h)
          (Host.reduceAdd
            (mulf (Host.reduceAdd P (constant (F := Ideal) S_ .f32 0x00000000#32) hr1 h)
              (Host.reduceAdd
                (subf (broadcastInDim S256x512 ![] hb (constant (F := Ideal) S_ .f32 0x3F800000#32)) P)
                (constant (F := Ideal) S_ .f32 0x00000000#32) hr1 h))
            (constant (F := Ideal) S_ .f32 0x00000000#32) hr2 h))
        (Host.reduceAdd G (constant (F := Ideal) S_ .f32 0x00000000#32) hrG h)
        : FVec Ideal S_ .f32)
      = fun _ => Cert.Hand.Spec.finalE L (Cert.Hand.Spec.pairR (Cert.Hand.Spec.matR P)) := by
  rw [Cert.Hand.Tail.out_sum G cell hcell hrest hrG h, Cert.Hand.Tail.pair_value_sub P hP hb hr1 hr2 h,
    hsum]
  exact Cert.Hand.Tail.final_choice L _

/-! ## The kernel's result -/

/-- At the extended reals, for launch arrays of real numbers and indices in range, the result buffer at the
    end holds the final normalisation of the loss of the gathered rows and the pair count of the gathered
    mask. -/
theorem kernel_value (m : (ℓ : Loc nD τ sig) → Buf (Elt Ideal) ℓ) (c : Dev nD)
    (h0 : ∀ i, ∃ r : ℝ,
      (m ((c : Thread nD τ).loc main_arg0) : S512x256.Idx → EReal) i = ((r : ℝ) : EReal))
    (h1 : ∀ i, ∃ r : ℝ,
      (m ((c : Thread nD τ).loc main_arg1) : S512x256.Idx → EReal) i = ((r : ℝ) : EReal))
    (h2 : ∀ i, ∃ r : ℝ,
      (m ((c : Thread nD τ).loc main_arg2) : S512x512.Idx → EReal) i = ((r : ℝ) : EReal))
    (hidx : ∀ i, 0 ≤ ((m ((c : Thread nD τ).loc main_arg3) : IVec S256 32) i).toInt
      ∧ ((m ((c : Thread nD τ).loc main_arg3) : IVec S256 32) i).toInt < 512) :
    (W6 m c (Proc.devRef .tc main_v12) : FVec Ideal S_ .f32)
      = fun _ => Cert.Hand.Spec.finalE
          (Cert.Hand.Spec.lossR
            (Cert.Hand.Spec.matR (Host.gather gather_S512x256_S256x1_S256x256_1_0_n_n_0_1_1256
              (m ((c : Thread nD τ).loc main_arg0) : S512x256.Idx → EReal)
              (idxCol (m ((c : Thread nD τ).loc main_arg3) : IVec S256 32))))
            (Cert.Hand.Spec.matR (m ((c : Thread nD τ).loc main_arg1) : S512x256.Idx → EReal))
            (Cert.Hand.Spec.matR (Host.gather gather_S512x512_S256x1_S256x512_1_0_n_n_0_1_1512
              (m ((c : Thread nD τ).loc main_arg2) : S512x512.Idx → EReal)
              (idxCol (m ((c : Thread nD τ).loc main_arg3) : IVec S256 32)))))
          (Cert.Hand.Spec.pairR
            (Cert.Hand.Spec.matR (Host.gather gather_S512x512_S256x1_S256x512_1_0_n_n_0_1_1512
              (m ((c : Thread nD τ).loc main_arg2) : S512x512.Idx → EReal)
              (idxCol (m ((c : Thread nD τ).loc main_arg3) : IVec S256 32))))) := by
  -- the region's entry values, as terms of the launch arrays
  have eA : (V3 m c main_v0 : S256x256.Idx → EReal)
      = Host.gather gather_S512x256_S256x1_S256x256_1_0_n_n_0_1_1256
          (m ((c : Thread nD τ).loc main_arg0) : S512x256.Idx → EReal)
          (idxCol (m ((c : Thread nD τ).loc main_arg3) : IVec S256 32)) := W3_v0 m c hidx
  have eB : (V3 m c main_arg1 : S512x256.Idx → EReal)
      = (m ((c : Thread nD τ).loc main_arg1) : S512x256.Idx → EReal) := W3_arg1 m c
  have eP : (V3 m c main_v1 : S256x512.Idx → EReal)
      = Host.gather gather_S512x512_S256x1_S256x512_1_0_n_n_0_1_1512
          (m ((c : Thread nD τ).loc main_arg2) : S512x512.Idx → EReal)
          (idxCol (m ((c : Thread nD τ).loc main_arg3) : IVec S256 32)) := W3_v1 m c hidx
  have eN : (V3 m c main_v3 : S256x512.Idx → EReal)
      = subf (broadcastInDim S256x512 ![] bcast_S_S256x512 (constant (F := Ideal) S_ .f32 0x3F800000#32))
          (Host.gather gather_S512x512_S256x1_S256x512_1_0_n_n_0_1_1512
            (m ((c : Thread nD τ).loc main_arg2) : S512x512.Idx → EReal)
            (idxCol (m ((c : Thread nD τ).loc main_arg3) : IVec S256 32))) := W3_v3 m c hidx
  -- they are real, and the fourth is the complement of the third
  have hA : ∀ i, ∃ r : ℝ, (V3 m c main_v0 : S256x256.Idx → EReal) i = ((r : ℝ) : EReal) := by
    rw [eA]; exact fun i => gather_real _ _ _ h0 i
  have hB : ∀ i, ∃ r : ℝ, (V3 m c main_arg1 : S512x256.Idx → EReal) i = ((r : ℝ) : EReal) := by
    rw [eB]; exact h1
  have hP : ∀ i, ∃ r : ℝ, (V3 m c main_v1 : S256x512.Idx → EReal) i = ((r : ℝ) : EReal) := by
    rw [eP]; exact fun i => gather_real _ _ _ h2 i
  have hN : ∀ i, (V3 m c main_v3 : S256x512.Idx → EReal) i
      = (1 : EReal) - (V3 m c main_v1 : S256x512.Idx → EReal) i := by
    rw [eN, eP]; exact fun i => Cert.Hand.Tail.one_sub_apply _ bcast_S_S256x512 i
  -- the four row blocks' accumulated sums, and their total
  obtain ⟨cell, hcell, hsum⟩ := cells_value (V3 m) c hA hB hP hN
  rw [eA, eB, eP] at hsum
  -- the output array after the region
  have eG : (W4 m c (Proc.devRef .tc main_v4) : FVec Ideal S32x128 .f32) = Gout (V3 m) c :=
    (W4_out m c).trans (arrAt5 (V3 m) c)
  rw [W6_v12 m c, eG, show W3 m c (Proc.devRef .tc main_v1) = _ from W3_v1 m c hidx,
    show W3 m c (Proc.devRef .tc main_v3) = _ from W3_v3 m c hidx]
  exact value_core (Gout (V3 m) c) _ cell _
    (fun mb => (Gout_cell (V3 m) c mb).trans (hcell mb))
    (fun r q hrq => (Gout_rest (V3 m) c (ix2 r q) hrq).trans (pay2_zero _))
    hsum (fun i => gather_real _ _ _ h2 i)
    bcast_S_S256x512 reducesTo_S32x128_S_d0_1 reducesTo_S256x512_S256_d1 reducesTo_S256_S_d0 h_S_

end Cert.KernelIdeal.Hand

end
-- ==== Proof.RefTerm.lean ====
import proofs.«423171_j44796508897295_3_alg».proof.ReferenceIdeal
import proofs.«423171_j44796508897295_3_alg».proof.Proof.Gen.ReferenceIdeal

/-!
# The reference's result as a function of its arguments

The reference computes, from two feature matrices `o, i : 512×256`, a mask `M : 512×512` and a vector of 256
row numbers `s`, the scalar

  `L = (Σ_{b,p,n} softplus(-(x b p - x b n)) · P b p · N b n) / D`   when `0 < D`, and the bare sum otherwise,

where `x = (o[s] · iᵀ) / 0.07` (a `256×512` matrix), `P = M[s]`, `N = (1 - M)[s]` and
`D = Σ_b (Σ_p P b p) · (Σ_n N b n)`; `-log_sigmoid(d) = softplus(-d)` is spelt by the program as two negations
around `softplus`, itself `max(z, 0) + log1p(exp(-|z|))` guarded by `z ≠ z`.

`refTerm` is that scalar written as the program writes it, in stages: each stage a short chain of `let`s, one per
tensor value, in the program's order.
-/

noncomputable section

namespace Cert.ReferenceIdeal.Hand

open Cert.ReferenceIdeal Cert.ReferenceIdeal.Gen Idealize.ShloMosaic

variable {F : FTy → Type} [FloatOps F]

/-- The row numbers made non-negative — an entry below zero is raised by 512 — and set as a column: the index
    table of the three row gathers (`%5`, `%16` and `%25` are this same term). -/
def idxCol (a3 : IVec S256 32) : IVec S256x1 32 :=
  let c : IVec S_ 32 := constantI S_ 32 0#32
  let v0 : IVec S256 32 := broadcastInDim S256 ![] bcast_S_S256 c
  let v1 : IVec S256 1 := cmpi .slt a3 v0
  let c_0 : IVec S_ 32 := constantI S_ 32 512#32
  let v2 : IVec S256 32 := broadcastInDim S256 ![] bcast_S_S256 c_0
  let v3 : IVec S256 32 := addi a3 v2
  let v4 : IVec S256 32 := select v1 v3 a3
  broadcastInDim S256x1 ![0] bcast_S256_S256x1_0 v4

/-- The similarities `%10 = (g · iᵀ) / 0.07` of the gathered rows `g = %6` with every row of `i`. -/
def refSim (v6 : FVec F S256x256 .f32) (a1 : FVec F S512x256 .f32) : FVec F S256x512 .f32 :=
  let v7 : FVec F S256x512 .f32 := transpose S256x512 [1, 0] a1 transposes_S512x256_S256x512_1_0
  let v8 : FVec F S256x512 .f32 := Host.dotGeneral dot_S256x256_S256x512_S256x512_1_0_0_1_n_n none v6 v7
  let cst : FVec F S_ .f32 := constant S_ .f32 0x3D8F5C29#32
  let v9 : FVec F S256x512 .f32 := broadcastInDim S256x512 ![] bcast_S_S256x512 cst
  Host.divf v8 v9

/-- The complement `%19 = 1 - M` of the mask. -/
def refNegMask (a2 : FVec F S512x512 .f32) : FVec F S512x512 .f32 :=
  let cst_3 : FVec F S_ .f32 := constant S_ .f32 0x3F800000#32
  let v18 : FVec F S512x512 .f32 := broadcastInDim S512x512 ![] bcast_S_S512x512 cst_3
  subf v18 a2

/-- The pairwise differences `%31 b p n = x b p - x b n` of a `256×512` matrix `x = %10`. -/
def refDiff (v10 : FVec F S256x512 .f32) : FVec F S256x512x512 .f32 :=
  let v27 : FVec F S256x512x1 .f32 := broadcastInDim S256x512x1 ![0, 1] bcast_S256x512_S256x512x1_0_1 v10
  let v28 : FVec F S256x1x512 .f32 := broadcastInDim S256x1x512 ![0, 2] bcast_S256x512_S256x1x512_0_2 v10
  let v29 : FVec F S256x512x512 .f32 := broadcastInDim S256x512x512 ![0, 1, 2] bcast_S256x512x1_S256x512x512_0_1_2 v27
  let v30 : FVec F S256x512x512 .f32 := broadcastInDim S256x512x512 ![0, 1, 2] bcast_S256x1x512_S256x512x512_0_1_2 v28
  subf v29 v30

/-- The pair weights `%36 b p n = P b p · N b n` of two `256×512` matrices `P = %17`, `N = %26`. -/
def refW (v17 v26 : FVec F S256x512 .f32) : FVec F S256x512x512 .f32 :=
  let v32 : FVec F S256x512x1 .f32 := broadcastInDim S256x512x1 ![0, 1] bcast_S256x512_S256x512x1_0_1 v17
  let v33 : FVec F S256x1x512 .f32 := broadcastInDim S256x1x512 ![0, 2] bcast_S256x512_S256x1x512_0_2 v26
  let v34 : FVec F S256x512x512 .f32 := broadcastInDim S256x512x512 ![0, 1, 2] bcast_S256x512x1_S256x512x512_0_1_2 v32
  let v35 : FVec F S256x512x512 .f32 := broadcastInDim S256x512x512 ![0, 1, 2] bcast_S256x1x512_S256x512x512_0_1_2 v33
  mulf v34 v35

/-- `softplus z = max(z, 0) + log1p(exp(-|z - 0|))`, and `z + 0` where `z - 0 ≠ z - 0`: the fourteen operations of
    the callee's body, in its order. -/
def refSoftplus (z : FVec F S256x512x512 .f32) : FVec F S256x512x512 .f32 :=
  let sp_cst : FVec F S_ .f32 := constant S_ .f32 0x00000000#32
  let sp_v0 : FVec F S256x512x512 .f32 := broadcastInDim S256x512x512 ![] bcast_S_S256x512x512 sp_cst
  let sp_v1 : FVec F S256x512x512 .f32 := maximumf z sp_v0
  let sp_v2 : FVec F S256x512x512 .f32 := broadcastInDim S256x512x512 ![] bcast_S_S256x512x512 sp_cst
  let sp_v3 : FVec F S256x512x512 .f32 := subf z sp_v2
  let sp_v4 : IVec S256x512x512 1 := cmpf .une sp_v3 sp_v3
  let sp_v5 : FVec F S256x512x512 .f32 := broadcastInDim S256x512x512 ![] bcast_S_S256x512x512 sp_cst
  let sp_v6 : FVec F S256x512x512 .f32 := addf z sp_v5
  let sp_v7 : FVec F S256x512x512 .f32 := Host.absf sp_v3
  let sp_v8 : FVec F S256x512x512 .f32 := Host.negf sp_v7
  let sp_v9 : FVec F S256x512x512 .f32 := Host.exp sp_v8
  let sp_v10 : FVec F S256x512x512 .f32 := Host.log1p sp_v9
  let sp_v11 : FVec F S256x512x512 .f32 := addf sp_v1 sp_v10
  select sp_v4 sp_v6 sp_v11

/-- `%38 = -log_sigmoid d`, as the program spells it: `log_sigmoid d = -softplus(-d)` (the callee's three steps),
    negated once more by the caller. -/
def refNls (d : FVec F S256x512x512 .f32) : FVec F S256x512x512 .f32 :=
  let ls_v0 : FVec F S256x512x512 .f32 := Host.negf d
  let v37 : FVec F S256x512x512 .f32 := Host.negf (refSoftplus ls_v0)
  Host.negf v37

/-- From the weighted terms `%39` and the two weight matrices: the sum `%40` of all terms, the count
    `%44 = Σ_b (Σ_p P b p) · (Σ_n N b n)`, and the result — the quotient where the count is positive, the bare sum
    otherwise. -/
def refTail (v39 : FVec F S256x512x512 .f32) (v17 v26 : FVec F S256x512 .f32) : FVec F S_ .f32 :=
  let cst_6 : FVec F S_ .f32 := constant S_ .f32 0x00000000#32
  let v40 : FVec F S_ .f32 := Host.reduceAdd v39 cst_6 reducesTo_S256x512x512_S_d0_1_2 h_S_
  let cst_7 : FVec F S_ .f32 := constant S_ .f32 0x00000000#32
  let v41 : FVec F S256 .f32 := Host.reduceAdd v17 cst_7 reducesTo_S256x512_S256_d1 h_S_
  let cst_8 : FVec F S_ .f32 := constant S_ .f32 0x00000000#32
  let v42 : FVec F S256 .f32 := Host.reduceAdd v26 cst_8 reducesTo_S256x512_S256_d1 h_S_
  let v43 : FVec F S256 .f32 := mulf v41 v42
  let cst_9 : FVec F S_ .f32 := constant S_ .f32 0x00000000#32
  let v44 : FVec F S_ .f32 := Host.reduceAdd v43 cst_9 reducesTo_S256_S_d0 h_S_
  let cst_10 : FVec F S_ .f32 := constant S_ .f32 0x00000000#32
  let v45 : IVec S_ 1 := cmpf .ogt v44 cst_10
  let v46 : FVec F S_ .f32 := Host.divf v40 v44
  select v45 v46 v40

/-- The result `%47` as a function of the four arguments' contents: the operations' functions composed in the
    program's order. `p = %17 = M[s]` and `n = %26 = (1 - M)[s]` are the weight matrices, `x = %10` the similarities
    of the gathered rows of `o` with the rows of `i`; the terms are `-log_sigmoid(x b p - x b n) · p b p · n b n`. -/
def refTerm (a0 a1 : FVec F S512x256 .f32) (a2 : FVec F S512x512 .f32) (a3 : IVec S256 32) : FVec F S_ .f32 :=
  let p : FVec F S256x512 .f32 := Host.gather gather_S512x512_S256x1_S256x512_1_0_n_n_0_1_1512 a2 (idxCol a3)
  let n : FVec F S256x512 .f32 := Host.gather gather_S512x512_S256x1_S256x512_1_0_n_n_0_1_1512 (refNegMask a2) (idxCol a3)
  let x : FVec F S256x512 .f32 := refSim (Host.gather gather_S512x256_S256x1_S256x256_1_0_n_n_0_1_1256 a0 (idxCol a3)) a1
  refTail (mulf (refNls (refDiff x)) (refW p n)) p n

end Cert.ReferenceIdeal.Hand

end
-- ==== Proof.RefRun.lean ====
import proofs.«423171_j44796508897295_3_alg».proof.ReferenceIdeal
import proofs.«423171_j44796508897295_3_alg».proof.Proof.Gen.ReferenceIdeal
import proofs.«423171_j44796508897295_3_alg».proof.Proof.RefTerm
import Idealize.ShloMosaic.Lib.StableHlo.Run

/-!
# The run of the reference program

The reference computes, from two feature matrices `o, i : 512×256`, a mask `M : 512×512` and a vector of 256
row numbers `s`, the scalar

  `L = (Σ_{b,p,n} softplus(-(x b p - x b n)) · P b p · N b n) / D`   when `0 < D`, and the bare sum otherwise,

where `x = (o[s] · iᵀ) / 0.07` (a `256×512` matrix), `P = M[s]`, `N = (1 - M)[s]` and
`D = Σ_b (Σ_p P b p) · (Σ_n N b n)`; `-log_sigmoid(d) = softplus(-d)` is spelt by the program as two negations
around `softplus`, itself `max(z, 0) + log1p(exp(-|z|))` guarded by `z ≠ z`.

The program is a straight line of tensor operations, two of which are calls of outlined functions
(`log_sigmoid`, which calls `softplus`; and `_where`). A call executes the callee's body on the operands, so the
whole program is one list of operations: the callee's operations stand at the call site, over the buffers that call
names. This file states that list (`ops`), proves `main` equal to it, and proves — for the composed value `refTerm` of
the result as a function of the four arguments, defined with its stages in the module imported first — that every
run ends with the result buffer at that value and the arguments unchanged (`run`).
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 76 operations in execution order. Operations 1–45 build the pairwise differences
    `x b p - x b n` (`%31`) and the weights `P b p · N b n` (`%36`); operations 46–61 are the call
    `log_sigmoid(%31)` unfolded — a negation, the fourteen operations of `softplus` on the negated operand, a
    negation —, each over the buffer that call names for the value; operations 62–75 negate once more, weight, and
    form the three sums, the comparison `0 < D` and the quotient; operation 76 is `_where`'s one selection. -/
abbrev ops : List (HloOp τ sig (Elt F)) :=
  [ nullary main_c (constantI S_ 32 0#32),
    unary main_c main_v0 (broadcastInDim S256 ![] bcast_S_S256 : (⟨S_, .i32⟩ : BufTy).Contents (Elt F) → (⟨S256, .i32⟩ : BufTy).Contents (Elt F)),
    binary main_arg3 main_v0 main_v1 (cmpi .slt : (⟨S256, .i32⟩ : BufTy).Contents (Elt F) → (⟨S256, .i32⟩ : BufTy).Contents (Elt F) → (⟨S256, .i1⟩ : BufTy).Contents (Elt F)),
    nullary main_c_0 (constantI S_ 32 512#32),
    unary main_c_0 main_v2 (broadcastInDim S256 ![] bcast_S_S256 : (⟨S_, .i32⟩ : BufTy).Contents (Elt F) → (⟨S256, .i32⟩ : BufTy).Contents (Elt F)),
    binary main_arg3 main_v2 main_v3 (addi : (⟨S256, .i32⟩ : BufTy).Contents (Elt F) → (⟨S256, .i32⟩ : BufTy).Contents (Elt F) → (⟨S256, .i32⟩ : BufTy).Contents (Elt F)),
    ternary main_v1 main_v3 main_arg3 main_v4 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v4 main_v5 (broadcastInDim S256x1 ![0] bcast_S256_S256x1_0 : (⟨S256, .i32⟩ : BufTy).Contents (Elt F) → (⟨S256x1, .i32⟩ : BufTy).Contents (Elt F)),
    binary main_arg0 main_v5 main_v6 ((fun x i => Host.gather gather_S512x256_S256x1_S256x256_1_0_n_n_0_1_1256 x i) : (⟨S512x256, .f32⟩ : BufTy).Contents (Elt F) → (⟨S256x1, .i32⟩ : BufTy).Contents (Elt F) → (⟨S256x256, .f32⟩ : BufTy).Contents (Elt F)),
    unary main_arg1 main_v7 ((transpose S256x512 [1, 0] · transposes_S512x256_S256x512_1_0) : (⟨S512x256, .f32⟩ : BufTy).Contents (Elt F) → (⟨S256x512, .f32⟩ : BufTy).Contents (Elt F)),
    binary main_v6 main_v7 main_v8 ((fun l r => Host.dotGeneral dot_S256x256_S256x512_S256x512_1_0_0_1_n_n none l r) : (⟨S256x256, .f32⟩ : BufTy).Contents (Elt F) → (⟨S256x512, .f32⟩ : BufTy).Contents (Elt F) → (⟨S256x512, .f32⟩ : BufTy).Contents (Elt F)),
    nullary main_cst (constant S_ .f32 0x3D8F5C29#32),
    unary main_cst main_v9 (broadcastInDim S256x512 ![] bcast_S_S256x512 : (⟨S_, .f32⟩ : BufTy).Contents (Elt F) → (⟨S256x512, .f32⟩ : BufTy).Contents (Elt F)),
    binary main_v8 main_v9 main_v10 (Host.divf : (⟨S256x512, .f32⟩ : BufTy).Contents (Elt F) → (⟨S256x512, .f32⟩ : BufTy).Contents (Elt F) → (⟨S256x512, .f32⟩ : BufTy).Contents (Elt F)),
    nullary main_c_1 (constantI S_ 32 0#32),
    unary main_c_1 main_v11 (broadcastInDim S256 ![] bcast_S_S256 : (⟨S_, .i32⟩ : BufTy).Contents (Elt F) → (⟨S256, .i32⟩ : BufTy).Contents (Elt F)),
    binary main_arg3 main_v11 main_v12 (cmpi .slt : (⟨S256, .i32⟩ : BufTy).Contents (Elt F) → (⟨S256, .i32⟩ : BufTy).Contents (Elt F) → (⟨S256, .i1⟩ : BufTy).Contents (Elt F)),
    nullary main_c_2 (constantI S_ 32 512#32),
    unary main_c_2 main_v13 (broadcastInDim S256 ![] bcast_S_S256 : (⟨S_, .i32⟩ : BufTy).Contents (Elt F) → (⟨S256, .i32⟩ : BufTy).Contents (Elt F)),
    binary main_arg3 main_v13 main_v14 (addi : (⟨S256, .i32⟩ : BufTy).Contents (Elt F) → (⟨S256, .i32⟩ : BufTy).Contents (Elt F) → (⟨S256, .i32⟩ : BufTy).Contents (Elt F)),
    ternary main_v12 main_v14 main_arg3 main_v15 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v15 main_v16 (broadcastInDim S256x1 ![0] bcast_S256_S256x1_0 : (⟨S256, .i32⟩ : BufTy).Contents (Elt F) → (⟨S256x1, .i32⟩ : BufTy).Contents (Elt F)),
    binary main_arg2 main_v16 main_v17 ((fun x i => Host.gather gather_S512x512_S256x1_S256x512_1_0_n_n_0_1_1512 x i) : (⟨S512x512, .f32⟩ : BufTy).Contents (Elt F) → (⟨S256x1, .i32⟩ : BufTy).Contents (Elt F) → (⟨S256x512, .f32⟩ : BufTy).Contents (Elt F)),
    nullary main_cst_3 (constant S_ .f32 0x3F800000#32),
    unary main_cst_3 main_v18 (broadcastInDim S512x512 ![] bcast_S_S512x512 : (⟨S_, .f32⟩ : BufTy).Contents (Elt F) → (⟨S512x512, .f32⟩ : BufTy).Contents (Elt F)),
    binary main_v18 main_arg2 main_v19 (subf : (⟨S512x512, .f32⟩ : BufTy).Contents (Elt F) → (⟨S512x512, .f32⟩ : BufTy).Contents (Elt F) → (⟨S512x512, .f32⟩ : BufTy).Contents (Elt F)),
    nullary main_c_4 (constantI S_ 32 0#32),
    unary main_c_4 main_v20 (broadcastInDim S256 ![] bcast_S_S256 : (⟨S_, .i32⟩ : BufTy).Contents (Elt F) → (⟨S256, .i32⟩ : BufTy).Contents (Elt F)),
    binary main_arg3 main_v20 main_v21 (cmpi .slt : (⟨S256, .i32⟩ : BufTy).Contents (Elt F) → (⟨S256, .i32⟩ : BufTy).Contents (Elt F) → (⟨S256, .i1⟩ : BufTy).Contents (Elt F)),
    nullary main_c_5 (constantI S_ 32 512#32),
    unary main_c_5 main_v22 (broadcastInDim S256 ![] bcast_S_S256 : (⟨S_, .i32⟩ : BufTy).Contents (Elt F) → (⟨S256, .i32⟩ : BufTy).Contents (Elt F)),
    binary main_arg3 main_v22 main_v23 (addi : (⟨S256, .i32⟩ : BufTy).Contents (Elt F) → (⟨S256, .i32⟩ : BufTy).Contents (Elt F) → (⟨S256, .i32⟩ : BufTy).Contents (Elt F)),
    ternary main_v21 main_v23 main_arg3 main_v24 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v24 main_v25 (broadcastInDim S256x1 ![0] bcast_S256_S256x1_0 : (⟨S256, .i32⟩ : BufTy).Contents (Elt F) → (⟨S256x1, .i32⟩ : BufTy).Contents (Elt F)),
    binary main_v19 main_v25 main_v26 ((fun x i => Host.gather gather_S512x512_S256x1_S256x512_1_0_n_n_0_1_1512 x i) : (⟨S512x512, .f32⟩ : BufTy).Contents (Elt F) → (⟨S256x1, .i32⟩ : BufTy).Contents (Elt F) → (⟨S256x512, .f32⟩ : BufTy).Contents (Elt F)),
    unary main_v10 main_v27 (broadcastInDim S256x512x1 ![0, 1] bcast_S256x512_S256x512x1_0_1 : (⟨S256x512, .f32⟩ : BufTy).Contents (Elt F) → (⟨S256x512x1, .f32⟩ : BufTy).Contents (Elt F)),
    unary main_v10 main_v28 (broadcastInDim S256x1x512 ![0, 2] bcast_S256x512_S256x1x512_0_2 : (⟨S256x512, .f32⟩ : BufTy).Contents (Elt F) → (⟨S256x1x512, .f32⟩ : BufTy).Contents (Elt F)),
    unary main_v27 main_v29 (broadcastInDim S256x512x512 ![0, 1, 2] bcast_S256x512x1_S256x512x512_0_1_2 : (⟨S256x512x1, .f32⟩ : BufTy).Contents (Elt F) → (⟨S256x512x512, .f32⟩ : BufTy).Contents (Elt F)),
    unary main_v28 main_v30 (broadcastInDim S256x512x512 ![0, 1, 2] bcast_S256x1x512_S256x512x512_0_1_2 : (⟨S256x1x512, .f32⟩ : BufTy).Contents (Elt F) → (⟨S256x512x512, .f32⟩ : BufTy).Contents (Elt F)),
    binary main_v29 main_v30 main_v31 (subf : (⟨S256x512x512, .f32⟩ : BufTy).Contents (Elt F) → (⟨S256x512x512, .f32⟩ : BufTy).Contents (Elt F) → (⟨S256x512x512, .f32⟩ : BufTy).Contents (Elt F)),
    unary main_v17 main_v32 (broadcastInDim S256x512x1 ![0, 1] bcast_S256x512_S256x512x1_0_1 : (⟨S256x512, .f32⟩ : BufTy).Contents (Elt F) → (⟨S256x512x1, .f32⟩ : BufTy).Contents (Elt F)),
    unary main_v26 main_v33 (broadcastInDim S256x1x512 ![0, 2] bcast_S256x512_S256x1x512_0_2 : (⟨S256x512, .f32⟩ : BufTy).Contents (Elt F) → (⟨S256x1x512, .f32⟩ : BufTy).Contents (Elt F)),
    unary main_v32 main_v34 (broadcastInDim S256x512x512 ![0, 1, 2] bcast_S256x512x1_S256x512x512_0_1_2 : (⟨S256x512x1, .f32⟩ : BufTy).Contents (Elt F) → (⟨S256x512x512, .f32⟩ : BufTy).Contents (Elt F)),
    unary main_v33 main_v35 (broadcastInDim S256x512x512 ![0, 1, 2] bcast_S256x1x512_S256x512x512_0_1_2 : (⟨S256x1x512, .f32⟩ : BufTy).Contents (Elt F) → (⟨S256x512x512, .f32⟩ : BufTy).Contents (Elt F)),
    binary main_v34 main_v35 main_v36 (mulf : (⟨S256x512x512, .f32⟩ : BufTy).Contents (Elt F) → (⟨S256x512x512, .f32⟩ : BufTy).Contents (Elt F) → (⟨S256x512x512, .f32⟩ : BufTy).Contents (Elt F)),
    TRef.unary (TRef.of (T := ⟨S256x512x512, .f32⟩) main_v31) main_call0.v0 Host.negf,
    TRef.nullary main_call0.call0.cst (constant S_ .f32 0x00000000#32),
    TRef.unary main_call0.call0.cst main_call0.call0.v0 (broadcastInDim S256x512x512 ![] bcast_S_S256x512x512),
    TRef.binary main_call0.v0 main_call0.call0.v0 main_call0.call0.v1 maximumf,
    TRef.unary main_call0.call0.cst main_call0.call0.v2 (broadcastInDim S256x512x512 ![] bcast_S_S256x512x512),
    TRef.binary main_call0.v0 main_call0.call0.v2 main_call0.call0.v3 subf,
    TRef.binary main_call0.call0.v3 main_call0.call0.v3 main_call0.call0.v4 (cmpf .une),
    TRef.unary main_call0.call0.cst main_call0.call0.v5 (broadcastInDim S256x512x512 ![] bcast_S_S256x512x512),
    TRef.binary main_call0.v0 main_call0.call0.v5 main_call0.call0.v6 addf,
    TRef.unary main_call0.call0.v3 main_call0.call0.v7 Host.absf,
    TRef.unary main_call0.call0.v7 main_call0.call0.v8 Host.negf,
    TRef.unary main_call0.call0.v8 main_call0.call0.v9 Host.exp,
    TRef.unary main_call0.call0.v9 main_call0.call0.v10 Host.log1p,
    TRef.binary main_call0.call0.v1 main_call0.call0.v10 main_call0.call0.v11 addf,
    TRef.ternary main_call0.call0.v4 main_call0.call0.v6 main_call0.call0.v11 main_call0.call0.v12 select,
    TRef.unary main_call0.call0.v12 main_call0.v2 Host.negf,
    unary main_v37 main_v38 (Host.negf : (⟨S256x512x512, .f32⟩ : BufTy).Contents (Elt F) → (⟨S256x512x512, .f32⟩ : BufTy).Contents (Elt F)),
    binary main_v38 main_v36 main_v39 (mulf : (⟨S256x512x512, .f32⟩ : BufTy).Contents (Elt F) → (⟨S256x512x512, .f32⟩ : BufTy).Contents (Elt F) → (⟨S256x512x512, .f32⟩ : BufTy).Contents (Elt F)),
    nullary main_cst_6 (constant S_ .f32 0x00000000#32),
    binary main_v39 main_cst_6 main_v40 ((fun x v => Host.reduceAdd x v reducesTo_S256x512x512_S_d0_1_2 h_S_) : (⟨S256x512x512, .f32⟩ : BufTy).Contents (Elt F) → (⟨S_, .f32⟩ : BufTy).Contents (Elt F) → (⟨S_, .f32⟩ : BufTy).Contents (Elt F)),
    nullary main_cst_7 (constant S_ .f32 0x00000000#32),
    binary main_v17 main_cst_7 main_v41 ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)),
    nullary main_cst_8 (constant S_ .f32 0x00000000#32),
    binary main_v26 main_cst_8 main_v42 ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)),
    binary main_v41 main_v42 main_v43 (mulf : (⟨S256, .f32⟩ : BufTy).Contents (Elt F) → (⟨S256, .f32⟩ : BufTy).Contents (Elt F) → (⟨S256, .f32⟩ : BufTy).Contents (Elt F)),
    nullary main_cst_9 (constant S_ .f32 0x00000000#32),
    binary main_v43 main_cst_9 main_v44 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_10 (constant S_ .f32 0x00000000#32),
    binary main_v44 main_cst_10 main_v45 (cmpf .ogt : (⟨S_, .f32⟩ : BufTy).Contents (Elt F) → (⟨S_, .f32⟩ : BufTy).Contents (Elt F) → (⟨S_, .i1⟩ : BufTy).Contents (Elt F)),
    binary main_v40 main_v44 main_v46 (Host.divf : (⟨S_, .f32⟩ : BufTy).Contents (Elt F) → (⟨S_, .f32⟩ : BufTy).Contents (Elt F) → (⟨S_, .f32⟩ : BufTy).Contents (Elt F)),
    TRef.ternary (TRef.of (T := ⟨S_, .i1⟩) main_v45) (TRef.of (T := ⟨S_, .f32⟩) main_v46) (TRef.of (T := ⟨S_, .f32⟩) main_v40) main_call1.v0 select ]

-- seventy-six sequencing steps are re-associated: the rewriting descends once per step
set_option maxRecDepth 4096 in
set_option maxHeartbeats 4000000 in
/-- The program is that straight line. Unfolding the two windows and the three callee bodies at their calls leaves
    sequencing nested to the left at each call site (the callee's steps, then the caller's remaining steps);
    sequencing is associative and a callee's final `pure` is a left unit, so both sides are the same
    right-nested chain of steps. -/
theorem main_eq (c : Dev nD) : main (F := F) c = seq ops := by
  simp only [main, main_part0, main_part1, fn_log_sigmoid.body, fn_softplus.body, fn_where.body, seq, bind_assoc, pure_bind]

/-- No buffer of the signature is scoped: every one holds a tensor value for the whole run. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

set_option maxRecDepth 8192 in
/-- Every operation touches the core's own references only: each is built from literal references. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., unary_bufs_sub .., unary_bufs_sub .., binary_bufs_sub .., unary_bufs_sub .., unary_bufs_sub ..,
    unary_bufs_sub .., unary_bufs_sub .., binary_bufs_sub .., unary_bufs_sub .., nullary_bufs_sub .., unary_bufs_sub ..,
    binary_bufs_sub .., unary_bufs_sub .., binary_bufs_sub .., binary_bufs_sub .., unary_bufs_sub .., binary_bufs_sub ..,
    unary_bufs_sub .., unary_bufs_sub .., unary_bufs_sub .., unary_bufs_sub .., binary_bufs_sub .., ternary_bufs_sub ..,
    unary_bufs_sub .., unary_bufs_sub .., binary_bufs_sub .., nullary_bufs_sub .., binary_bufs_sub .., nullary_bufs_sub ..,
    binary_bufs_sub .., nullary_bufs_sub .., binary_bufs_sub .., binary_bufs_sub .., nullary_bufs_sub .., binary_bufs_sub ..,
    nullary_bufs_sub .., binary_bufs_sub .., binary_bufs_sub .., ternary_bufs_sub ..⟩

-- the fold nests once per operation, and each of the 76 operations is told apart from the buffer read by a decision
set_option maxRecDepth 8192 in
set_option maxHeartbeats 32000000 in
/-- The fold of the operations' results at the result buffer is `refTerm` of the arguments' contents: each
    operation's result at its own buffer is its function of its operands' contents, and at any other buffer what was
    there, so reading the fold at `%47` walks the program backwards from the last operation to the arguments. What
    is left differs from `refTerm` only by the transports of a callee's values between a buffer's type and the
    value's type, which are identities (the two types are equal by computation). -/
theorem result_eq (V : Valuation τ sig (Elt F)) :
    after ops V (Proc.devRef .tc main_v47)
      = refTerm (V (Proc.devRef .tc main_arg0)) (V (Proc.devRef .tc main_arg1)) (V (Proc.devRef .tc main_arg2)) (V (Proc.devRef .tc main_arg3)) := by
  after_results_simp <;> rfl

set_option maxRecDepth 8192 in
set_option maxHeartbeats 8000000 in
/-- No operation writes argument 0: its buffer is none of the 76 result buffers. -/
theorem arg0_eq (V : Valuation τ sig (Elt F)) : after ops V (Proc.devRef .tc main_arg0) = V (Proc.devRef .tc main_arg0) := by
  after_results_simp

set_option maxRecDepth 8192 in
set_option maxHeartbeats 8000000 in
/-- No operation writes argument 1: its buffer is none of the 76 result buffers. -/
theorem arg1_eq (V : Valuation τ sig (Elt F)) : after ops V (Proc.devRef .tc main_arg1) = V (Proc.devRef .tc main_arg1) := by
  after_results_simp

set_option maxRecDepth 8192 in
set_option maxHeartbeats 8000000 in
/-- No operation writes argument 2: its buffer is none of the 76 result buffers. -/
theorem arg2_eq (V : Valuation τ sig (Elt F)) : after ops V (Proc.devRef .tc main_arg2) = V (Proc.devRef .tc main_arg2) := by
  after_results_simp

set_option maxRecDepth 8192 in
set_option maxHeartbeats 8000000 in
/-- No operation writes argument 3: its buffer is none of the 76 result buffers. -/
theorem arg3_eq (V : Valuation τ sig (Elt F)) : after ops V (Proc.devRef .tc main_arg3) = V (Proc.devRef .tc main_arg3) := by
  after_results_simp

/-- On every device, for any float values, from any memory with zero counters: every weakly fair execution of the
    program terminates with the result buffer at `refTerm` of the arguments' launch contents, and the four
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v47) = refTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v47).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.Hand

end
-- ==== Proof.RefSim.lean ====
/-
  The reference's scaled similarities read at one index, at the ideal values: row m of the anchor
  features against row j of the item features, divided by the temperature, is the real number
  simR of the two matrices (division by a nonzero real being multiplication by its inverse).
-/
import proofs.«423171_j44796508897295_3_alg».proof.ReferenceIdeal
import proofs.«423171_j44796508897295_3_alg».proof.Proof.Gen.ReferenceIdeal
import proofs.«423171_j44796508897295_3_alg».proof.Proof.LossSpec
import proofs.«423171_j44796508897295_3_alg».proof.Proof.Consts
import Idealize.ShloMosaic.Lib.ValueLayout
import Idealize.ShloMosaic.PureOps.Ideal.Laws

set_option maxRecDepth 16384

noncomputable section

namespace Cert.ReferenceIdeal.Hand

open Idealize.ShloMosaic
open Idealize.ShloMosaic.ValueIdx
open Cert.ReferenceIdeal Cert.ReferenceIdeal.Gen
open scoped BigOperators

/-! ## The matrix product at an index -/

/-- The operand indices of the product at output index `j` and contraction index `k`, axis by axis. -/
theorem lhs_dot_0 (j : S256x512.Idx) (k : dot_S256x256_S256x512_S256x512_1_0_0_1_n_n.contr.Idx) :
    (dot_S256x256_S256x512_S256x512_1_0_0_1_n_n.lhsIdx j k 0).val = (j 0).val := rfl
theorem lhs_dot_1 (j : S256x512.Idx) (k : dot_S256x256_S256x512_S256x512_1_0_0_1_n_n.contr.Idx) :
    (dot_S256x256_S256x512_S256x512_1_0_0_1_n_n.lhsIdx j k 1).val = (k ⟨0, by decide⟩).val := rfl
theorem rhs_dot_0 (j : S256x512.Idx) (k : dot_S256x256_S256x512_S256x512_1_0_0_1_n_n.contr.Idx) :
    (dot_S256x256_S256x512_S256x512_1_0_0_1_n_n.rhsIdx j k 0).val = (k ⟨0, by decide⟩).val := rfl
theorem rhs_dot_1 (j : S256x512.Idx) (k : dot_S256x256_S256x512_S256x512_1_0_0_1_n_n.contr.Idx) :
    (dot_S256x256_S256x512_S256x512_1_0_0_1_n_n.rhsIdx j k 1).val = (j 1).val := rfl

/-- The product of a 256x256 by a 256x512 matrix at (m, j): the sum over the contracted coordinate. -/
theorem dotGeneral_apply_ix (a : FVec Ideal S256x256 .f32) (b : FVec Ideal S256x512 .f32) (m : Fin 256) (j : Fin 512) :
    Host.dotGeneral dot_S256x256_S256x512_S256x512_1_0_0_1_n_n none a b (ix2 m j) = ∑ d : Fin 256, a (ix2 m d) * b (ix2 d j) := by
  show FloatOps.dotGeneral _ none _ a b (ix2 m j) = _
  rw [Ideal.dotGeneral_apply, ← Equiv.sum_comp (contrEquiv1 dot_S256x256_S256x512_S256x512_1_0_0_1_n_n 256 rfl rfl).symm]
  refine Finset.sum_congr rfl fun d _ => ?_
  have c := contrEquiv1_symm_val dot_S256x256_S256x512_S256x512_1_0_0_1_n_n 256 rfl rfl d
  have l : dot_S256x256_S256x512_S256x512_1_0_0_1_n_n.lhsIdx (ix2 m j) ((contrEquiv1 dot_S256x256_S256x512_S256x512_1_0_0_1_n_n 256 rfl rfl).symm d) = ix2 m d := by
    funext ax; apply Fin.ext
    match ax with
    | ⟨0, _⟩ => exact lhs_dot_0 _ _
    | ⟨1, _⟩ => exact (lhs_dot_1 _ _).trans c
  have r : dot_S256x256_S256x512_S256x512_1_0_0_1_n_n.rhsIdx (ix2 m j) ((contrEquiv1 dot_S256x256_S256x512_S256x512_1_0_0_1_n_n 256 rfl rfl).symm d) = ix2 d j := by
    funext ax; apply Fin.ext
    match ax with
    | ⟨0, _⟩ => exact (rhs_dot_0 _ _).trans c
    | ⟨1, _⟩ => exact rhs_dot_1 _ _
  rw [l, r]

/-! ## The scaled similarity -/

/-- A finite extended real is the coercion of its real part. -/
theorem coe_toReal_of_exists {x : EReal} (h : ∃ r : ℝ, x = ((r : ℝ) : EReal)) : x = ((x.toReal : ℝ) : EReal) := by
  obtain ⟨r, rfl⟩ := h
  rw [EReal.toReal_coe]

/-- The same for any proofs of the two shape facts. -/
theorem ref_sim_of (ht : S512x256.Transposes [1, 0] S256x512)
    (hb : S_.BroadcastsInDim S256x512 (![] : Fin 0 → Fin S256x512.rank))
    (v6 : FVec Ideal S256x256 .f32) (a1 : FVec Ideal S512x256 .f32)
    (hA : ∀ i, ∃ r : ℝ, v6 i = ((r : ℝ) : EReal)) (hB : ∀ i, ∃ r : ℝ, a1 i = ((r : ℝ) : EReal)) (m : Fin 256) (j : Fin 512) :
    (Host.divf (Host.dotGeneral dot_S256x256_S256x512_S256x512_1_0_0_1_n_n none v6 (transpose S256x512 [1, 0] a1 ht))
        (broadcastInDim S256x512 ![] hb (constant (F := Ideal) S_ .f32 0x3D8F5C29#32))) (ix2 m j)
      = ((Cert.Hand.Spec.simR (Cert.Hand.Spec.matR (a := 256) (b := 256) v6) (Cert.Hand.Spec.matR (a := 512) (b := 256) a1) m j : ℝ) : EReal) := by
  show FloatOps.hostDivf (Host.dotGeneral dot_S256x256_S256x512_S256x512_1_0_0_1_n_n none v6 (transpose S256x512 [1, 0] a1 ht) (ix2 m j))
      (Ideal.ofBits .f32 0x3D8F5C29#32) = _
  rw [Ideal.hostDivf_def, dotGeneral_apply_ix, Cert.Hand.Consts.ofBits_temp,
    Ideal.div_coe Cert.Hand.Consts.temp_ne_zero, Cert.Hand.Consts.inv_temp]
  unfold Cert.Hand.Spec.simR
  rw [EReal.coe_mul, Cert.Hand.Spec.coe_sum]
  refine congrArg₂ (· * ·) (Finset.sum_congr rfl fun d _ => ?_) rfl
  rw [transpose_ix2_apply, EReal.coe_mul]
  exact congrArg₂ (· * ·) (coe_toReal_of_exists (hA _)) (coe_toReal_of_exists (hB _))

/-- THE SIMILARITY STAGE: over finite features, the quotient of the product by the temperature at (m, j) is the real
    scaled similarity of row m against row j. -/
theorem ref_sim (v6 : FVec Ideal S256x256 .f32) (a1 : FVec Ideal S512x256 .f32)
    (hA : ∀ i, ∃ r : ℝ, v6 i = ((r : ℝ) : EReal)) (hB : ∀ i, ∃ r : ℝ, a1 i = ((r : ℝ) : EReal)) (m : Fin 256) (j : Fin 512) :
    (Host.divf (Host.dotGeneral dot_S256x256_S256x512_S256x512_1_0_0_1_n_n none v6 (transpose S256x512 [1, 0] a1 transposes_S512x256_S256x512_1_0))
        (broadcastInDim S256x512 ![] bcast_S_S256x512 (constant (F := Ideal) S_ .f32 0x3D8F5C29#32))) (ix2 m j)
      = ((Cert.Hand.Spec.simR (Cert.Hand.Spec.matR (a := 256) (b := 256) v6) (Cert.Hand.Spec.matR (a := 512) (b := 256) a1) m j : ℝ) : EReal) :=
  ref_sim_of _ _ v6 a1 hA hB m j

end Cert.ReferenceIdeal.Hand

end
-- ==== Proof.RefValue.lean ====
/-
  The reference's value on the extended reals: the result term of the reference, read stage by
  stage at an index, is the final normalisation of the real pairwise softplus loss.
-/
import proofs.«423171_j44796508897295_3_alg».proof.ReferenceIdeal
import proofs.«423171_j44796508897295_3_alg».proof.Proof.Gen.ReferenceIdeal
import proofs.«423171_j44796508897295_3_alg».proof.Proof.LossSpec
import proofs.«423171_j44796508897295_3_alg».proof.Proof.Consts
import proofs.«423171_j44796508897295_3_alg».proof.Proof.TailLemmas
import proofs.«423171_j44796508897295_3_alg».proof.Proof.TailLemmas2
import proofs.«423171_j44796508897295_3_alg».proof.Proof.RefSim
import proofs.«423171_j44796508897295_3_alg».proof.Proof.RefTerm
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

/-!
# The reference's value on the extended reals

With every entry of the three float arguments a real number, the reference's result is the
real specification: the pairwise softplus loss of the gathered rows, divided by the pair count
where that is positive.  Each stage of the term (similarities, complementary mask, pairwise
differences and weights, the guarded softplus with its two outer negations, the sums and the
final choice) is read at an index over the stage's own arguments.
-/

noncomputable section

namespace Cert.ReferenceIdeal.Hand

open Cert.ReferenceIdeal Cert.ReferenceIdeal.Gen Idealize.ShloMosaic Idealize.ShloMosaic.ValueIdx
open Cert.Hand.Spec
open scoped BigOperators

variable {F : FTy → Type} [FloatOps F]

/-! ### The gathered arrays -/

/-- The gathered anchor rows `o[s]`. -/
def Ag (a0 : FVec F S512x256 .f32) (a3 : IVec S256 32) : FVec F S256x256 .f32 :=
  Host.gather gather_S512x256_S256x1_S256x256_1_0_n_n_0_1_1256 a0 (idxCol a3)

/-- The gathered mask rows `M[s]`. -/
def Pg (a2 : FVec F S512x512 .f32) (a3 : IVec S256 32) : FVec F S256x512 .f32 :=
  Host.gather gather_S512x512_S256x1_S256x512_1_0_n_n_0_1_1512 a2 (idxCol a3)

/-- The gathered rows `(1 - M)[s]` of the complementary mask. -/
def Ng (a2 : FVec F S512x512 .f32) (a3 : IVec S256 32) : FVec F S256x512 .f32 :=
  Host.gather gather_S512x512_S256x1_S256x512_1_0_n_n_0_1_1512 (refNegMask a2) (idxCol a3)

/-- The guarded softplus of one element: `max(e, 0) + log1p(exp(-|e - 0|))`, replaced by `e + 0`
    where `e - 0` differs from itself. -/
def spChain (e z : F .f32) : F .f32 :=
  Scalar.select (FloatOps.cmpf .une (FloatOps.subf e z) (FloatOps.subf e z))
    (FloatOps.addf e z)
    (FloatOps.addf (FloatOps.maximumf e z)
      (FloatOps.hostUnary .log1p (FloatOps.hostUnary .exp
        (FloatOps.hostNegf (FloatOps.hostAbsf (FloatOps.subf e z))))))

/-! ### Layout: the two double broadcasts read at an index -/

section Layout
variable {α : Type}

/-- A matrix broadcast along a new last axis: entry `(m, j, k)` is entry `(m, j)`. -/
theorem bcCol_apply (x : S256x512.Idx → α) (m : Fin 256) (j k : Fin 512) :
    broadcastInDim S256x512x512 ![0, 1, 2] bcast_S256x512x1_S256x512x512_0_1_2
      (broadcastInDim S256x512x1 ![0, 1] bcast_S256x512_S256x512x1_0_1 x) (ix3 m j k)
      = x (ix2 m j) := by
  rw [broadcastInDim_apply _ _ _ (ix3 m j k) (ix3 m j (0 : Fin 1))
    (fun a => match a with | ⟨0, _⟩ => rfl | ⟨1, _⟩ => rfl | ⟨2, _⟩ => rfl)]
  exact broadcastInDim_apply _ _ _ _ (ix2 m j) (fun a => match a with | ⟨0, _⟩ => rfl | ⟨1, _⟩ => rfl)

/-- A matrix broadcast along a new middle axis: entry `(m, j, k)` is entry `(m, k)`. -/
theorem bcRow_apply (x : S256x512.Idx → α) (m : Fin 256) (j k : Fin 512) :
    broadcastInDim S256x512x512 ![0, 1, 2] bcast_S256x1x512_S256x512x512_0_1_2
      (broadcastInDim S256x1x512 ![0, 2] bcast_S256x512_S256x1x512_0_2 x) (ix3 m j k)
      = x (ix2 m k) := by
  rw [broadcastInDim_apply _ _ _ (ix3 m j k) (ix3 m (0 : Fin 1) k)
    (fun a => match a with | ⟨0, _⟩ => rfl | ⟨1, _⟩ => rfl | ⟨2, _⟩ => rfl)]
  exact broadcastInDim_apply _ _ _ _ (ix2 m k) (fun a => match a with | ⟨0, _⟩ => rfl | ⟨1, _⟩ => rfl)

end Layout

/-! ### The stages at an index, at any instance -/

/-- The pairwise difference at `(m, j, k)`. -/
theorem refDiff_apply (x : FVec F S256x512 .f32) (m : Fin 256) (j k : Fin 512) :
    refDiff x (ix3 m j k) = FloatOps.subf (x (ix2 m j)) (x (ix2 m k)) := by
  unfold refDiff
  show FloatOps.subf _ _ = _
  rw [bcCol_apply, bcRow_apply]

/-- The pair weight at `(m, j, k)`. -/
theorem refW_apply (p n : FVec F S256x512 .f32) (m : Fin 256) (j k : Fin 512) :
    refW p n (ix3 m j k) = FloatOps.mulf (p (ix2 m j)) (n (ix2 m k)) := by
  unfold refW
  show FloatOps.mulf _ _ = _
  rw [bcCol_apply, bcRow_apply]

/-- The guarded softplus at an index is the element chain against the zero word. -/
theorem refSoftplus_apply (z : FVec F S256x512x512 .f32) (i : S256x512x512.Idx) :
    refSoftplus z i = spChain (z i) (FloatOps.ofBits .f32 0x00000000#32) := rfl

/-- `-log_sigmoid` at an index: two negations around the guarded softplus of the negated element. -/
theorem refNls_apply (d : FVec F S256x512x512 .f32) (i : S256x512x512.Idx) :
    refNls d i = FloatOps.hostNegf (FloatOps.hostNegf
      (spChain (FloatOps.hostNegf (d i)) (FloatOps.ofBits .f32 0x00000000#32))) := rfl

/-! ### The stages on the extended reals -/

/-- Every entry of a gathered array is an entry of the operand, so it is real where the operand is. -/
theorem Ag_real (a0 : FVec Ideal S512x256 .f32) (a3 : IVec S256 32)
    (h0 : ∀ i, ∃ r : ℝ, a0 i = ((r : ℝ) : EReal)) (i : S256x256.Idx) :
    ∃ r : ℝ, Ag a0 a3 i = ((r : ℝ) : EReal) := h0 _

theorem Pg_real (a2 : FVec Ideal S512x512 .f32) (a3 : IVec S256 32)
    (h2 : ∀ i, ∃ r : ℝ, a2 i = ((r : ℝ) : EReal)) (i : S256x512.Idx) :
    ∃ r : ℝ, Pg a2 a3 i = ((r : ℝ) : EReal) := h2 _

/-- A real-valued matrix is the coercion of its real reading. -/
theorem coe_matR {a b : ℕ} (X : (⟨2, ![a, b]⟩ : Shape).Idx → EReal)
    (hX : ∀ i, ∃ r : ℝ, X i = ((r : ℝ) : EReal)) (i : Fin a) (j : Fin b) :
    X (ix2 i j) = ((matR X i j : ℝ) : EReal) := by
  obtain ⟨r, hr⟩ := hX (ix2 i j)
  show X (ix2 i j) = (((X (ix2 i j)).toReal : ℝ) : EReal)
  rw [hr, EReal.toReal_coe]

/-- The gathered complement is one minus the gathered mask, entry by entry: gathering commutes
    with a pointwise operation, and the word `0x3F800000` is one. -/
theorem Ng_apply (a2 : FVec Ideal S512x512 .f32) (a3 : IVec S256 32) (i : S256x512.Idx) :
    Ng a2 a3 i = 1 - Pg a2 a3 i := by
  show Ideal.ofBits .f32 0x3F800000#32 - Pg a2 a3 i = _
  rw [Cert.Hand.Consts.ofBits_one]

/-- `-log_sigmoid` at an element that is the real `d` is `sp (-d)`: the guard never fires and the
    two outer negations cancel. -/
theorem refNls_ideal (x : FVec Ideal S256x512x512 .f32) (i : S256x512x512.Idx) (d : ℝ)
    (hd : x i = ((d : ℝ) : EReal)) : refNls x i = ((sp (-d) : ℝ) : EReal) := by
  rw [refNls_apply, hd]
  unfold spChain
  rw [reference_softplus_ops (-d) (FloatOps.hostNegf (F := Ideal) (φ := .f32) ((d : ℝ) : EReal))
    (FloatOps.ofBits (F := Ideal) .f32 0x00000000#32) (EReal.coe_neg d).symm Cert.Hand.Consts.ofBits_zero]
  show -(-((sp (-d) : ℝ) : EReal)) = _
  rw [neg_neg]

/-- One summand of the loss. -/
theorem summand_ideal (s p n : FVec Ideal S256x512 .f32) (S P N : Fin 256 → Fin 512 → ℝ)
    (hs : ∀ m j, s (ix2 m j) = ((S m j : ℝ) : EReal))
    (hp : ∀ m j, p (ix2 m j) = ((P m j : ℝ) : EReal))
    (hn : ∀ m k, n (ix2 m k) = ((N m k : ℝ) : EReal))
    (m : Fin 256) (j k : Fin 512) :
    mulf (refNls (refDiff s)) (refW p n) (ix3 m j k)
      = ((sp (-(S m j - S m k)) * (P m j * N m k) : ℝ) : EReal) := by
  have hd : refDiff s (ix3 m j k) = ((S m j - S m k : ℝ) : EReal) := by
    rw [refDiff_apply, hs, hs]; rfl
  rw [mulf_apply, refNls_ideal (refDiff s) (ix3 m j k) (S m j - S m k) hd, refW_apply, hp, hn]
  show _ * (((P m j : ℝ) : EReal) * ((N m k : ℝ) : EReal)) = _
  rw [← EReal.coe_mul, ← EReal.coe_mul]

/-- The loss sum: the host total of the summands is the coercion of the real triple sum. -/
theorem loss_ideal (s p n : FVec Ideal S256x512 .f32) (S P N : Fin 256 → Fin 512 → ℝ)
    (hs : ∀ m j, s (ix2 m j) = ((S m j : ℝ) : EReal))
    (hp : ∀ m j, p (ix2 m j) = ((P m j : ℝ) : EReal))
    (hn : ∀ m k, n (ix2 m k) = ((N m k : ℝ) : EReal)) :
    Host.reduceAdd (mulf (refNls (refDiff s)) (refW p n)) (constant (F := Ideal) S_ .f32 0x00000000#32)
        reducesTo_S256x512x512_S_d0_1_2 h_S_
      = fun _ => ((∑ m : Fin 256, ∑ j : Fin 512, ∑ k : Fin 512,
          sp (-(S m j - S m k)) * (P m j * N m k) : ℝ) : EReal) := by
  rw [Cert.Hand.Tail.sumall_256x512x512]
  funext _
  rw [coe_sum]
  refine Finset.sum_congr rfl fun m _ => ?_
  rw [coe_sum]
  refine Finset.sum_congr rfl fun j _ => ?_
  rw [coe_sum]
  exact Finset.sum_congr rfl fun k _ => summand_ideal s p n S P N hs hp hn m j k

/-- The tail: with the sum of the terms the real `L`, the weights `p` real and `n = 1 - p`, the
    result is the final choice between `L / D` and `L`, `D` the pair count of `p`. -/
theorem refTail_ideal (v39 : FVec Ideal S256x512x512 .f32) (p n : FVec Ideal S256x512 .f32) (L : ℝ)
    (hL : Host.reduceAdd v39 (constant (F := Ideal) S_ .f32 0x00000000#32)
        reducesTo_S256x512x512_S_d0_1_2 h_S_ = fun _ => ((L : ℝ) : EReal))
    (hp : ∀ i, ∃ r : ℝ, p i = ((r : ℝ) : EReal)) (hn : ∀ i, n i = 1 - p i) :
    refTail v39 p n = fun _ => finalE L (pairR (matR p)) := by
  have hD := Cert.Hand.Tail.pair_value p n hp hn reducesTo_S256x512_S256_d1 reducesTo_S256_S_d0 h_S_
  show select
      (cmpf .ogt
        (Host.reduceAdd
          (mulf (Host.reduceAdd p (constant (F := Ideal) S_ .f32 0x00000000#32) reducesTo_S256x512_S256_d1 h_S_)
            (Host.reduceAdd n (constant (F := Ideal) S_ .f32 0x00000000#32) reducesTo_S256x512_S256_d1 h_S_))
          (constant (F := Ideal) S_ .f32 0x00000000#32) reducesTo_S256_S_d0 h_S_)
        (constant (F := Ideal) S_ .f32 0x00000000#32))
      (Host.divf
        (Host.reduceAdd v39 (constant (F := Ideal) S_ .f32 0x00000000#32) reducesTo_S256x512x512_S_d0_1_2 h_S_)
        (Host.reduceAdd
          (mulf (Host.reduceAdd p (constant (F := Ideal) S_ .f32 0x00000000#32) reducesTo_S256x512_S256_d1 h_S_)
            (Host.reduceAdd n (constant (F := Ideal) S_ .f32 0x00000000#32) reducesTo_S256x512_S256_d1 h_S_))
          (constant (F := Ideal) S_ .f32 0x00000000#32) reducesTo_S256_S_d0 h_S_))
      (Host.reduceAdd v39 (constant (F := Ideal) S_ .f32 0x00000000#32) reducesTo_S256x512x512_S_d0_1_2 h_S_)
    = _
  rw [hL, hD]
  exact Cert.Hand.Tail.final_choice _ _

/-! ### The reference's value -/

/-- With real inputs, the reference's result is the final normalisation of the real loss of the
    gathered rows by the real pair count of the gathered mask. -/
theorem refTerm_ideal (a0 a1 : FVec Ideal S512x256 .f32) (a2 : FVec Ideal S512x512 .f32) (a3 : IVec S256 32)
    (h0 : ∀ i, ∃ r : ℝ, a0 i = ((r : ℝ) : EReal)) (h1 : ∀ i, ∃ r : ℝ, a1 i = ((r : ℝ) : EReal))
    (h2 : ∀ i, ∃ r : ℝ, a2 i = ((r : ℝ) : EReal)) :
    refTerm (F := Ideal) a0 a1 a2 a3 = fun _ => Cert.Hand.Spec.finalE
      (Cert.Hand.Spec.lossR (Cert.Hand.Spec.matR (Ag a0 a3)) (Cert.Hand.Spec.matR a1) (Cert.Hand.Spec.matR (Pg a2 a3)))
      (Cert.Hand.Spec.pairR (Cert.Hand.Spec.matR (Pg a2 a3))) := by
  have hP := coe_matR (Pg a2 a3) (Pg_real a2 a3 h2)
  have hN : ∀ (m : Fin 256) (k : Fin 512),
      Ng a2 a3 (ix2 m k) = ((1 - matR (Pg a2 a3) m k : ℝ) : EReal) := fun m k => by
    rw [Ng_apply, hP]; rfl
  have hL : Host.reduceAdd (mulf (refNls (refDiff (refSim (Ag a0 a3) a1))) (refW (Pg a2 a3) (Ng a2 a3)))
        (constant (F := Ideal) S_ .f32 0x00000000#32) reducesTo_S256x512x512_S_d0_1_2 h_S_
      = fun _ => ((lossR (matR (Ag a0 a3)) (matR a1) (matR (Pg a2 a3)) : ℝ) : EReal) :=
    loss_ideal (refSim (Ag a0 a3) a1) (Pg a2 a3) (Ng a2 a3) (simR (matR (Ag a0 a3)) (matR a1))
      (matR (Pg a2 a3)) (fun m k => 1 - matR (Pg a2 a3) m k)
      (fun m j => ref_sim (Ag a0 a3) a1 (Ag_real a0 a3 h0) h1 m j) hP hN
  show refTail (mulf (refNls (refDiff (refSim (Ag a0 a3) a1))) (refW (Pg a2 a3) (Ng a2 a3)))
      (Pg a2 a3) (Ng a2 a3) = _
  exact refTail_ideal _ _ _ _ hL (Pg_real a2 a3 h2) (Ng_apply a2 a3)

end Cert.ReferenceIdeal.Hand

end
-- ==== Proof.lean ====
/-
  A pairwise ranking loss over gathered rows: with S = (A Bᵀ) / 0.07 the similarities of 256 gathered anchor
  rows A against 512 feature rows B, P the gathered rows of a mask and N = 1 - P, the loss is
      ( Σ_m Σ_j Σ_k softplus (-(S m j - S m k)) · (P m j · N m k) ) / pair_num   when pair_num > 0, else the plain sum,
  with pair_num = Σ_m (Σ_j P m j)(Σ_k N m k).  The reference computes it densely.  The kernel computes the triple
  sum tile by tile on a 4 x 4 x 2 grid, accumulating each row block's tiles into one cell of its output block,
  multiplies by the folded reciprocal of the temperature where the reference divides, and folds the negative
  mask into the inner sum and the positive mask into the middle sum.

  Over the extended reals the two agree once (i) the folded reciprocal is read as the exact inverse of the
  reference's single-precision temperature (the named constant), (ii) the gather indices lie in range (out of
  range the kernel's take fills with a junk value where the reference's indexing clamps), and (iii) the inputs
  are finite, so that the masks distribute over the inner sums.  The three frames need none of this: each
  program runs to the end and leaves its arguments as launched.
-/
import proofs.«423171_j44796508897295_3_alg».proof.Defs
import proofs.«423171_j44796508897295_3_alg».proof.Proof.Gen.Kernel
import proofs.«423171_j44796508897295_3_alg».proof.Proof.Gen.Kernel.Skeleton
import proofs.«423171_j44796508897295_3_alg».proof.Proof.Gen.Kernel.Launch
import proofs.«423171_j44796508897295_3_alg».proof.Proof.Gen.Kernel.Points
import proofs.«423171_j44796508897295_3_alg».proof.Proof.Gen.KernelIdeal
import proofs.«423171_j44796508897295_3_alg».proof.Proof.Gen.KernelIdeal.Skeleton
import proofs.«423171_j44796508897295_3_alg».proof.Proof.Gen.KernelIdeal.Launch
import proofs.«423171_j44796508897295_3_alg».proof.Proof.Gen.KernelIdeal.Points
import proofs.«423171_j44796508897295_3_alg».proof.Proof.Gen.ReferenceIdeal
import proofs.«423171_j44796508897295_3_alg».proof.Proof.Gen.Pre_finite_inputs
import proofs.«423171_j44796508897295_3_alg».proof.Proof.K.Run
import proofs.«423171_j44796508897295_3_alg».proof.Proof.K.Args
import proofs.«423171_j44796508897295_3_alg».proof.Proof.KI.Run
import proofs.«423171_j44796508897295_3_alg».proof.Proof.KI.Args
import proofs.«423171_j44796508897295_3_alg».proof.Proof.KI.Value
import proofs.«423171_j44796508897295_3_alg».proof.Proof.RefRun
import proofs.«423171_j44796508897295_3_alg».proof.Proof.RefValue
import proofs.«423171_j44796508897295_3_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel runs to the end and leaves its four arguments as launched. -/
theorem frame_k : Cert.frame_Kernel := fun m ρ _ =>
  (θ_run (Cert.Kernel.defs (F := Bits)) _ _).mono
    (fun r h c =>
      ⟨(h c Cert.Kernel.main_arg0 (by decide)).trans (Cert.Kernel.Hand.W6_arg0 m c),
       (h c Cert.Kernel.main_arg1 (by decide)).trans (Cert.Kernel.Hand.W6_arg1 m c),
       (h c Cert.Kernel.main_arg2 (by decide)).trans (Cert.Kernel.Hand.W6_arg2 m c),
       (h c Cert.Kernel.main_arg3 (by decide)).trans (Cert.Kernel.Hand.W6_arg3 m c)⟩)
    (Cert.Kernel.Hand.run_main (F := Bits) m ρ)

/-- So does the idealized kernel. -/
theorem frame_ki : Cert.frame_KernelIdeal := fun m ρ _ =>
  (θ_run (Cert.KernelIdeal.defs (F := Ideal)) _ _).mono
    (fun r h c =>
      ⟨(h c Cert.KernelIdeal.main_arg0 (by decide)).trans (Cert.KernelIdeal.Hand.W6_arg0 m c),
       (h c Cert.KernelIdeal.main_arg1 (by decide)).trans (Cert.KernelIdeal.Hand.W6_arg1 m c),
       (h c Cert.KernelIdeal.main_arg2 (by decide)).trans (Cert.KernelIdeal.Hand.W6_arg2 m c),
       (h c Cert.KernelIdeal.main_arg3 (by decide)).trans (Cert.KernelIdeal.Hand.W6_arg3 m c)⟩)
    (Cert.KernelIdeal.Hand.run_main (F := Ideal) m ρ)

/-- And the reference: its run with the result dropped. -/
theorem frame_ri : Cert.frame_ReferenceIdeal := fun m ρ _ =>
  (θ_run (Cert.ReferenceIdeal.defs (F := Ideal)) _ _).mono (fun _ h c => (h c).2)
    (Cert.ReferenceIdeal.Hand.run (F := Ideal) m ρ)

/-- The two sites of the folded reciprocal: the table gives the name the exact inverse of the reference's
    temperature, and the printed constant is that value at the ideal instance. -/
theorem preserves : Cert.preserves_Kernel_KernelIdeal :=
  ⟨IdealRules.named_const.statement Cert.KernelIdeal.κ "inv_temp" .f32 0x41649249#32 ((134217728 / 9395241 : ℝ) : EReal) rfl,
   IdealRules.named_const.statement Cert.KernelIdeal.κ "inv_temp" .f32 0x41649249#32 ((134217728 / 9395241 : ℝ) : EReal) rfl⟩

/-- Both programs end at the specification's value of the (agreeing) arguments. -/
theorem algebraic : Cert.algebraic_KernelIdeal_ReferenceIdeal := by
  intro m ρ m' ρ' hpre hagree
  have hd := fun c : Dev Cert.KernelIdeal.nD => Cert.Hand.PreFacts.decode _ _ _ _ (hpre c)
  refine ⟨fun c => Cert.KernelIdeal.Hand.W6 m c (Proc.devRef .tc Cert.KernelIdeal.main_v12), ?_, ?_⟩
  · exact (θ_run (Cert.KernelIdeal.defs (F := Ideal)) _ _).mono
      (fun r h c =>
        ⟨h c Cert.KernelIdeal.main_v12 (by decide),
         (h c Cert.KernelIdeal.main_arg0 (by decide)).trans (Cert.KernelIdeal.Hand.W6_arg0 m c),
         (h c Cert.KernelIdeal.main_arg1 (by decide)).trans (Cert.KernelIdeal.Hand.W6_arg1 m c),
         (h c Cert.KernelIdeal.main_arg2 (by decide)).trans (Cert.KernelIdeal.Hand.W6_arg2 m c),
         (h c Cert.KernelIdeal.main_arg3 (by decide)).trans (Cert.KernelIdeal.Hand.W6_arg3 m c)⟩)
      (Cert.KernelIdeal.Hand.run_main (F := Ideal) m ρ)
  · refine (θ_run (Cert.ReferenceIdeal.defs (F := Ideal)) _ _).mono (fun r h c => ⟨(h c).1.trans ?_, (h c).2⟩)
      (Cert.ReferenceIdeal.Hand.run (F := Ideal) m' ρ')
    obtain ⟨h0, h1, h2, hidx⟩ := hd c
    rw [(hagree c).1, (hagree c).2.1, (hagree c).2.2.1, (hagree c).2.2.2]
    exact (Cert.ReferenceIdeal.Hand.refTerm_ideal _ _ _ _ h0 h1 h2).trans
      (Cert.KernelIdeal.Hand.kernel_value m c h0 h1 h2 hidx).symm

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
